-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1 : Shape := ⟨2, ![200000, 1]⟩
abbrev S2x6400000 : Shape := ⟨2, ![2, 6400000]⟩
abbrev S1x5 : Shape := ⟨2, ![1, 5]⟩
abbrev S5 : Shape := ⟨1, ![5]⟩
abbrev S10x2 : Shape := ⟨2, ![10, 2]⟩
abbrev S2 : Shape := ⟨1, ![2]⟩
abbrev S_ : Shape := ⟨0, ![]⟩
abbrev S1x6400000 : Shape := ⟨2, ![1, 6400000]⟩

class Facts : Prop where
  bcast_S_S200000x1 : S_.BroadcastsInDim S200000x1 (![] : Fin 0 → Fin S200000x1.rank)
  reducesTo_S200000x1_S_d0_1 : S200000x1.ReducesTo [0, 1] S_
  h_S_ : 0 < S_.numel
  bcast_S_S1x5 : S_.BroadcastsInDim S1x5 (![] : Fin 0 → Fin S1x5.rank)
  reducesTo_S1x5_S_d0_1 : S1x5.ReducesTo [0, 1] S_
  bcast_S_S5 : S_.BroadcastsInDim S5 (![] : Fin 0 → Fin S5.rank)
  reducesTo_S5_S_d0 : S5.ReducesTo [0] S_
  bcast_S_S10x2 : S_.BroadcastsInDim S10x2 (![] : Fin 0 → Fin S10x2.rank)
  reducesTo_S10x2_S_d0_1 : S10x2.ReducesTo [0, 1] S_
  bcast_S_S2 : S_.BroadcastsInDim S2 (![] : Fin 0 → Fin S2.rank)
  reducesTo_S2_S_d0 : S2.ReducesTo [0] S_
  bcast_S_S2x6400000 : S_.BroadcastsInDim S2x6400000 (![] : Fin 0 → Fin S2x6400000.rank)
  reducesTo_S2x6400000_S_d0_1 : S2x6400000.ReducesTo [0, 1] S_
  slices_S2x6400000_S1x6400000_0_0 : S2x6400000.Slices ![0, 0] S1x6400000
  bcast_S_S1x6400000 : S_.BroadcastsInDim S1x6400000 (![] : Fin 0 → Fin S1x6400000.rank)
  reducesTo_S1x6400000_S_d0_1 : S1x6400000.ReducesTo [0, 1] S_

variable [Facts]

def fn_part2 {F : FTy → Type} [FloatOps F] (main_arg2 : IVec S2x6400000 32) (main_v30 : IVec S_ 1) (main_v33 : IVec S1x6400000 1) : IVec S_ 1 :=
  let main_v34 : IVec S1x6400000 32 := (extractStridedSlice S1x6400000 ![0, 0] · slices_S2x6400000_S1x6400000_0_0) main_arg2
  let main_c_12 : IVec S_ 32 := constantI S_ 32 200000#32
  let main_v35 : IVec S1x6400000 32 := broadcastInDim S1x6400000 ![] bcast_S_S1x6400000 main_c_12
  let main_v36 : IVec S1x6400000 1 := cmpi .slt main_v34 main_v35
  let main_v37 : IVec S1x6400000 1 := andi main_v33 main_v36
  let main_c_13 : IVec S_ 1 := constantI S_ 1 1#1
  let main_v38 : IVec S_ 1 := (fun x v => Host.reduce IntOp.andi x v reducesTo_S1x6400000_S_d0_1 h_S_) main_v37 main_c_13
  let main_v39 : IVec S_ 1 := andi main_v30 main_v38
  main_v39

def fn_part1 {F : FTy → Type} [FloatOps F] (main_arg1 : IVec S2x6400000 32) (main_arg2 : IVec S2x6400000 32) (main_arg6 : FVec F S2 .f32) (main_v13 : IVec S_ 1) (main_v16 : IVec S10x2 1) : IVec S_ 1 :=
  let main_c_5 : IVec S_ 1 := constantI S_ 1 1#1
  let main_v17 : IVec S_ 1 := (fun x v => Host.reduce IntOp.andi x v reducesTo_S10x2_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_c_8 : IVec S_ 32 := constantI S_ 32 0#32
  let main_v24 : IVec S2x6400000 32 := broadcastInDim S2x6400000 ![] bcast_S_S2x6400000 main_c_8
  let main_v25 : IVec S2x6400000 1 := cmpi .sge main_arg1 main_v24
  let main_c_9 : IVec S_ 32 := constantI S_ 32 200000#32
  let main_v26 : IVec S2x6400000 32 := broadcastInDim S2x6400000 ![] bcast_S_S2x6400000 main_c_9
  let main_v27 : IVec S2x6400000 1 := cmpi .slt main_arg1 main_v26
  let main_v28 : IVec S2x6400000 1 := andi main_v25 main_v27
  let main_c_10 : IVec S_ 1 := constantI S_ 1 1#1
  let main_v29 : IVec S_ 1 := (fun x v => Host.reduce IntOp.andi x v reducesTo_S2x6400000_S_d0_1 h_S_) main_v28 main_c_10
  let main_v30 : IVec S_ 1 := andi main_v23 main_v29
  let main_v31 : IVec S1x6400000 32 := (extractStridedSlice S1x6400000 ![0, 0] · slices_S2x6400000_S1x6400000_0_0) main_arg2
  let main_c_11 : IVec S_ 32 := constantI S_ 32 0#32
  let main_v32 : IVec S1x6400000 32 := broadcastInDim S1x6400000 ![] bcast_S_S1x6400000 main_c_11
  let main_v33 : IVec S1x6400000 1 := cmpi .sge main_v31 main_v32
  fn_part2 (F := F) main_arg2 main_v30 main_v33

def fn {F : FTy → Type} [FloatOps F] (main_arg0 : FVec F S200000x1 .f32) (main_arg1 : IVec S2x6400000 32) (main_arg2 : IVec S2x6400000 32) (main_arg3 : FVec F S1x5 .f32) (main_arg4 : FVec F S5 .f32) (main_arg5 : FVec F S10x2 .f32) (main_arg6 : FVec F S2 .f32) : IVec S_ 1 :=
  let main_v0 : FVec F S200000x1 .f32 := Host.absf main_arg0
  let main_cst : FVec F S_ .f32 := constant S_ .f32 0x7F800000#32
  let main_v1 : FVec F S200000x1 .f32 := broadcastInDim S200000x1 ![] bcast_S_S200000x1 main_cst
  let main_v2 : IVec S200000x1 1 := cmpf .olt main_v0 main_v1
  let main_c : IVec S_ 1 := constantI S_ 1 1#1
  let main_v3 : IVec S_ 1 := (fun x v => Host.reduce IntOp.andi x v reducesTo_S200000x1_S_d0_1 h_S_) main_v2 main_c
  let main_v4 : FVec F S1x5 .f32 := Host.absf main_arg3
  let main_cst_0 : FVec F S_ .f32 := constant S_ .f32 0x7F800000#32
  let main_v5 : FVec F S1x5 .f32 := broadcastInDim S1x5 ![] bcast_S_S1x5 main_cst_0
  let main_v6 : IVec S1x5 1 := cmpf .olt main_v4 main_v5
  let main_c_1 : IVec S_ 1 := constantI S_ 1 1#1
  let main_v7 : IVec S_ 1 := (fun x v => Host.reduce IntOp.andi x v reducesTo_S1x5_S_d0_1 h_S_) main_v6 main_c_1
  let main_v8 : IVec S_ 1 := andi main_v3 main_v7
  let main_v9 : FVec F S5 .f32 := Host.absf main_arg4
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S10x2 .f32 := Host.absf main_arg5
  let main_cst_4 : FVec F S_ .f32 := constant S_ .f32 0x7F800000#32
  let main_v15 : FVec F S10x2 .f32 := broadcastInDim S10x2 ![] bcast_S_S10x2 main_cst_4
  let main_v16 : IVec S10x2 1 := cmpf .olt main_v14 main_v15
  fn_part1 (F := F) main_arg1 main_arg2 main_arg6 main_v13 main_v16
-- ==== Kernel.lean ====
abbrev S200000x1 : Shape := ⟨2, ![200000, 1]⟩
abbrev S2x6400000 : Shape := ⟨2, ![2, 6400000]⟩
abbrev S1x5 : Shape := ⟨2, ![1, 5]⟩
abbrev S5 : Shape := ⟨1, ![5]⟩
abbrev S10x2 : Shape := ⟨2, ![10, 2]⟩
abbrev S2 : Shape := ⟨1, ![2]⟩
abbrev S_ : Shape := ⟨0, ![]⟩
abbrev S6400000 : Shape := ⟨1, ![6400000]⟩
abbrev S1x6400000 : Shape := ⟨2, ![1, 6400000]⟩
abbrev S200000 : Shape := ⟨1, ![200000]⟩
abbrev S6400000x1 : Shape := ⟨2, ![6400000, 1]⟩
abbrev S1 : Shape := ⟨1, ![1]⟩
abbrev S1x1 : Shape := ⟨2, ![1, 1]⟩
abbrev S5x2 : Shape := ⟨2, ![5, 2]⟩
abbrev S1x2 : Shape := ⟨2, ![1, 2]⟩
abbrev S200000x2 : Shape := ⟨2, ![200000, 2]⟩
abbrev S8000x1 : Shape := ⟨2, ![8000, 1]⟩
abbrev S8000x2 : Shape := ⟨2, ![8000, 2]⟩
abbrev S8000x5 : Shape := ⟨2, ![8000, 5]⟩
abbrev S6400000x2 : Shape := ⟨2, ![6400000, 2]⟩

abbrev nBuf : Space → Nat
  | .hbm => 111
  | .vmem => 11
  | .smem => 0
  | _ => 0

abbrev bufTy : (tb : Table) → Fin (tcTables nBuf tb) → BufTy
  | .hbm, ⟨0, _⟩ => ⟨S200000x1, .f32⟩
  | .hbm, ⟨1, _⟩ => ⟨S2x6400000, .i32⟩
  | .hbm, ⟨2, _⟩ => ⟨S2x6400000, .i32⟩
  | .hbm, ⟨3, _⟩ => ⟨S1x5, .f32⟩
  | .hbm, ⟨4, _⟩ => ⟨S5, .f32⟩
  | .hbm, ⟨5, _⟩ => ⟨S10x2, .f32⟩
  | .hbm, ⟨6, _⟩ => ⟨S2, .f32⟩
  | .hbm, ⟨7, _⟩ => ⟨S_, .f32⟩
  | .hbm, ⟨8, _⟩ => ⟨S6400000, .f32⟩
  | .hbm, ⟨9, _⟩ => ⟨S1x6400000, .i32⟩
  | .hbm, ⟨10, _⟩ => ⟨S6400000, .i32⟩
  | .hbm, ⟨11, _⟩ => ⟨S_, .f32⟩
  | .hbm, ⟨12, _⟩ => ⟨S200000, .f32⟩
  | .hbm, ⟨13, _⟩ => ⟨S6400000x1, .i32⟩
  | .hbm, ⟨14, _⟩ => ⟨S200000, .f32⟩
  | .hbm, ⟨15, _⟩ => ⟨S_, .f32⟩
  | .hbm, ⟨16, _⟩ => ⟨S200000, .f32⟩
  | .hbm, ⟨17, _⟩ => ⟨S200000, .f32⟩
  | .hbm, ⟨18, _⟩ => ⟨S200000, .f32⟩
  | .hbm, ⟨19, _⟩ => ⟨S200000, .f32⟩
  | .hbm, ⟨20, _⟩ => ⟨S200000, .f32⟩
  | .hbm, ⟨21, _⟩ => ⟨S1x6400000, .i32⟩
  | .hbm, ⟨22, _⟩ => ⟨S6400000, .i32⟩
  | .hbm, ⟨23, _⟩ => ⟨S_, .i32⟩
  | .hbm, ⟨24, _⟩ => ⟨S6400000, .i32⟩
  | .hbm, ⟨25, _⟩ => ⟨S6400000, .i1⟩
  | .hbm, ⟨26, _⟩ => ⟨S_, .i32⟩
  | .hbm, ⟨27, _⟩ => ⟨S6400000, .i32⟩
  | .hbm, ⟨28, _⟩ => ⟨S6400000, .i32⟩
  | .hbm, ⟨29, _⟩ => ⟨S6400000, .i32⟩
  | .hbm, ⟨30, _⟩ => ⟨S6400000x1, .i32⟩
  | .hbm, ⟨31, _⟩ => ⟨S1, .i32⟩
  | .hbm, ⟨32, _⟩ => ⟨S_, .i32⟩
  | .hbm, ⟨33, _⟩ => ⟨S6400000x1, .i32⟩
  | .hbm, ⟨34, _⟩ => ⟨S6400000x1, .i1⟩
  | .hbm, ⟨35, _⟩ => ⟨S1x1, .i32⟩
  | .hbm, ⟨36, _⟩ => ⟨S6400000x1, .i32⟩
  | .hbm, ⟨37, _⟩ => ⟨S6400000x1, .i1⟩
  | .hbm, ⟨38, _⟩ => ⟨S6400000x1, .i1⟩
  | .hbm, ⟨39, _⟩ => ⟨S_, .i1⟩
  | .hbm, ⟨40, _⟩ => ⟨S6400000, .i1⟩
  | .hbm, ⟨41, _⟩ => ⟨S6400000, .f32⟩
  | .hbm, ⟨42, _⟩ => ⟨S_, .f32⟩
  | .hbm, ⟨43, _⟩ => ⟨S6400000, .f32⟩
  | .hbm, ⟨44, _⟩ => ⟨S6400000, .f32⟩
  | .hbm, ⟨45, _⟩ => ⟨S1x6400000, .i32⟩
  | .hbm, ⟨46, _⟩ => ⟨S6400000, .i32⟩
  | .hbm, ⟨47, _⟩ => ⟨S_, .f32⟩
  | .hbm, ⟨48, _⟩ => ⟨S200000, .f32⟩
  | .hbm, ⟨49, _⟩ => ⟨S6400000x1, .i32⟩
  | .hbm, ⟨50, _⟩ => ⟨S200000, .f32⟩
  | .hbm, ⟨51, _⟩ => ⟨S200000, .f32⟩
  | .hbm, ⟨52, _⟩ => ⟨S200000, .f32⟩
  | .hbm, ⟨53, _⟩ => ⟨S200000x1, .f32⟩
  | .hbm, ⟨54, _⟩ => ⟨S5x2, .f32⟩
  | .hbm, ⟨55, _⟩ => ⟨S5x2, .f32⟩
  | .hbm, ⟨56, _⟩ => ⟨S1x5, .f32⟩
  | .hbm, ⟨57, _⟩ => ⟨S1x2, .f32⟩
  | .hbm, ⟨58, _⟩ => ⟨S200000x2, .f32⟩
  | .hbm, ⟨59, _⟩ => ⟨S200000x2, .f32⟩
  | .hbm, ⟨60, _⟩ => ⟨S1x6400000, .i32⟩
  | .hbm, ⟨61, _⟩ => ⟨S6400000, .i32⟩
  | .hbm, ⟨62, _⟩ => ⟨S_, .i32⟩
  | .hbm, ⟨63, _⟩ => ⟨S6400000, .i32⟩
  | .hbm, ⟨64, _⟩ => ⟨S6400000, .i1⟩
  | .hbm, ⟨65, _⟩ => ⟨S_, .i32⟩
  | .hbm, ⟨66, _⟩ => ⟨S6400000, .i32⟩
  | .hbm, ⟨67, _⟩ => ⟨S6400000, .i32⟩
  | .hbm, ⟨68, _⟩ => ⟨S6400000, .i32⟩
  | .hbm, ⟨69, _⟩ => ⟨S6400000x1, .i32⟩
  | .hbm, ⟨70, _⟩ => ⟨S1, .i32⟩
  | .hbm, ⟨71, _⟩ => ⟨S_, .i32⟩
  | .hbm, ⟨72, _⟩ => ⟨S6400000x1, .i32⟩
  | .hbm, ⟨73, _⟩ => ⟨S6400000x1, .i1⟩
  | .hbm, ⟨74, _⟩ => ⟨S1x1, .i32⟩
  | .hbm, ⟨75, _⟩ => ⟨S6400000x1, .i32⟩
  | .hbm, ⟨76, _⟩ => ⟨S6400000x1, .i1⟩
  | .hbm, ⟨77, _⟩ => ⟨S6400000x1, .i1⟩
  | .hbm, ⟨78, _⟩ => ⟨S_, .i1⟩
  | .hbm, ⟨79, _⟩ => ⟨S6400000, .i1⟩
  | .hbm, ⟨80, _⟩ => ⟨S6400000x2, .f32⟩
  | .hbm, ⟨81, _⟩ => ⟨S6400000x2, .i1⟩
  | .hbm, ⟨82, _⟩ => ⟨S_, .f32⟩
  | .hbm, ⟨83, _⟩ => ⟨S6400000x2, .f32⟩
  | .hbm, ⟨84, _⟩ => ⟨S6400000x2, .f32⟩
  | .hbm, ⟨85, _⟩ => ⟨S1x6400000, .i32⟩
  | .hbm, ⟨86, _⟩ => ⟨S6400000, .i32⟩
  | .hbm, ⟨87, _⟩ => ⟨S_, .i32⟩
  | .hbm, ⟨88, _⟩ => ⟨S6400000, .i32⟩
  | .hbm, ⟨89, _⟩ => ⟨S6400000, .i1⟩
  | .hbm, ⟨90, _⟩ => ⟨S_, .i32⟩
  | .hbm, ⟨91, _⟩ => ⟨S6400000, .i32⟩
  | .hbm, ⟨92, _⟩ => ⟨S6400000, .i32⟩
  | .hbm, ⟨93, _⟩ => ⟨S6400000, .i32⟩
  | .hbm, ⟨94, _⟩ => ⟨S6400000x1, .i32⟩
  | .hbm, ⟨95, _⟩ => ⟨S1, .i32⟩
  | .hbm, ⟨96, _⟩ => ⟨S_, .i32⟩
  | .hbm, ⟨97, _⟩ => ⟨S6400000x1, .i32⟩
  | .hbm, ⟨98, _⟩ => ⟨S6400000x1, .i1⟩
  | .hbm, ⟨99, _⟩ => ⟨S1x1, .i32⟩
  | .hbm, ⟨100, _⟩ => ⟨S6400000x1, .i32⟩
  | .hbm, ⟨101, _⟩ => ⟨S6400000x1, .i1⟩
  | .hbm, ⟨102, _⟩ => ⟨S6400000x1, .i1⟩
  | .hbm, ⟨103, _⟩ => ⟨S_, .i1⟩
  | .hbm, ⟨104, _⟩ => ⟨S6400000, .i1⟩
  | .hbm, ⟨105, _⟩ => ⟨S6400000x2, .f32⟩
  | .hbm, ⟨106, _⟩ => ⟨S6400000x2, .i1⟩
  | .hbm, ⟨107, _⟩ => ⟨S_, .f32⟩
  | .hbm, ⟨108, _⟩ => ⟨S6400000x2, .f32⟩
  | .hbm, ⟨109, _⟩ => ⟨S6400000x2, .f32⟩
  | .hbm, ⟨110, _⟩ => ⟨S6400000x2, .f32⟩
  | .local _ .vmem, ⟨0, _⟩ => ⟨S8000x1, .f32⟩
  | .local _ .vmem, ⟨1, _⟩ => ⟨S8000x1, .f32⟩
  | .local _ .vmem, ⟨2, _⟩ => ⟨S1x5, .f32⟩
  | .local _ .vmem, ⟨3, _⟩ => ⟨S1x5, .f32⟩
  | .local _ .vmem, ⟨4, _⟩ => ⟨S5x2, .f32⟩
  | .local _ .vmem, ⟨5, _⟩ => ⟨S5x2, .f32⟩
  | .local _ .vmem, ⟨6, _⟩ => ⟨S1x2, .f32⟩
  | .local _ .vmem, ⟨7, _⟩ => ⟨S8000x2, .f32⟩
  | .local _ .vmem, ⟨8, _⟩ => ⟨S8000x2, .f32⟩
  | .local _ .vmem, ⟨9, _⟩ => ⟨S8000x2, .f32⟩
  | .local _ .vmem, ⟨10, _⟩ => ⟨S8000x2, .f32⟩
  | _, _ => ⟨S200000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_2 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26_0 : Ref sig .tc := ⟨.hbm, 58, rfl⟩
abbrev main_v26_1 : Ref sig .tc := ⟨.hbm, 59, rfl⟩
abbrev main_v27 : Ref sig .tc := ⟨.hbm, 60, rfl⟩
abbrev main_v28 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v32 : Ref sig .tc := ⟨.hbm, 109, rfl⟩
abbrev main_v33 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8000x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S6400000 : S_.BroadcastsInDim S6400000 (![] : Fin 0 → Fin S6400000.rank)
  slices_S2x6400000_S1x6400000_1_0 : S2x6400000.Slices ![1, 0] S1x6400000
  shapeCasts_S1x6400000_S6400000 : S1x6400000.ShapeCasts S6400000
  bcast_S_S200000 : S_.BroadcastsInDim S200000 (![] : Fin 0 → Fin S200000.rank)
  bcast_S6400000_S6400000x1_0 : S6400000.BroadcastsInDim S6400000x1 (![0] : Fin 1 → Fin S6400000x1.rank)
  shapeCasts_S200000x1_S200000 : S200000x1.ShapeCasts S200000
  slices_S2x6400000_S1x6400000_0_0 : S2x6400000.Slices ![0, 0] S1x6400000
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  shapeCasts_S200000_S200000x1 : S200000.ShapeCasts S200000x1
  slices_S10x2_S5x2_0_0 : S10x2.Slices ![0, 0] S5x2
  slices_S10x2_S5x2_5_0 : S10x2.Slices ![5, 0] S5x2
  shapeCasts_S5_S1x5 : S5.ShapeCasts S1x5
  shapeCasts_S2_S1x2 : S2.ShapeCasts S1x2
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S1x5_S1x5_0_0 : ∀ a, (![0, 0] : Fin 2 → Nat) a + S1x5.size a ≤ S1x5.size a
  h_S1x5 : 0 < S1x5.numel
  broadcasts_S8000x1_S8000x5 : S8000x1.Broadcasts S8000x5
  broadcasts_S1x5_S8000x5 : S1x5.Broadcasts S8000x5
  shapeCasts_S1x5_S1x5 : S1x5.ShapeCasts S1x5
  inb_S5x2_S5x2_0_0 : ∀ a, (![0, 0] : Fin 2 → Nat) a + S5x2.size a ≤ S5x2.size a
  h_S5x2 : 0 < S5x2.numel
  shapeCasts_S5x2_S5x2 : S5x2.ShapeCasts S5x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  bcast_S6400000_S6400000x2_0 : S6400000.BroadcastsInDim S6400000x2 (![0] : Fin 1 → Fin S6400000x2.rank)
  bcast_S_S6400000x2 : S_.BroadcastsInDim S6400000x2 (![] : Fin 0 → Fin S6400000x2.rank)
  scatter_S200000_S6400000x1_S6400000_n_0_0_1_wf : ScatterDims.WF S200000 S6400000x1 S6400000 [] [0] [0] 1
  gather_S200000_S6400000x1_S6400000_n_0_n_n_0_1_1_wf : GatherDims.WF S200000 S6400000x1 S6400000 [] [0] [] [0] [] 1 ![1]
  dot_S8000x5_S5x2_S8000x2_1_0_0_1_n_n_wf : DotDims.WF S8000x5 S5x2 S8000x2 [1] [0] [0] [1] [] []
  gather_S200000x2_S6400000x1_S6400000x2_1_0_n_n_0_1_12_wf : GatherDims.WF S200000x2 S6400000x1 S6400000x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S200000x1.size a
  hwx0_0 : ∀ i : grid0.Coords, EltTy.bits .f32 = 32 ∨ (Rect.block (s := S200000x1) S8000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x5.size a ≤ S1x5.size a
  hwx0_1 : ∀ i : grid0.Coords, EltTy.bits .f32 = 32 ∨ (Rect.block (s := S1x5) S1x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x2.size a ≤ S5x2.size a
  hwx0_3 : ∀ i : grid0.Coords, EltTy.bits .f32 = 32 ∨ (Rect.block (s := S5x2) S5x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x2.size a ≤ S5x2.size a
  hwx0_4 : ∀ i : grid0.Coords, EltTy.bits .f32 = 32 ∨ (Rect.block (s := S5x2) S5x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2.size a ≤ S1x2.size a
  hwx0_5 : ∀ i : grid0.Coords, EltTy.bits .f32 = 32 ∨ (Rect.block (s := S1x2) S1x2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x2.size a ≤ S200000x2.size a
  hwx0_6 : ∀ i : grid0.Coords, EltTy.bits .f32 = 32 ∨ (Rect.block (s := S200000x2) S8000x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x2.size a ≤ S200000x2.size a
  hwx0_7 : ∀ i : grid0.Coords, EltTy.bits .f32 = 32 ∨ (Rect.block (s := S200000x2) S8000x2.size (cc0_transform_7 i) (hinb0_7 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def dot_S8000x5_S5x2_S8000x2_1_0_0_1_n_n : DotDims S8000x5 S5x2 S8000x2 where
  lhsContracting := [1]
  rhsContracting := [0]
  lhsNonContracting := [0]
  rhsNonContracting := [1]
  lhsBatch := []
  rhsBatch := []
  wf := dot_S8000x5_S5x2_S8000x2_1_0_0_1_n_n_wf
def gather_S200000x2_S6400000x1_S6400000x2_1_0_n_n_0_1_12 : GatherDims S200000x2 S6400000x1 S6400000x2 where
  offsetDims := [1]
  collapsedSliceDims := [0]
  operandBatchingDims := []
  startIndicesBatchingDims := []
  startIndexMap := [0]
  indexVectorDim := 1
  sliceSizes := ![1, 2]
  wf := gather_S200000x2_S6400000x1_S6400000x2_1_0_n_n_0_1_12_wf

abbrev win0_0 : Pipeline.Window sig grid0 :=
  Pipeline.Window.ofSpec (Memref.whole main_v21) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S5x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S8000x2.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S8000x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S200000x1 : Shape := ⟨2, ![200000, 1]⟩
abbrev S2x6400000 : Shape := ⟨2, ![2, 6400000]⟩
abbrev S1x5 : Shape := ⟨2, ![1, 5]⟩
abbrev S5 : Shape := ⟨1, ![5]⟩
abbrev S10x2 : Shape := ⟨2, ![10, 2]⟩
abbrev S2 : Shape := ⟨1, ![2]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x5 : Shape := ⟨2, ![200000, 5]⟩
abbrev S6600000x5 : Shape := ⟨2, ![6600000, 5]⟩
abbrev S6400000x1 : Shape := ⟨2, ![6400000, 1]⟩
abbrev S6400000x5 : Shape := ⟨2, ![6400000, 5]⟩
abbrev S6400000x10 : Shape := ⟨2, ![6400000, 10]⟩
abbrev S6400000x2 : Shape := ⟨2, ![6400000, 2]⟩
abbrev S1x2 : Shape := ⟨2, ![1, 2]⟩

abbrev nBuf : Space → Nat
  | .hbm => 100
  | .vmem => 0
  | .smem => 0
  | _ => 0

abbrev bufTy : (tb : Table) → Fin (tcTables nBuf tb) → BufTy
  | .hbm, ⟨0, _⟩ => ⟨S200000x1, .f32⟩
  | .hbm, ⟨1, _⟩ => ⟨S2x6400000, .i32⟩
  | .hbm, ⟨2, _⟩ => ⟨S2x6400000, .i32⟩
  | .hbm, ⟨3, _⟩ => ⟨S1x5, .f32⟩
  | .hbm, ⟨4, _⟩ => ⟨S5, .f32⟩
  | .hbm, ⟨5, _⟩ => ⟨S10x2, .f32⟩
  | .hbm, ⟨6, _⟩ => ⟨S2, .f32⟩
  | .hbm, ⟨7, _⟩ => ⟨S200000, .i32⟩
  | .hbm, ⟨8, _⟩ => ⟨S1x6400000, .i32⟩
  | .hbm, ⟨9, _⟩ => ⟨S6400000, .i32⟩
  | .hbm, ⟨10, _⟩ => ⟨S6600000, .i32⟩
  | .hbm, ⟨11, _⟩ => ⟨S1x6400000, .i32⟩
  | .hbm, ⟨12, _⟩ => ⟨S6400000, .i32⟩
  | .hbm, ⟨13, _⟩ => ⟨S6600000, .i32⟩
  | .hbm, ⟨14, _⟩ => ⟨S_, .f32⟩
  | .hbm, ⟨15, _⟩ => ⟨S6600000, .f32⟩
  | .hbm, ⟨16, _⟩ => ⟨S_, .f32⟩
  | .hbm, ⟨17, _⟩ => ⟨S200000, .f32⟩
  | .hbm, ⟨18, _⟩ => ⟨S6600000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S200000, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S200000x5, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x5, .f32⟩
  | .hbm, ⟨56, _⟩ => ⟨S6600000x1, .f32⟩
  | .hbm, ⟨57, _⟩ => ⟨S6600000x5, .f32⟩
  | .hbm, ⟨58, _⟩ => ⟨S6600000x5, .f32⟩
  | .hbm, ⟨59, _⟩ => ⟨S_, .f32⟩
  | .hbm, ⟨60, _⟩ => ⟨S200000x5, .f32⟩
  | .hbm, ⟨61, _⟩ => ⟨S6600000x1, .i32⟩
  | .hbm, ⟨62, _⟩ => ⟨S200000x5, .f32⟩
  | .hbm, ⟨63, _⟩ => ⟨S1x5, .f32⟩
  | .hbm, ⟨64, _⟩ => ⟨S200000x5, .f32⟩
  | .hbm, ⟨65, _⟩ => ⟨S200000x5, .f32⟩
  | .hbm, ⟨66, _⟩ => ⟨S_, .f32⟩
  | .hbm, ⟨67, _⟩ => ⟨S200000x5, .f32⟩
  | .hbm, ⟨68, _⟩ => ⟨S200000x5, .i1⟩
  | .hbm, ⟨69, _⟩ => ⟨S_, .f32⟩
  | .hbm, ⟨70, _⟩ => ⟨S200000x5, .f32⟩
  | .hbm, ⟨71, _⟩ => ⟨S200000x5, .f32⟩
  | .hbm, ⟨72, _⟩ => ⟨S200000x5, .f32⟩
  | .hbm, ⟨73, _⟩ => ⟨S1x6400000, .i32⟩
  | .hbm, ⟨74, _⟩ => ⟨S6400000, .i32⟩
  | .hbm, ⟨75, _⟩ => ⟨S_, .i32⟩
  | .hbm, ⟨76, _⟩ => ⟨S6400000, .i32⟩
  | .hbm, ⟨77, _⟩ => ⟨S6400000, .i1⟩
  | .hbm, ⟨78, _⟩ => ⟨S_, .i32⟩
  | .hbm, ⟨79, _⟩ => ⟨S6400000, .i32⟩
  | .hbm, ⟨80, _⟩ => ⟨S6400000, .i32⟩
  | .hbm, ⟨81, _⟩ => ⟨S6400000, .i32⟩
  | .hbm, ⟨82, _⟩ => ⟨S6400000x1, .i32⟩
  | .hbm, ⟨83, _⟩ => ⟨S6400000x5, .f32⟩
  | .hbm, ⟨84, _⟩ => ⟨S1x6400000, .i32⟩
  | .hbm, ⟨85, _⟩ => ⟨S6400000, .i32⟩
  | .hbm, ⟨86, _⟩ => ⟨S_, .i32⟩
  | .hbm, ⟨87, _⟩ => ⟨S6400000, .i32⟩
  | .hbm, ⟨88, _⟩ => ⟨S6400000, .i1⟩
  | .hbm, ⟨89, _⟩ => ⟨S_, .i32⟩
  | .hbm, ⟨90, _⟩ => ⟨S6400000, .i32⟩
  | .hbm, ⟨91, _⟩ => ⟨S6400000, .i32⟩
  | .hbm, ⟨92, _⟩ => ⟨S6400000, .i32⟩
  | .hbm, ⟨93, _⟩ => ⟨S6400000x1, .i32⟩
  | .hbm, ⟨94, _⟩ => ⟨S6400000x5, .f32⟩
  | .hbm, ⟨95, _⟩ => ⟨S6400000x10, .f32⟩
  | .hbm, ⟨96, _⟩ => ⟨S6400000x2, .f32⟩
  | .hbm, ⟨97, _⟩ => ⟨S1x2, .f32⟩
  | .hbm, ⟨98, _⟩ => ⟨S6400000x2, .f32⟩
  | .hbm, ⟨99, _⟩ => ⟨S6400000x2, .f32⟩
  | _, _ => ⟨S200000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_11 : Ref sig .tc := ⟨.hbm, 75, rfl⟩
abbrev main_v55 : Ref sig .tc := ⟨.hbm, 76, rfl⟩
abbrev main_v56 : Ref sig .tc := ⟨.hbm, 77, rfl⟩
abbrev main_c_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_13 : Ref sig .tc := ⟨.hbm, 86, rfl⟩
abbrev main_v64 : Ref sig .tc := ⟨.hbm, 87, rfl⟩
abbrev main_v65 : Ref sig .tc := ⟨.hbm, 88, rfl⟩
abbrev main_c_14 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x5_0_1 : S6600000x1.BroadcastsInDim S6600000x5 (![0, 1] : Fin 2 → Fin S6600000x5.rank)
  bcast_S_S200000x5 : S_.BroadcastsInDim S200000x5 (![] : Fin 0 → Fin S200000x5.rank)
  bcast_S5_S1x5_1 : S5.BroadcastsInDim S1x5 (![1] : Fin 1 → Fin S1x5.rank)
  bcast_S1x5_S200000x5_0_1 : S1x5.BroadcastsInDim S200000x5 (![0, 1] : Fin 2 → Fin S200000x5.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  concatenates_S6400000x5_S6400000x5_S6400000x10_d1 : Shape.Concatenates [S6400000x5, S6400000x5] S6400000x10 1
  bcast_S2_S1x2_1 : S2.BroadcastsInDim S1x2 (![1] : Fin 1 → Fin S1x2.rank)
  bcast_S1x2_S6400000x2_0_1 : S1x2.BroadcastsInDim S6400000x2 (![0, 1] : Fin 2 → Fin S6400000x2.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x1_S1x5_S200000x5_1_0_0_1_n_n_wf : DotDims.WF S200000x1 S1x5 S200000x5 [1] [0] [0] [1] [] []
  gather_S200000x5_S6600000x1_S6600000x5_1_0_n_n_0_1_15_wf : GatherDims.WF S200000x5 S6600000x1 S6600000x5 [1] [0] [] [0] [] 1 ![1, 5]
  scatter_S200000x5_S6600000x1_S6600000x5_1_0_0_1_wf : ScatterDims.WF S200000x5 S6600000x1 S6600000x5 [1] [0] [0] 1
  gather_S200000x5_S6400000x1_S6400000x5_1_0_n_n_0_1_15_wf : GatherDims.WF S200000x5 S6400000x1 S6400000x5 [1] [0] [] [0] [] 1 ![1, 5]
  dot_S6400000x10_S10x2_S6400000x2_1_0_0_1_n_n_wf : DotDims.WF S6400000x10 S10x2 S6400000x2 [1] [0] [0] [1] [] []

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x1_S1x5_S200000x5_1_0_0_1_n_n : DotDims S200000x1 S1x5 S200000x5 where
  lhsContracting := [1]
  rhsContracting := [0]
  lhsNonContracting := [0]
  rhsNonContracting := [1]
  lhsBatch := []
  rhsBatch := []
  wf := dot_S200000x1_S1x5_S200000x5_1_0_0_1_n_n_wf
def gather_S200000x5_S6600000x1_S6600000x5_1_0_n_n_0_1_15 : GatherDims S200000x5 S6600000x1 S6600000x5 where
  offsetDims := [1]
  collapsedSliceDims := [0]
  operandBatchingDims := []
  startIndicesBatchingDims := []
  startIndexMap := [0]
  indexVectorDim := 1
  sliceSizes := ![1, 5]
  wf := gather_S200000x5_S6600000x1_S6600000x5_1_0_n_n_0_1_15_wf
def scatter_S200000x5_S6600000x1_S6600000x5_1_0_0_1 : ScatterDims S200000x5 S6600000x1 S6600000x5 where
  updateWindowDims := [1]
  insertedWindowDims := [0]
  scatterDimsToOperandDims := [0]
  indexVectorDim := 1
  wf := scatter_S200000x5_S6600000x1_S6600000x5_1_0_0_1_wf
def gather_S200000x5_S6400000x1_S6400000x5_1_0_n_n_0_1_15 : GatherDims S200000x5 S6400000x1 S6400000x5 where
  offsetDims := [1]
  collapsedSliceDims := [0]
  operandBatchingDims := []
  startIndicesBatchingDims := []
  startIndexMap := [0]
  indexVectorDim := 1
  sliceSizes := ![1, 5]
  wf := gather_S200000x5_S6400000x1_S6400000x5_1_0_n_n_0_1_15_wf
def dot_S6400000x10_S10x2_S6400000x2_1_0_0_1_n_n : DotDims S6400000x10 S10x2 S6400000x2 where
  lhsContracting := [1]
  rhsContracting := [0]
  lhsNonContracting := [0]
  rhsNonContracting := [1]
  lhsBatch := []
  rhsBatch := []
  wf := dot_S6400000x10_S10x2_S6400000x2_1_0_0_1_n_n_wf

class Facts : Prop extends Facts₀ where

variable [Facts]
-- ==== Proof.Spec.lean ====
/-
  The value both programs compute, as one function of the argument arrays, on the extended reals.

  Nodes are `Fin 200000`, edges `Fin 6400000`. An edge table `eo` (two rows of index words) gives each edge a
  source word `row e` and a segment word `col e`; an edge counts towards node `i` when its segment word, read
  signed, is exactly `i` (a word outside `[0, 200000)` counts towards no node). With `deg i` the number of such
  edges plus one (the self loop), `dinv i = deg i ^ (-1/2)`, and `s i = x i · dinv i`,

      t i      = dinv i · ((∑ over the edges e into i of  s (node (row e))) + s i)
      h i j    = leaky (t i · W j + b j)
      p i c    = (∑ k < 5, h i k · W2 k c) + b2 c            q i c = ∑ k < 5, h i k · W2 (5 + k) c
      out e c  = p (node (dst e)) c + q (node (src e)) c

  where `node w` is the word `w` read signed and clamped into the table, and `src`, `dst` are the two rows of the
  second edge table `ei`. `leaky v` is `v` for `0 ≤ v` and `f32(0.01) · v` otherwise, with the literal kept as the
  word both programs carry.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The node an index word names: the word read signed, clamped into `[0, 200000)`. -/
def node (w : BitVec 32) : Fin 200000 := ⟨min w.toInt.toNat 199999, by omega⟩

/-- A word in range names the node with its own value. -/
theorem node_val {w : BitVec 32} (h0 : 0 ≤ w.toInt) (h1 : w.toInt < 200000) : ((node w).val : ℤ) = w.toInt := by
  unfold node
  simp only
  omega

/-- The edges whose segment word is exactly node `i`. -/
def into (col : Fin 6400000 → BitVec 32) (i : Fin 200000) : Finset (Fin 6400000) :=
  Finset.univ.filter fun e => (col e).toInt = (i.val : ℤ)

/-- In-degree plus the self loop. -/
def deg (col : Fin 6400000 → BitVec 32) (i : Fin 200000) : EReal := (∑ _e ∈ into col i, (1 : EReal)) + 1

/-- The symmetric normalisation's factor. -/
def dinv (col : Fin 6400000 → BitVec 32) (i : Fin 200000) : EReal := Ideal.rsqrt (deg col i)

/-- The node feature scaled by its factor. -/
def s (x : Fin 200000 → EReal) (col : Fin 6400000 → BitVec 32) (i : Fin 200000) : EReal := x i * dinv col i

/-- The aggregate over the edges into `i` of their sources' scaled features. -/
def agg (x : Fin 200000 → EReal) (row col : Fin 6400000 → BitVec 32) (i : Fin 200000) : EReal :=
  ∑ e ∈ into col i, s x col (node (row e))

/-- The normalised aggregate, self loop included. -/
def t (x : Fin 200000 → EReal) (row col : Fin 6400000 → BitVec 32) (i : Fin 200000) : EReal :=
  dinv col i * (agg x row col i + s x col i)

/-- Leaky rectification with the slope both programs carry as the word `0x3C23D70A`. -/
def leaky (v : EReal) : EReal := Scalar.select (Ideal.cmp .oge v 0) v (Ideal.ofBits .f32 0x3C23D70A#32 * v)

/-- The hidden feature of node `i`, column `j`, from a node column `T`. -/
def hN (T : Fin 200000 → EReal) (W b : Fin 5 → EReal) (i : Fin 200000) (j : Fin 5) : EReal := leaky (T i * W j + b j)

/-- The first projection, bias included. -/
def pN (T : Fin 200000 → EReal) (W b : Fin 5 → EReal) (A : Fin 5 → Fin 2 → EReal) (b2 : Fin 2 → EReal)
    (i : Fin 200000) (c : Fin 2) : EReal := (∑ k : Fin 5, hN T W b i k * A k c) + b2 c

/-- The second projection. -/
def qN (T : Fin 200000 → EReal) (W b : Fin 5 → EReal) (A : Fin 5 → Fin 2 → EReal)
    (i : Fin 200000) (c : Fin 2) : EReal := ∑ k : Fin 5, hN T W b i k * A k c

section Arrays

variable (X : (⟨2, ![200000, 1]⟩ : Shape).Idx → EReal) (ei eo : IVec ⟨2, ![2, 6400000]⟩ 32)
  (Wa : (⟨2, ![1, 5]⟩ : Shape).Idx → EReal) (ba : (⟨1, ![5]⟩ : Shape).Idx → EReal)
  (W2a : (⟨2, ![10, 2]⟩ : Shape).Idx → EReal) (b2a : (⟨1, ![2]⟩ : Shape).Idx → EReal)

/-- The node features as a column. -/
def xOf : Fin 200000 → EReal := fun i => X (ix2 i 0)
/-- An edge table's first row. -/
def row0 (tb : IVec ⟨2, ![2, 6400000]⟩ 32) : Fin 6400000 → BitVec 32 := fun e => tb (ix2 0 e)
/-- An edge table's second row. -/
def row1 (tb : IVec ⟨2, ![2, 6400000]⟩ 32) : Fin 6400000 → BitVec 32 := fun e => tb (ix2 1 e)
/-- The first layer's weight row and bias. -/
def wOf : Fin 5 → EReal := fun j => Wa (ix2 0 j)
def bOf : Fin 5 → EReal := fun j => ba (ix1 j)
/-- The second layer's weight, its first five and its last five rows, and its bias. -/
def w2lo : Fin 5 → Fin 2 → EReal := fun k c => W2a (ix2 (Fin.castAdd 5 k) c)
def w2hi : Fin 5 → Fin 2 → EReal := fun k c => W2a (ix2 (Fin.natAdd 5 k) c)
def b2Of : Fin 2 → EReal := fun c => b2a (ix1 c)

/-- The node column `t` of the argument arrays. -/
def tOf : Fin 200000 → EReal := t (xOf X) (row0 eo) (row1 eo)

/-- The hidden features of the argument arrays. -/
def hOf (i : Fin 200000) (j : Fin 5) : EReal := hN (tOf X eo) (wOf Wa) (bOf ba) i j

/-- The result at edge `e`, column `c`. -/
def out (e : Fin 6400000) (c : Fin 2) : EReal :=
  pN (tOf X eo) (wOf Wa) (bOf ba) (w2lo W2a) (b2Of b2a) (node (row1 ei e)) c
    + qN (tOf X eo) (wOf Wa) (bOf ba) (w2hi W2a) (node (row0 ei e)) c

/-- The result array. -/
def outArr : (⟨2, ![6400000, 2]⟩ : Shape).Idx → EReal := fun j => out X ei eo Wa ba W2a b2a (j 0) (j 1)

theorem outArr_ix2 (e : Fin 6400000) (c : Fin 2) : outArr X ei eo Wa ba W2a b2a (ix2 e c) = out X ei eo Wa ba W2a b2a e c := rfl

/-- What the proof uses of the precondition: the node features and the first weight row are real numbers, every
    word of the second edge table and every source word of the first names a node. -/
structure Good : Prop where
  X_fin : ∀ i, X i ≠ ⊤ ∧ X i ≠ ⊥
  W_fin : ∀ i, Wa i ≠ ⊤ ∧ Wa i ≠ ⊥
  ei_rng : ∀ j, 0 ≤ (ei j).toInt ∧ (ei j).toInt < 200000
  row_rng : ∀ e : Fin 6400000, 0 ≤ (eo (ix2 0 e)).toInt ∧ (eo (ix2 0 e)).toInt < 200000

end Arrays

/-- The word `0x3F800000` is the number one. -/
theorem ofBits_one : Ideal.ofBits .f32 0x3F800000#32 = 1 := by
  simp [Ideal.ofBits, Ideal.ieee, -EReal.coe_mul]; norm_num

end Cert.Spec

end
-- ==== Proof.PreDecode.lean ====
/-
  What the proof uses of the precondition, decoded from the printed predicate.

  The predicate is a conjunction of seven `all`-reductions: five say that every entry of a float argument has absolute
  value below +∞, one that every word of the second edge table is at least 0 and below 200000, one the same of the first
  row of the first edge table. Each reduction being one, every entry satisfies its test.
-/
import proofs.«424222_j14405320311021_3_alg».proof.Proof.Gen.KernelIdeal
import proofs.«424222_j14405320311021_3_alg».proof.Proof.Gen.Pre_finite_inputs
import proofs.«424222_j14405320311021_3_alg».proof.Proof.Spec
import proofs.«424222_j14405320311021_3_alg».proof.Defs
import Idealize.ShloMosaic.Lib.ReduceAll
import Idealize.ShloMosaic.Lib.StableHlo.Predicate
import Idealize.ShloMosaic.Lib.Pipeline.Value
import Idealize.ShloMosaic.PureOps.Ideal.Laws

noncomputable section

namespace Cert.PreDecode

open Idealize.ShloMosaic Idealize.ShloMosaic.TcCoe Idealize.SL.Sem Idealize.ShloMosaic.ValueIdx

instance : Subsingleton (⟨0, ![]⟩ : Shape).Idx := ⟨fun a b => funext fun d => d.elim0⟩

/-- A word at least 0 and below 200000, both read signed. -/
theorem word_rng (w : BitVec 32) (h0 : IntOp.cmpi .sge w 0#32 = 1#1) (h1 : IntOp.cmpi .slt w 200000#32 = 1#1) :
    0 ≤ w.toInt ∧ w.toInt < 200000 := by
  rw [IntOp.cmpi_sge] at h0
  rw [IntOp.cmpi_slt] at h1
  have e0 : (0#32 : BitVec 32).toInt = 0 := by decide
  have e1 : (200000#32 : BitVec 32).toInt = 200000 := by decide
  omega

/-- An extended real whose absolute value is below +∞ is a real number. -/
theorem real_of_abs_lt (x : EReal) (h : Ideal.cmp .olt (max x (-x)) (Ideal.ofBits .f32 0x7F800000#32) = 1#1) :
    x ≠ ⊤ ∧ x ≠ ⊥ := by
  have hT : Ideal.ofBits .f32 0x7F800000#32 = ⊤ := by simp [Ideal.ofBits, Ideal.ieee]
  rw [hT] at h
  unfold Ideal.cmp at h
  rw [StableHlo.Predicate.ofBool_eq_one_iff, decide_eq_true_eq] at h
  constructor
  · rintro rfl
    simp at h
  · rintro rfl
    simp at h

/-- A conjunction of one-bit arrays is one at an index exactly when both are. -/
theorem andi_apply_eq_one {s : Shape} (a b : IVec s 1) (i : s.Idx) : andi a b i = 1#1 ↔ a i = 1#1 ∧ b i = 1#1 :=
  IntOp.andi_eq_one

/-- "Every absolute value is below +∞" reduced to one: every entry is a real number. -/
theorem all_real {s : Shape} {axes : List (Fin s.rank)} (x : s.Idx → EReal)
    (hb : (⟨0, ![]⟩ : Shape).BroadcastsInDim s (![] : Fin 0 → Fin s.rank))
    (hr : s.ReducesTo axes ⟨0, ![]⟩) (h0 : 0 < (⟨0, ![]⟩ : Shape).numel)
    (h : Host.reduce IntOp.andi
        (cmpf .olt (Host.absf (F := Ideal) (φ := .f32) x)
          (broadcastInDim s ![] hb (constant (F := Ideal) ⟨0, ![]⟩ .f32 0x7F800000#32)))
        (constantI ⟨0, ![]⟩ 1 1#1) hr h0 ix0 = 1#1) (i : s.Idx) : x i ≠ ⊤ ∧ x i ≠ ⊥ :=
  real_of_abs_lt (x i) (Host.reduce_andi_all _ _ hr h0 ix0 h i)

/-- "Every word is at least 0 and below 200000" reduced to one: every word is. -/
theorem all_rng {s : Shape} {axes : List (Fin s.rank)} (t : IVec s 32)
    (hb : (⟨0, ![]⟩ : Shape).BroadcastsInDim s (![] : Fin 0 → Fin s.rank))
    (hr : s.ReducesTo axes ⟨0, ![]⟩) (h0 : 0 < (⟨0, ![]⟩ : Shape).numel)
    (h : Host.reduce IntOp.andi
        (andi (cmpi .sge t (broadcastInDim s ![] hb (constantI ⟨0, ![]⟩ 32 0#32)))
          (cmpi .slt t (broadcastInDim s ![] hb (constantI ⟨0, ![]⟩ 32 200000#32))))
        (constantI ⟨0, ![]⟩ 1 1#1) hr h0 ix0 = 1#1) (i : s.Idx) : 0 ≤ (t i).toInt ∧ (t i).toInt < 200000 := by
  obtain ⟨e0, e1⟩ := IntOp.andi_eq_one.1 (Host.reduce_andi_all _ _ hr h0 ix0 h i)
  exact word_rng (t i) e0 e1

/-- The first row of a two-row table, cut out as a one-row table, read at column `e`. -/
theorem row0_slice {n : Nat} (tb : IVec ⟨2, ![2, n]⟩ 32) (hs : (⟨2, ![2, n]⟩ : Shape).Slices ![0, 0] ⟨2, ![1, n]⟩) (e : Fin n) :
    extractStridedSlice ⟨2, ![1, n]⟩ ![0, 0] tb hs (ix2 0 e) = tb (ix2 0 e) := by
  refine extractStridedSlice_apply _ tb hs (ix2 0 e) (ix2 0 e) fun a => ?_
  match a with
  | ⟨0, _⟩ => rfl
  | ⟨1, _⟩ => exact (Nat.zero_add _).symm

/-- From the printed predicate being one on the argument arrays: finite node features, a finite weight row, every word
    of the second edge table and every source word of the first naming a node. -/
theorem good_of_fn (X : (⟨2, ![200000, 1]⟩ : Shape).Idx → EReal) (ei eo : IVec ⟨2, ![2, 6400000]⟩ 32)
    (Wa : (⟨2, ![1, 5]⟩ : Shape).Idx → EReal) (ba : (⟨1, ![5]⟩ : Shape).Idx → EReal)
    (W2a : (⟨2, ![10, 2]⟩ : Shape).Idx → EReal) (b2a : (⟨1, ![2]⟩ : Shape).Idx → EReal)
    (h : Cert.Pre_finite_inputs.fn (F := Ideal) X ei eo Wa ba W2a b2a = (fun _ => 1#1)) :
    Cert.Spec.Good X ei eo Wa := by
  have e := congrFun h ValueIdx.ix0
  dsimp only [Cert.Pre_finite_inputs.fn, Cert.Pre_finite_inputs.fn_part1, Cert.Pre_finite_inputs.fn_part2] at e
  obtain ⟨e, h2⟩ := (andi_apply_eq_one _ _ _).1 e
  obtain ⟨e, h1⟩ := (andi_apply_eq_one _ _ _).1 e
  obtain ⟨e, -⟩ := (andi_apply_eq_one _ _ _).1 e
  obtain ⟨e, -⟩ := (andi_apply_eq_one _ _ _).1 e
  obtain ⟨e, -⟩ := (andi_apply_eq_one _ _ _).1 e
  obtain ⟨hX, hW⟩ := (andi_apply_eq_one _ _ _).1 e
  refine ⟨all_real X _ _ _ hX, all_real Wa _ _ _ hW, all_rng ei _ _ _ h1, fun e => ?_⟩
  rw [← row0_slice eo Cert.Pre_finite_inputs.Facts.slices_S2x6400000_S1x6400000_0_0 e]
  exact all_rng _ _ _ _ h2 (ix2 0 e)

/-- The same from the kernel program's precondition, on every device. -/
theorem good_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.Good
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) :=
  good_of_fn _ _ _ _ _ _ _ (h c)

end Cert.PreDecode

end
-- ==== Proof.KArrays.lean ====
/-
  The arrays the kernel program's proof speaks of, each named at its literal type: the six arrays the pallas_call's
  input windows stage as the region finds them (the node column `t` the host computed, the first layer's weight row and
  bias row, the two halves of the second layer's weight, its bias row), the two arrays its output windows leave (the two
  projections of every node), the program's result after the host's two row gathers and their sum, and the seven
  argument arrays.
-/
import proofs.«424222_j14405320311021_3_alg».proof.Proof.KernelIdealFrame
import proofs.«424222_j14405320311021_3_alg».proof.Proof.Spec

noncomputable section

namespace Cert.KernelIdeal.KV

open Idealize.ShloMosaic Idealize.ShloMosaic.TcCoe Idealize.SL.Sem
open Cert.KernelIdeal Cert.KernelIdeal.Gen Cert.KernelIdeal.GenP

variable (m : (ℓ : Loc nD τ sig) → Buf (Elt Ideal) ℓ)

/-- The node column `t`, as the region finds it. -/
abbrev tArr (c : Dev nD) : Vec Ideal S200000x1 .f32 := V m c main_v21
/-- The first layer's weight row. -/
abbrev wArr (c : Dev nD) : Vec Ideal S1x5 .f32 := V m c main_arg3
/-- The first layer's bias, as a row. -/
abbrev bArr (c : Dev nD) : Vec Ideal S1x5 .f32 := V m c main_v24
/-- The second layer's weight, rows 0 to 4. -/
abbrev w2aArr (c : Dev nD) : Vec Ideal S5x2 .f32 := V m c main_v22
/-- The second layer's weight, rows 5 to 9. -/
abbrev w2bArr (c : Dev nD) : Vec Ideal S5x2 .f32 := V m c main_v23
/-- The second layer's bias, as a row. -/
abbrev b2Arr (c : Dev nD) : Vec Ideal S1x2 .f32 := V m c main_v25

/-- The first projection of every node, after the region. -/
abbrev pArr (c : Dev nD) : Vec Ideal S200000x2 .f32 := (dats m 0 c).arrAt 6 cfg0.N
/-- The second projection of every node, after the region. -/
abbrev qArr (c : Dev nD) : Vec Ideal S200000x2 .f32 := (dats m 0 c).arrAt 7 cfg0.N

/-- The program's result buffer after the host operations that follow the region. -/
abbrev outTail (c : Dev nD) : Vec Ideal S6400000x2 .f32 :=
  Pipeline.afterTail₀ cfgs (dats m) 0 (V0 m) [hostOps1, hostOps1_1, hostOps1_2, hostOps1_3, hostOps1_4] c main_v33

/-- The argument arrays. -/
abbrev xArg (c : Dev nD) : Vec Ideal S200000x1 .f32 := m ((c.tc : Thread nD τ).loc main_arg0)
abbrev eiArg (c : Dev nD) : IVec S2x6400000 32 := m ((c.tc : Thread nD τ).loc main_arg1)
abbrev eoArg (c : Dev nD) : IVec S2x6400000 32 := m ((c.tc : Thread nD τ).loc main_arg2)
abbrev wArg (c : Dev nD) : Vec Ideal S1x5 .f32 := m ((c.tc : Thread nD τ).loc main_arg3)
abbrev bArg (c : Dev nD) : Vec Ideal S5 .f32 := m ((c.tc : Thread nD τ).loc main_arg4)
abbrev w2Arg (c : Dev nD) : Vec Ideal S10x2 .f32 := m ((c.tc : Thread nD τ).loc main_arg5)
abbrev b2Arg (c : Dev nD) : Vec Ideal S2 .f32 := m ((c.tc : Thread nD τ).loc main_arg6)

end Cert.KernelIdeal.KV

end
-- ==== Proof.KBody.lean ====
/-
  What the pallas_call leaves in its two output arrays, entry by entry.

  The grid has 25 points; point `n` stages rows `8000 n … 8000 n + 7999` of the node column and the whole of the five
  small arrays, and writes the same rows of both outputs. A row's entries depend on that row of the column alone:
  `h = leaky (t · W + b)` across five columns, then the two 5 × 2 products, the first with the bias row added. So each
  output array is one function of the six staged arrays, row by row, and the 25 blocks cover it.
-/
import proofs.«424222_j14405320311021_3_alg».proof.Proof.KArrays
import Idealize.ShloMosaic.Lib.Pipeline.Value
import Idealize.ShloMosaic.Lib.ValueLayout
import Idealize.ShloMosaic.PureOps.Ideal.Laws

noncomputable section

namespace Cert.KernelIdeal.KV

open Idealize.ShloMosaic Idealize.ShloMosaic.TcCoe Idealize.SL.Sem Idealize.ShloMosaic.ValueIdx
open Cert.KernelIdeal Cert.KernelIdeal.Gen Cert.KernelIdeal.GenP

variable (m : (ℓ : Loc nD τ sig) → Buf (Elt Ideal) ℓ)

namespace Body

/-- A column broadcast across five columns reads the column at the row. -/
theorem bcast_col5 (x : Vec Ideal S8000x1 .f32) (p : Fin 8000) (k : Fin 5) :
    broadcastTo S8000x5 x broadcasts_S8000x1_S8000x5 (ix2 p k) = x (ix2 p 0) :=
  broadcastTo_apply x broadcasts_S8000x1_S8000x5 (ix2 p k) (ix2 p 0) (fun a => by
    match a with
    | ⟨0, _⟩ => rfl
    | ⟨1, _⟩ => rfl)

/-- A row of five broadcast down the rows reads the row at the column. -/
theorem bcast_row5 (x : Vec Ideal S1x5 .f32) (p : Fin 8000) (k : Fin 5) :
    broadcastTo S8000x5 x broadcasts_S1x5_S8000x5 (ix2 p k) = x (ix2 0 k) :=
  broadcastTo_apply x broadcasts_S1x5_S8000x5 (ix2 p k) (ix2 0 k) (fun a => by
    match a with
    | ⟨0, _⟩ => rfl
    | ⟨1, _⟩ => rfl)

/-- A row of two broadcast down the rows reads the row at the column. -/
theorem bcast_row2 (x : Vec Ideal S1x2 .f32) (p : Fin 8000) (k : Fin 2) :
    broadcastTo S8000x2 x broadcasts_S1x2_S8000x2 (ix2 p k) = x (ix2 0 k) :=
  broadcastTo_apply x broadcasts_S1x2_S8000x2 (ix2 p k) (ix2 0 k) (fun a => by
    match a with
    | ⟨0, _⟩ => rfl
    | ⟨1, _⟩ => rfl)

/-- The hidden feature the body computes at row p, column k. -/
theorem hidden_apply (v0 : Vec Ideal S8000x1 .f32) (v2 v6 : Vec Ideal S1x5 .f32) (p : Fin 8000) (k : Fin 5) :
    k0_pay1 v0 v2 v6 (ix2 p k) = Cert.Spec.leaky (v0 (ix2 p 0) * v2 (ix2 0 k) + v6 (ix2 0 k)) := by
  unfold k0_pay1
  simp only [shapeCast_self]
  rw [select_apply, cmpf_apply, mulf_apply, addf_apply, mulf_apply, broadcast_apply, broadcast_apply,
    bcast_col5, bcast_row5, bcast_row5]
  unfold Cert.Spec.leaky
  show Scalar.select (Ideal.cmp .oge _ (Ideal.ofBits .f32 0x00000000#32)) _ (Ideal.ofBits .f32 0x3C23D70A#32 * _) = _
  rw [Ideal.ofBits_zero_f32]

/-! The product's operand indices: the left operand is read at the output's row and the contracted column, the right at
    the contracted row and the output's column. -/

theorem lhs_dot_0 (i : S8000x2.Idx) (q : dot_S8000x5_S5x2_S8000x2_1_0_0_1_n_n.contr.Idx) :
    (dot_S8000x5_S5x2_S8000x2_1_0_0_1_n_n.lhsIdx i q 0).val = (i 0).val := by
  unfold DotDims.lhsIdx
  rw [dif_neg (show ¬(0 : Fin S8000x5.rank) ∈ dot_S8000x5_S5x2_S8000x2_1_0_0_1_n_n.lhsBatch by decide), dif_pos (show (0 : Fin S8000x5.rank) ∈ dot_S8000x5_S5x2_S8000x2_1_0_0_1_n_n.lhsNonContracting by decide)]
  rfl
theorem lhs_dot_1 (i : S8000x2.Idx) (q : dot_S8000x5_S5x2_S8000x2_1_0_0_1_n_n.contr.Idx) :
    (dot_S8000x5_S5x2_S8000x2_1_0_0_1_n_n.lhsIdx i q 1).val = (q ⟨0, by decide⟩).val :=
  dot_S8000x5_S5x2_S8000x2_1_0_0_1_n_n.lhsIdx_val_of_single rfl i q
theorem rhs_dot_0 (i : S8000x2.Idx) (q : dot_S8000x5_S5x2_S8000x2_1_0_0_1_n_n.contr.Idx) :
    (dot_S8000x5_S5x2_S8000x2_1_0_0_1_n_n.rhsIdx i q 0).val = (q ⟨0, by decide⟩).val :=
  dot_S8000x5_S5x2_S8000x2_1_0_0_1_n_n.rhsIdx_val_of_single rfl i q
theorem rhs_dot_1 (i : S8000x2.Idx) (q : dot_S8000x5_S5x2_S8000x2_1_0_0_1_n_n.contr.Idx) :
    (dot_S8000x5_S5x2_S8000x2_1_0_0_1_n_n.rhsIdx i q 1).val = (i 1).val := by
  unfold DotDims.rhsIdx
  rw [dif_neg (show ¬(1 : Fin S5x2.rank) ∈ dot_S8000x5_S5x2_S8000x2_1_0_0_1_n_n.rhsBatch by decide), dif_pos (show (1 : Fin S5x2.rank) ∈ dot_S8000x5_S5x2_S8000x2_1_0_0_1_n_n.rhsNonContracting by decide)]
  rfl

/-- The 8000 × 5 by 5 × 2 product onto the zero accumulator, at row p and column c: the sum over the five columns. -/
theorem product_apply (l : FVec Ideal S8000x5 .f32) (r : FVec Ideal S5x2 .f32) (p : Fin 8000) (c' : Fin 2) :
    matmul dot_S8000x5_S5x2_S8000x2_1_0_0_1_n_n none l r (constant S8000x2 .f32 0x00000000#32) (ix2 p c')
      = ∑ k : Fin 5, l (ix2 p k) * r (ix2 k c') := by
  simp only [matmul]
  rw [Ideal.matmul_constant_zero_apply, ← Equiv.sum_comp (contrEquiv1 dot_S8000x5_S5x2_S8000x2_1_0_0_1_n_n 5 rfl rfl).symm]
  refine Finset.sum_congr rfl fun k _ => ?_
  have hk := contrEquiv1_symm_val dot_S8000x5_S5x2_S8000x2_1_0_0_1_n_n 5 rfl rfl k
  have el : dot_S8000x5_S5x2_S8000x2_1_0_0_1_n_n.lhsIdx (ix2 p c') ((contrEquiv1 dot_S8000x5_S5x2_S8000x2_1_0_0_1_n_n 5 rfl rfl).symm k) = ix2 p k := funext fun a => Fin.ext (by
    match a with
    | ⟨0, _⟩ => exact lhs_dot_0 _ _
    | ⟨1, _⟩ => exact (lhs_dot_1 _ _).trans hk)
  have er : dot_S8000x5_S5x2_S8000x2_1_0_0_1_n_n.rhsIdx (ix2 p c') ((contrEquiv1 dot_S8000x5_S5x2_S8000x2_1_0_0_1_n_n 5 rfl rfl).symm k) = ix2 k c' := funext fun a => Fin.ext (by
    match a with
    | ⟨0, _⟩ => exact (rhs_dot_0 _ _).trans hk
    | ⟨1, _⟩ => exact rhs_dot_1 _ _)
  rw [el, er]

/-- The first projection the body stores, at row p and column c. -/
theorem proj1_apply (v0 : Vec Ideal S8000x1 .f32) (v2 v6 : Vec Ideal S1x5 .f32) (v15 : Vec Ideal S5x2 .f32)
    (v18 : Vec Ideal S1x2 .f32) (p : Fin 8000) (c' : Fin 2) :
    k0_pay2 v0 v2 v6 v15 v18 (ix2 p c')
      = (∑ k : Fin 5, Cert.Spec.leaky (v0 (ix2 p 0) * v2 (ix2 0 k) + v6 (ix2 0 k)) * v15 (ix2 k c')) + v18 (ix2 0 c') := by
  unfold k0_pay2
  simp only [shapeCast_self]
  rw [addf_apply, bcast_row2, product_apply]
  simp only [hidden_apply]

/-- The second projection the body stores, at row p and column c. -/
theorem proj2_apply (v0 : Vec Ideal S8000x1 .f32) (v2 v6 : Vec Ideal S1x5 .f32) (v23 : Vec Ideal S5x2 .f32)
    (p : Fin 8000) (c' : Fin 2) :
    k0_pay3 v0 v2 v6 v23 (ix2 p c')
      = ∑ k : Fin 5, Cert.Spec.leaky (v0 (ix2 p 0) * v2 (ix2 0 k) + v6 (ix2 0 k)) * v23 (ix2 k c') := by
  unfold k0_pay3
  simp only [shapeCast_self]
  rw [product_apply]
  simp only [hidden_apply]

/-- The zero offsets of a whole-buffer rectangle, as a function. -/
theorem hz : (![0, 0] : Fin 2 → Nat) = fun _ => 0 := funext fun a => by fin_cases a <;> rfl

/-- The first output array, as the row function of the staged arrays. -/
abbrev pG (c : Dev nD) : S200000x2.Idx → EReal := fun j =>
  Cert.Spec.pN (fun i => tArr m c (ix2 i 0)) (fun j => wArr m c (ix2 0 j)) (fun j => bArr m c (ix2 0 j))
    (fun k c' => w2aArr m c (ix2 k c')) (fun c' => b2Arr m c (ix2 0 c')) (j 0) (j 1)

/-- The second output array, as the row function of the staged arrays. -/
abbrev qG (c : Dev nD) : S200000x2.Idx → EReal := fun j =>
  Cert.Spec.qN (fun i => tArr m c (ix2 i 0)) (fun j => wArr m c (ix2 0 j)) (fun j => bArr m c (ix2 0 j))
    (fun k c' => w2bArr m c (ix2 k c')) (j 0) (j 1)

/-- The index maps over the 25 points: the node column and the two outputs move one block of rows per point, the five
    small arrays stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Point t's block of a column of 200000 rows is its rows 8000 t … 8000 t + 7999. -/
theorem read_tblk (A : Vec Ideal S200000x1 .f32) (t : Fin cfg0.N) (p : Fin 8000) (r : Fin 200000)
    (hr : r.val = 8000 * t.val + p.val) :
    (((cfg0.win 0).blk t).view.read (Elt Ideal) A : Vec Ideal S8000x1 .f32) (ix2 p 0) = A (ix2 r 0) := by
  obtain ⟨e0, e1, -⟩ := idx_facts t
  rw [View.read_apply]
  show A (((cfg0.win 0).blk t).view.emb (ix2 p 0)) = A (ix2 r 0)
  refine congrArg A (funext fun a => Fin.ext ?_)
  match a with
  | ⟨0, _⟩ => show win0_0.index t (0 : Fin 2) * 8000 + 1 * p.val = r.val; rw [e0, hr]; omega
  | ⟨1, _⟩ => show win0_0.index t (1 : Fin 2) * 1 + 1 * 0 = 0; rw [e1]

/-- Each small array's one block, at block index (0, 0), is the array. -/
theorem read_blk1 (A : Vec Ideal S1x5 .f32) (t : Fin cfg0.N) :
    (((cfg0.win 1).blk t).view.read (Elt Ideal) A : Vec Ideal S1x5 .f32) = A := by
  obtain ⟨-, -, e0, e1, -⟩ := idx_facts t
  funext j
  rw [View.read_apply]
  show A (((cfg0.win 1).blk t).view.emb j) = A j
  refine congrArg A (funext fun a => Fin.ext ?_)
  match a with
  | ⟨0, _⟩ => show win0_1.index t (0 : Fin 2) * 1 + 1 * (j 0).val = (j 0).val; rw [e0]; omega
  | ⟨1, _⟩ => show win0_1.index t (1 : Fin 2) * 5 + 1 * (j 1).val = (j 1).val; rw [e1]; omega

theorem read_blk2 (A : Vec Ideal S1x5 .f32) (t : Fin cfg0.N) :
    (((cfg0.win 2).blk t).view.read (Elt Ideal) A : Vec Ideal S1x5 .f32) = A := by
  obtain ⟨-, -, -, -, e0, e1, -⟩ := idx_facts t
  funext j
  rw [View.read_apply]
  show A (((cfg0.win 2).blk t).view.emb j) = A j
  refine congrArg A (funext fun a => Fin.ext ?_)
  match a with
  | ⟨0, _⟩ => show win0_2.index t (0 : Fin 2) * 1 + 1 * (j 0).val = (j 0).val; rw [e0]; omega
  | ⟨1, _⟩ => show win0_2.index t (1 : Fin 2) * 5 + 1 * (j 1).val = (j 1).val; rw [e1]; omega

theorem read_blk3 (A : Vec Ideal S5x2 .f32) (t : Fin cfg0.N) :
    (((cfg0.win 3).blk t).view.read (Elt Ideal) A : Vec Ideal S5x2 .f32) = A := by
  obtain ⟨-, -, -, -, -, -, e0, e1, -⟩ := idx_facts t
  funext j
  rw [View.read_apply]
  show A (((cfg0.win 3).blk t).view.emb j) = A j
  refine congrArg A (funext fun a => Fin.ext ?_)
  match a with
  | ⟨0, _⟩ => show win0_3.index t (0 : Fin 2) * 5 + 1 * (j 0).val = (j 0).val; rw [e0]; omega
  | ⟨1, _⟩ => show win0_3.index t (1 : Fin 2) * 2 + 1 * (j 1).val = (j 1).val; rw [e1]; omega

theorem read_blk4 (A : Vec Ideal S5x2 .f32) (t : Fin cfg0.N) :
    (((cfg0.win 4).blk t).view.read (Elt Ideal) A : Vec Ideal S5x2 .f32) = A := by
  obtain ⟨-, -, -, -, -, -, -, -, e0, e1, -⟩ := idx_facts t
  funext j
  rw [View.read_apply]
  show A (((cfg0.win 4).blk t).view.emb j) = A j
  refine congrArg A (funext fun a => Fin.ext ?_)
  match a with
  | ⟨0, _⟩ => show win0_4.index t (0 : Fin 2) * 5 + 1 * (j 0).val = (j 0).val; rw [e0]; omega
  | ⟨1, _⟩ => show win0_4.index t (1 : Fin 2) * 2 + 1 * (j 1).val = (j 1).val; rw [e1]; omega

theorem read_blk5 (A : Vec Ideal S1x2 .f32) (t : Fin cfg0.N) :
    (((cfg0.win 5).blk t).view.read (Elt Ideal) A : Vec Ideal S1x2 .f32) = A := by
  obtain ⟨-, -, -, -, -, -, -, -, -, -, e0, e1, -⟩ := idx_facts t
  funext j
  rw [View.read_apply]
  show A (((cfg0.win 5).blk t).view.emb j) = A j
  refine congrArg A (funext fun a => Fin.ext ?_)
  match a with
  | ⟨0, _⟩ => show win0_5.index t (0 : Fin 2) * 1 + 1 * (j 0).val = (j 0).val; rw [e0]; omega
  | ⟨1, _⟩ => show win0_5.index t (1 : Fin 2) * 2 + 1 * (j 1).val = (j 1).val; rw [e1]; omega

/-- The input blocks at point t, in terms of the staged arrays. -/
theorem tblk_apply (c : Dev nD) (t : Fin cfg0.N) (p : Fin 8000) (r : Fin 200000) (hr : r.val = 8000 * t.val + p.val) :
    (iblk m c 0 t : Vec Ideal S8000x1 .f32) (ix2 p 0) = tArr m c (ix2 r 0) :=
  read_tblk (V m c main_v21) t p r hr
theorem wblk_eq (c : Dev nD) (t : Fin cfg0.N) : (iblk m c 1 t : Vec Ideal S1x5 .f32) = wArr m c :=
  read_blk1 (V m c main_arg3) t
theorem bblk_eq (c : Dev nD) (t : Fin cfg0.N) : (iblk m c 2 t : Vec Ideal S1x5 .f32) = bArr m c :=
  read_blk2 (V m c main_v24) t
theorem w2ablk_eq (c : Dev nD) (t : Fin cfg0.N) : (iblk m c 3 t : Vec Ideal S5x2 .f32) = w2aArr m c :=
  read_blk3 (V m c main_v22) t
theorem w2bblk_eq (c : Dev nD) (t : Fin cfg0.N) : (iblk m c 4 t : Vec Ideal S5x2 .f32) = w2bArr m c :=
  read_blk4 (V m c main_v23) t
theorem b2blk_eq (c : Dev nD) (t : Fin cfg0.N) : (iblk m c 5 t : Vec Ideal S1x2 .f32) = b2Arr m c :=
  read_blk5 (V m c main_v25) t

/-- The two projections of a row, written out, are the specification's row functions. -/
theorem proj1_row (T : Vec Ideal S200000x1 .f32) (W B : Vec Ideal S1x5 .f32) (A : Vec Ideal S5x2 .f32)
    (b2 : Vec Ideal S1x2 .f32) (r : Fin 200000) (q : Fin 2) :
    (∑ k : Fin 5, Cert.Spec.leaky (T (ix2 r 0) * W (ix2 0 k) + B (ix2 0 k)) * A (ix2 k q)) + b2 (ix2 0 q)
      = Cert.Spec.pN (fun i => T (ix2 i 0)) (fun j => W (ix2 0 j)) (fun j => B (ix2 0 j)) (fun k c' => A (ix2 k c'))
          (fun c' => b2 (ix2 0 c')) r q := rfl
theorem proj2_row (T : Vec Ideal S200000x1 .f32) (W B : Vec Ideal S1x5 .f32) (A : Vec Ideal S5x2 .f32)
    (r : Fin 200000) (q : Fin 2) :
    (∑ k : Fin 5, Cert.Spec.leaky (T (ix2 r 0) * W (ix2 0 k) + B (ix2 0 k)) * A (ix2 k q))
      = Cert.Spec.qN (fun i => T (ix2 i 0)) (fun j => W (ix2 0 j)) (fun j => B (ix2 0 j)) (fun k c' => A (ix2 k c')) r q := rfl

/-- Point t's block of an output array of 200000 rows is its rows 8000 t … 8000 t + 7999. -/
theorem read_oblk6 (G : S200000x2.Idx → EReal) (t : Fin cfg0.N) (p : Fin 8000) (q : Fin 2) (r : Fin 200000)
    (hr : r.val = 8000 * t.val + p.val) :
    (((cfg0.win 6).blk t).view.read (Elt Ideal) G : Vec Ideal S8000x2 .f32) (ix2 p q) = G (ix2 r q) := by
  obtain ⟨-, -, -, -, -, -, -, -, -, -, -, -, e0, e1, -⟩ := idx_facts t
  rw [View.read_apply]
  show G (((cfg0.win 6).blk t).view.emb (ix2 p q)) = G (ix2 r q)
  refine congrArg G (funext fun a => Fin.ext ?_)
  match a with
  | ⟨0, _⟩ => show win0_6.index t (0 : Fin 2) * 8000 + 1 * p.val = r.val; rw [e0, hr]; omega
  | ⟨1, _⟩ => show win0_6.index t (1 : Fin 2) * 2 + 1 * q.val = q.val; rw [e1]; omega

/-- The staging buffer is written back whole: no block of this window is cut. -/
theorem cut6 (X : Vec Ideal S8000x2 .f32) (t : Fin cfg0.N) (j : S8000x2.Idx) :
    ((cfg0.win 6).cut (grid0.coords t) X : Vec Ideal S8000x2 .f32) j = X j := rfl

/-- Point t's block of the other output array of 200000 rows is its rows 8000 t … 8000 t + 7999. -/
theorem read_oblk7 (G : S200000x2.Idx → EReal) (t : Fin cfg0.N) (p : Fin 8000) (q : Fin 2) (r : Fin 200000)
    (hr : r.val = 8000 * t.val + p.val) :
    (((cfg0.win 7).blk t).view.read (Elt Ideal) G : Vec Ideal S8000x2 .f32) (ix2 p q) = G (ix2 r q) := by
  obtain ⟨-, -, -, -, -, -, -, -, -, -, -, -, -, -, e0, e1⟩ := idx_facts t
  rw [View.read_apply]
  show G (((cfg0.win 7).blk t).view.emb (ix2 p q)) = G (ix2 r q)
  refine congrArg G (funext fun a => Fin.ext ?_)
  match a with
  | ⟨0, _⟩ => show win0_7.index t (0 : Fin 2) * 8000 + 1 * p.val = r.val; rw [e0, hr]; omega
  | ⟨1, _⟩ => show win0_7.index t (1 : Fin 2) * 2 + 1 * q.val = q.val; rw [e1]; omega

/-- The staging buffer is written back whole: no block of this window is cut. -/
theorem cut7 (X : Vec Ideal S8000x2 .f32) (t : Fin cfg0.N) (j : S8000x2.Idx) :
    ((cfg0.win 7).cut (grid0.coords t) X : Vec Ideal S8000x2 .f32) j = X j := rfl

/-- What point t writes back to the first output is block t of the row function. -/
theorem flushed6_eq (c : Dev nD) (t : Fin cfg0.N) :
    (dats m 0 c).flushed 6 t = ((cfg0.win 6).blk t).view.read (Elt Ideal) (pG m c) := by
  show (cfg0.win 6).cut (grid0.coords t) ((dats m 0 c).after 6 t) = _
  rw [after0_6]
  unfold out0_6
  rw [View.canon_unit_zero hz]
  simp only [View.ld_unit_zero (S := S8000x1) hz, View.ld_unit_zero (S := S1x5) hz, View.ld_unit_zero (S := S5x2) hz, View.ld_unit_zero (S := S1x2) hz]
  funext j
  obtain ⟨p, q, rfl⟩ : ∃ (p : Fin 8000) (q : Fin 2), j = ix2 p q := ⟨j 0, j 1, eq_ix2 j⟩
  have ht : t.val < 25 := lt_of_lt_of_eq t.isLt N_0
  have hp : p.val < 8000 := p.isLt
  obtain ⟨r, hr⟩ : ∃ r : Fin 200000, r.val = 8000 * t.val + p.val := ⟨⟨8000 * t.val + p.val, by omega⟩, rfl⟩
  refine Eq.trans ?_ (read_oblk6 (pG m c) t p q r hr).symm
  refine (cut6 _ t (ix2 p q)).trans ?_
  refine (proj1_apply (iblk m c 0 t) (iblk m c 1 t) (iblk m c 2 t) (iblk m c 3 t) (iblk m c 5 t) p q).trans ?_
  rw [tblk_apply m c t p r hr, wblk_eq, bblk_eq, w2ablk_eq, b2blk_eq]
  exact proj1_row (tArr m c) (wArr m c) (bArr m c) (w2aArr m c) (b2Arr m c) r q

/-- What point t writes back to the second output is block t of the row function. -/
theorem flushed7_eq (c : Dev nD) (t : Fin cfg0.N) :
    (dats m 0 c).flushed 7 t = ((cfg0.win 7).blk t).view.read (Elt Ideal) (qG m c) := by
  show (cfg0.win 7).cut (grid0.coords t) ((dats m 0 c).after 7 t) = _
  rw [after0_7]
  unfold out0_7
  rw [View.canon_unit_zero hz]
  simp only [View.ld_unit_zero (S := S8000x1) hz, View.ld_unit_zero (S := S1x5) hz, View.ld_unit_zero (S := S5x2) hz]
  funext j
  obtain ⟨p, q, rfl⟩ : ∃ (p : Fin 8000) (q : Fin 2), j = ix2 p q := ⟨j 0, j 1, eq_ix2 j⟩
  have ht : t.val < 25 := lt_of_lt_of_eq t.isLt N_0
  have hp : p.val < 8000 := p.isLt
  obtain ⟨r, hr⟩ : ∃ r : Fin 200000, r.val = 8000 * t.val + p.val := ⟨⟨8000 * t.val + p.val, by omega⟩, rfl⟩
  refine Eq.trans ?_ (read_oblk7 (qG m c) t p q r hr).symm
  refine (cut7 _ t (ix2 p q)).trans ?_
  refine (proj2_apply (iblk m c 0 t) (iblk m c 1 t) (iblk m c 2 t) (iblk m c 4 t) p q).trans ?_
  rw [tblk_apply m c t p r hr, wblk_eq, bblk_eq, w2bblk_eq]
  exact proj2_row (tArr m c) (wArr m c) (bArr m c) (w2bArr m c) r q

/-- An index of the first output array is in point t's block when its row is among rows 8000 t … 8000 t + 7999. -/
theorem mem_blk6 (t : Fin cfg0.N) (i : S200000x2.Idx) :
    i ∈ ((cfg0.win 6).blk t).view.set ↔ ∀ a : Fin 2, win0_6.index t a * S8000x2.size a ≤ (i a).val ∧ (i a).val < win0_6.index t a * S8000x2.size a + S8000x2.size a := by
  show i ∈ ((View.whole main_v26_0).slice (win0_6.rect t)).set ↔ _
  rw [View.set_slice_whole, Rect.mem_set_unit]
  exact Iff.rfl

/-- The 25 blocks of 8000 rows cover the 200000 rows: row r is in block r / 8000. -/
theorem cover6 (i : S200000x2.Idx) :
    ∃ t : Fin cfg0.N, (cfg0.win 6).flush t = true ∧ i ∈ ((cfg0.win 6).blk t).view.set := by
  have hi0 : (i 0).val < 200000 := (i 0).isLt
  have hi1 : (i 1).val < 2 := (i 1).isLt
  obtain ⟨t, ht⟩ : ∃ t : Fin cfg0.N, t.val = (i 0).val / 8000 :=
    ⟨⟨(i 0).val / 8000, lt_of_lt_of_eq (by omega : (i 0).val / 8000 < 25) N_0.symm⟩, rfl⟩
  obtain ⟨-, -, -, -, -, -, -, -, -, -, -, -, e0, e1, -⟩ := idx_facts t
  refine ⟨t, flush0_6 t, ?_⟩
  rw [mem_blk6]
  intro a
  match a with
  | ⟨0, _⟩ =>
    show win0_6.index t (0 : Fin 2) * 8000 ≤ (i 0).val ∧ (i 0).val < win0_6.index t (0 : Fin 2) * 8000 + 8000
    rw [e0, ht]; omega
  | ⟨1, _⟩ =>
    show win0_6.index t (1 : Fin 2) * 2 ≤ (i 1).val ∧ (i 1).val < win0_6.index t (1 : Fin 2) * 2 + 2
    rw [e1]; omega

/-- An index of the second output array is in point t's block when its row is among rows 8000 t … 8000 t + 7999. -/
theorem mem_blk7 (t : Fin cfg0.N) (i : S200000x2.Idx) :
    i ∈ ((cfg0.win 7).blk t).view.set ↔ ∀ a : Fin 2, win0_7.index t a * S8000x2.size a ≤ (i a).val ∧ (i a).val < win0_7.index t a * S8000x2.size a + S8000x2.size a := by
  show i ∈ ((View.whole main_v26_1).slice (win0_7.rect t)).set ↔ _
  rw [View.set_slice_whole, Rect.mem_set_unit]
  exact Iff.rfl

/-- The 25 blocks of 8000 rows cover the 200000 rows: row r is in block r / 8000. -/
theorem cover7 (i : S200000x2.Idx) :
    ∃ t : Fin cfg0.N, (cfg0.win 7).flush t = true ∧ i ∈ ((cfg0.win 7).blk t).view.set := by
  have hi0 : (i 0).val < 200000 := (i 0).isLt
  have hi1 : (i 1).val < 2 := (i 1).isLt
  obtain ⟨t, ht⟩ : ∃ t : Fin cfg0.N, t.val = (i 0).val / 8000 :=
    ⟨⟨(i 0).val / 8000, lt_of_lt_of_eq (by omega : (i 0).val / 8000 < 25) N_0.symm⟩, rfl⟩
  obtain ⟨-, -, -, -, -, -, -, -, -, -, -, -, -, -, e0, e1⟩ := idx_facts t
  refine ⟨t, flush0_7 t, ?_⟩
  rw [mem_blk7]
  intro a
  match a with
  | ⟨0, _⟩ =>
    show win0_7.index t (0 : Fin 2) * 8000 ≤ (i 0).val ∧ (i 0).val < win0_7.index t (0 : Fin 2) * 8000 + 8000
    rw [e0, ht]; omega
  | ⟨1, _⟩ =>
    show win0_7.index t (1 : Fin 2) * 2 ≤ (i 1).val ∧ (i 1).val < win0_7.index t (1 : Fin 2) * 2 + 2
    rw [e1]; omega

end Body

/-- The first output array: node `i`'s first projection, bias included, from the staged arrays. -/
theorem pArr_eq (c : Dev nD) (i : Fin 200000) (c' : Fin 2) :
    pArr m c (ix2 i c')
      = Cert.Spec.pN (fun i => tArr m c (ix2 i 0)) (fun j => wArr m c (ix2 0 j)) (fun j => bArr m c (ix2 0 j))
          (fun k c' => w2aArr m c (ix2 k c')) (fun c' => b2Arr m c (ix2 0 c')) i c' :=
  congrFun ((dats m 0 c).arrAt_eq_of_cover 6 (Body.pG m c) (fun t _ => Body.flushed6_eq m c t) Body.cover6) (ix2 i c')

/-- The second output array: node `i`'s second projection. -/
theorem qArr_eq (c : Dev nD) (i : Fin 200000) (c' : Fin 2) :
    qArr m c (ix2 i c')
      = Cert.Spec.qN (fun i => tArr m c (ix2 i 0)) (fun j => wArr m c (ix2 0 j)) (fun j => bArr m c (ix2 0 j))
          (fun k c' => w2bArr m c (ix2 k c')) i c' :=
  congrFun ((dats m 0 c).arrAt_eq_of_cover 7 (Body.qG m c) (fun t _ => Body.flushed7_eq m c t) Body.cover7) (ix2 i c')

end Cert.KernelIdeal.KV

end
-- ==== Proof.LibRows.lean ====
/-
  Rows of a table gathered, and rows of updates scatter-added, by a column of index words: the two host operations read
  at one position.

  A `stablehlo.gather` that takes whole rows of an [N × M] table (or entries of an [N] vector) at the start indices held
  in an [n × 1] column reads, at result row `p`, the table's row named by the `p`-th word read signed and clamped into
  the table. A `stablehlo.scatter` with an `add` body over the same kind of column adds update row `e` into the operand's
  row named by the `e`-th word read signed, and drops it when that is no row of the operand; on the extended reals the
  result at a position is the operand there plus the sum of the updates that land there.
-/
import Idealize.ShloMosaic.PureOps.Ideal
import Idealize.ShloMosaic.PureOps.Ideal.Laws
import Idealize.ShloMosaic.Lib.ValueIdx
import Idealize.ShloMosaic.Lib.StableHlo.Predicate
import Idealize.ShloMosaic.Lib.Pipeline.Value

noncomputable section

namespace Cert.LibRows

open Idealize.ShloMosaic Idealize.ShloMosaic.ValueIdx Idealize.ShloMosaic.StableHlo.Predicate

/-- A list that is one element long reads that element at every position it has. -/
theorem getElem_of_eq_singleton {β : Type} (l : List β) (b : β) (h : l = [b]) (k : Nat) (hk : k < l.length) : l[k] = b := by
  subst h
  have : k = 0 := by simpa using hk
  subst this; rfl

/-- An update lands at operand index `i` exactly when, on every operand axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · next hh =>
      have h' := Option.some.inj h
      intro a
      have hv : (d.start j idx a + (d.window j a : ℤ)).toNat = (i a).val := congrArg Fin.val (congrFun h' a)
      have := (hh a).1
      omega
    · exact absurd h (by simp)
  · intro h
    have hh : ∀ a, 0 ≤ d.start j idx a + d.window j a ∧ d.start j idx a + d.window j a < s.size a := by
      intro a; rw [h a]; exact ⟨Int.natCast_nonneg _, by exact_mod_cast (i a).isLt⟩
    rw [dif_pos hh]
    congr 1
    funext a
    apply Fin.ext
    show (d.start j idx a + d.window j a).toNat = (i a).val
    rw [h a]; simp

/-- ROWS GATHERED. Result entry (p, q) of a row gather from an [N × M] table is the table's entry (r, q), `r` the
    `p`-th start word read signed and clamped into `[0, N)`. -/
theorem gather_rows {α : Type} {N M n w : Nat} (d : GatherDims ⟨2, ![N, M]⟩ ⟨2, ![n, 1]⟩ ⟨2, ![n, M]⟩)
    (hoff : d.offsetDims = [1]) (hcoll : d.collapsedSliceDims = [0]) (hob : d.operandBatchingDims = [])
    (hsim : d.startIndexMap = [0]) (hivd : d.indexVectorDim = 1) (hss : d.sliceSizes = ![1, M])
    (x : (⟨2, ![N, M]⟩ : Shape).Idx → α) (idx : IVec ⟨2, ![n, 1]⟩ w) (p : Fin n) (q : Fin M) (hN : 0 < N) :
    Host.gather d x idx (ix2 p q) = x (ix2 ⟨min (idx (ixP p)).toInt.toNat (N - 1), by omega⟩ q) := by
  unfold Host.gather
  congr 1
  funext a
  apply Fin.ext
  have hb : ∀ a : Fin 2, a ∉ d.operandBatchingDims := by intro a; rw [hob]; exact List.not_mem_nil
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by rw [hsim]; exact List.mem_singleton.mpr rfl
  have hm1 : (1 : Fin 2) ∉ d.startIndexMap := by rw [hsim]; simp
  match a with
  | ⟨0, _⟩ =>
    show d.start (ix2 p q) idx 0 + d.batchCoord (ix2 p q) 0 + d.offCoord (ix2 p q) 0 = min (idx (ixP p)).toInt.toNat (N - 1)
    rw [GatherDims.batchCoord_eq_zero _ _ _ (hb 0), GatherDims.offCoord_eq_zero _ _ _ hk0]
    simp only [Nat.add_zero]
    unfold GatherDims.start
    rw [dif_pos hm0]
    have hsl : d.sliceSizes 0 = 1 := by rw [hss]; rfl
    show min (idx _).toInt.toNat (N - d.sliceSizes 0) = _
    rw [hsl]
    have hbd : d.batchDims = [0] := by
      show Shape.kept _ d.offsetDims = [0]
      rw [hoff]; rfl
    have hsi : d.siIdx (ix2 p q) ⟨List.idxOf (0 : Fin 2) d.startIndexMap, List.idxOf_lt_length_iff.2 hm0⟩ = ixP p := by
      funext b
      match b with
      | ⟨0, _⟩ =>
        unfold GatherDims.siIdx
        rw [dif_neg (by rw [hivd]; simp)]
        unfold GatherDims.siCoord
        apply Fin.ext
        simp only [Fin.val_cast]
        rw [getElem_of_eq_singleton d.batchDims 0 hbd]
        rfl
      | ⟨1, _⟩ =>
        unfold GatherDims.siIdx
        rw [dif_pos (by rw [hivd])]
        apply Fin.ext
        show List.idxOf (0 : Fin 2) d.startIndexMap = 0
        rw [hsim]; simp
    rw [hsi]
  | ⟨1, _⟩ =>
    show d.start (ix2 p q) idx 1 + d.batchCoord (ix2 p q) 1 + d.offCoord (ix2 p q) 1 = q.val
    rw [GatherDims.batchCoord_eq_zero _ _ _ (hb 1)]
    unfold GatherDims.start
    rw [dif_neg hm1]
    unfold GatherDims.offCoord
    rw [dif_pos hk1]
    simp only [Nat.zero_add, Nat.add_zero]
    rw [getElem_of_eq_singleton d.offsetDims 1 hoff]
    rfl

/-- Where update `e` of a vector scatter lands: at position `i` exactly when its index word, read signed, is `i`. -/
theorem scatter_vec_lands {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (e : Fin n) (i : Fin N) :
    d.resultIdx? (ix1 e) idx = some (ix1 i) ↔ (idx (ixP e)).toInt = (i.val : ℤ) := by
  rw [resultIdx?_eq_some_iff]
  have hm0 : (0 : Fin 1) ∈ d.scatterDimsToOperandDims := by rw [hsd]; exact List.mem_singleton.mpr rfl
  have hsk : d.sKept = [] := by
    show Shape.kept _ d.insertedWindowDims = []
    rw [hiw]; rfl
  have hk0 : (0 : Fin 1) ∉ d.sKept := by rw [hsk]; exact List.not_mem_nil
  have hus : d.uScatter = [0] := by
    show Shape.kept _ d.updateWindowDims = [0]
    rw [huw]; rfl
  have hsi : d.siIdx (ix1 e) ⟨List.idxOf (0 : Fin 1) d.scatterDimsToOperandDims, List.idxOf_lt_length_iff.2 hm0⟩ = ixP e := by
    funext b
    match b with
    | ⟨0, _⟩ =>
      unfold ScatterDims.siIdx
      rw [dif_neg (by rw [hivd]; simp)]
      unfold ScatterDims.siCoord
      apply Fin.ext
      simp only [Fin.val_cast]
      rw [getElem_of_eq_singleton d.uScatter 0 hus]
      rfl
    | ⟨1, _⟩ =>
      unfold ScatterDims.siIdx
      rw [dif_pos (by rw [hivd])]
      apply Fin.ext
      show List.idxOf (0 : Fin 1) d.scatterDimsToOperandDims = 0
      rw [hsd]; simp
  have hst : d.start (ix1 e) idx 0 = (idx (ixP e)).toInt := by
    unfold ScatterDims.start
    rw [dif_pos hm0, hsi]
  have hwi : d.window (ix1 e) 0 = 0 := by
    unfold ScatterDims.window
    rw [dif_neg hk0]
  constructor
  · intro h
    have h0 : d.start (ix1 e) idx 0 + (d.window (ix1 e) 0 : ℤ) = (i.val : ℤ) := h 0
    rw [hst, hwi] at h0
    simpa using h0
  · intro h a
    obtain rfl : a = 0 := Subsingleton.elim _ _
    show d.start (ix1 e) idx 0 + (d.window (ix1 e) 0 : ℤ) = (i.val : ℤ)
    rw [hst, hwi, h]
    simp

/-- A VECTOR SCATTER-ADD on the extended reals at position `i`: the operand there plus the sum of the updates whose
    index word, read signed, is `i`. -/
theorem scatterAdd_vec {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (x : (⟨1, ![N]⟩ : Shape).Idx → EReal) (idx : IVec ⟨2, ![n, 1]⟩ w)
    (upd : (⟨1, ![n]⟩ : Shape).Idx → EReal) (i : Fin N) :
    Ideal.hostScatterAdd d x idx upd (ix1 i)
      = x (ix1 i) + ∑ e ∈ Finset.univ.filter (fun e : Fin n => (idx (ixP e)).toInt = (i.val : ℤ)), upd (ix1 e) := by
  unfold Ideal.hostScatterAdd
  congr 1
  refine Finset.sum_bij' (fun j _ => j 0) (fun e _ => ix1 e) ?_ ?_ ?_ ?_ ?_
  · intro j hj
    have := (Finset.mem_filter.1 hj).2
    rw [eq_ix1 j] at this
    exact Finset.mem_filter.2 ⟨Finset.mem_univ _, (scatter_vec_lands d huw hiw hsd hivd idx (j 0) i).1 this⟩
  · intro e he
    exact Finset.mem_filter.2 ⟨Finset.mem_univ _,
      (scatter_vec_lands d huw hiw hsd hivd idx e i).2 (Finset.mem_filter.1 he).2⟩
  · intro j _
    exact (eq_ix1 j).symm
  · intro e _
    rfl
  · intro j _
    exact congrArg upd (eq_ix1 j)

/-- Where update entry (e, k) of a row scatter lands: at (i, j) exactly when `k = j` and the `e`-th index word, read
    signed, is `i`. -/
theorem scatter_rows_lands {N M n w : Nat} (d : ScatterDims ⟨2, ![N, M]⟩ ⟨2, ![n, 1]⟩ ⟨2, ![n, M]⟩)
    (huw : d.updateWindowDims = [1]) (hiw : d.insertedWindowDims = [0]) (hsd : d.scatterDimsToOperandDims = [0])
    (hivd : d.indexVectorDim = 1) (idx : IVec ⟨2, ![n, 1]⟩ w) (e : Fin n) (k : Fin M) (i : Fin N) (j : Fin M) :
    d.resultIdx? (ix2 e k) idx = some (ix2 i j) ↔ ((idx (ixP e)).toInt = (i.val : ℤ) ∧ k = j) := by
  rw [resultIdx?_eq_some_iff]
  have hm0 : (0 : Fin 2) ∈ d.scatterDimsToOperandDims := by rw [hsd]; exact List.mem_singleton.mpr rfl
  have hm1 : (1 : Fin 2) ∉ d.scatterDimsToOperandDims := by rw [hsd]; simp
  have hsk : d.sKept = [1] := by
    show Shape.kept _ d.insertedWindowDims = [1]
    rw [hiw]; rfl
  have hk0 : (0 : Fin 2) ∉ d.sKept := by rw [hsk]; simp
  have hk1 : (1 : Fin 2) ∈ d.sKept := by rw [hsk]; simp
  have hus : d.uScatter = [0] := by
    show Shape.kept _ d.updateWindowDims = [0]
    rw [huw]; rfl
  have hsi : d.siIdx (ix2 e k) ⟨List.idxOf (0 : Fin 2) d.scatterDimsToOperandDims, List.idxOf_lt_length_iff.2 hm0⟩ = ixP e := by
    funext b
    match b with
    | ⟨0, _⟩ =>
      unfold ScatterDims.siIdx
      rw [dif_neg (by rw [hivd]; simp)]
      unfold ScatterDims.siCoord
      apply Fin.ext
      simp only [Fin.val_cast]
      rw [getElem_of_eq_singleton d.uScatter 0 hus]
      rfl
    | ⟨1, _⟩ =>
      unfold ScatterDims.siIdx
      rw [dif_pos (by rw [hivd])]
      apply Fin.ext
      show List.idxOf (0 : Fin 2) d.scatterDimsToOperandDims = 0
      rw [hsd]; simp
  have hst0 : d.start (ix2 e k) idx 0 = (idx (ixP e)).toInt := by
    unfold ScatterDims.start
    rw [dif_pos hm0, hsi]
  have hst1 : d.start (ix2 e k) idx 1 = 0 := by
    unfold ScatterDims.start
    rw [dif_neg hm1]
  have hwi0 : d.window (ix2 e k) 0 = 0 := by
    unfold ScatterDims.window
    rw [dif_neg hk0]
  have hwi1 : d.window (ix2 e k) 1 = k.val := by
    unfold ScatterDims.window
    rw [dif_pos hk1, getElem_of_eq_singleton d.updateWindowDims 1 huw]
    rfl
  constructor
  · intro h
    have h0 : d.start (ix2 e k) idx 0 + (d.window (ix2 e k) 0 : ℤ) = (i.val : ℤ) := h 0
    have h1 : d.start (ix2 e k) idx 1 + (d.window (ix2 e k) 1 : ℤ) = (j.val : ℤ) := h 1
    rw [hst0, hwi0] at h0
    rw [hst1, hwi1] at h1
    refine ⟨by simpa using h0, Fin.ext ?_⟩
    have : (k.val : ℤ) = (j.val : ℤ) := by simpa using h1
    exact_mod_cast this
  · rintro ⟨h, rfl⟩ a
    match a with
    | ⟨0, _⟩ =>
      show d.start (ix2 e k) idx 0 + (d.window (ix2 e k) 0 : ℤ) = (i.val : ℤ)
      rw [hst0, hwi0, h]; simp
    | ⟨1, _⟩ =>
      show d.start (ix2 e k) idx 1 + (d.window (ix2 e k) 1 : ℤ) = (k.val : ℤ)
      rw [hst1, hwi1]; simp

/-- A ROW SCATTER-ADD on the extended reals at entry (i, j): the operand there plus the sum, over the update rows `e`
    whose index word read signed is `i`, of the update's entry (e, j). -/
theorem scatterAdd_rows {N M n w : Nat} (d : ScatterDims ⟨2, ![N, M]⟩ ⟨2, ![n, 1]⟩ ⟨2, ![n, M]⟩)
    (huw : d.updateWindowDims = [1]) (hiw : d.insertedWindowDims = [0]) (hsd : d.scatterDimsToOperandDims = [0])
    (hivd : d.indexVectorDim = 1) (x : (⟨2, ![N, M]⟩ : Shape).Idx → EReal) (idx : IVec ⟨2, ![n, 1]⟩ w)
    (upd : (⟨2, ![n, M]⟩ : Shape).Idx → EReal) (i : Fin N) (j : Fin M) :
    Ideal.hostScatterAdd d x idx upd (ix2 i j)
      = x (ix2 i j) + ∑ e ∈ Finset.univ.filter (fun e : Fin n => (idx (ixP e)).toInt = (i.val : ℤ)), upd (ix2 e j) := by
  unfold Ideal.hostScatterAdd
  congr 1
  have hland : ∀ y : (⟨2, ![n, M]⟩ : Shape).Idx, d.resultIdx? y idx = some (ix2 i j) →
      (idx (ixP (y 0))).toInt = (i.val : ℤ) ∧ y 1 = j := by
    intro y hy
    rw [eq_ix2 y] at hy
    exact (scatter_rows_lands d huw hiw hsd hivd idx (y 0) (y 1) i j).1 hy
  refine Finset.sum_bij' (fun y _ => y 0) (fun e _ => ix2 e j) ?_ ?_ ?_ ?_ ?_
  · intro y hy
    exact Finset.mem_filter.2 ⟨Finset.mem_univ _, (hland y (Finset.mem_filter.1 hy).2).1⟩
  · intro e he
    exact Finset.mem_filter.2 ⟨Finset.mem_univ _,
      (scatter_rows_lands d huw hiw hsd hivd idx e j i j).2 ⟨(Finset.mem_filter.1 he).2, rfl⟩⟩
  · intro y hy
    have h1 := (hland y (Finset.mem_filter.1 hy).2).2
    show ix2 (y 0) j = y
    rw [← h1]; exact (eq_ix2 y).symm
  · intro e _
    rfl
  · intro y hy
    have h1 := (hland y (Finset.mem_filter.1 hy).2).2
    show upd y = upd (ix2 (y 0) j)
    rw [← h1]; exact congrArg upd (eq_ix2 y)

/-- Two vectors laid end to end read, at a position of the first part, the first vector. -/
theorem concat_vec_left {α : Type} {a b : Nat} (h : Shape.Concatenates [⟨1, ![a]⟩, ⟨1, ![b]⟩] ⟨1, ![a + b]⟩ 0)
    (u : (⟨1, ![a]⟩ : Shape).Idx → α) (v : (⟨1, ![b]⟩ : Shape).Idx → α) (p : Fin a) :
    concatenate (⟨1, ![a + b]⟩ : Shape) 0 [⟨⟨1, ![a]⟩, u⟩, ⟨⟨1, ![b]⟩, v⟩] h (ix1 (Fin.castAdd b p)) = u (ix1 p) := by
  refine concatenate_pair_apply_left 0 u v h (ix1 (Fin.castAdd b p)) rfl (ix1 p) ?_
  intro c
  obtain rfl : c = 0 := Subsingleton.elim _ _
  rfl

/-- … and, at a position of the second part, the second vector. -/
theorem concat_vec_right {α : Type} {a b : Nat} (h : Shape.Concatenates [⟨1, ![a]⟩, ⟨1, ![b]⟩] ⟨1, ![a + b]⟩ 0)
    (u : (⟨1, ![a]⟩ : Shape).Idx → α) (v : (⟨1, ![b]⟩ : Shape).Idx → α) (p : Fin b) :
    concatenate (⟨1, ![a + b]⟩ : Shape) 0 [⟨⟨1, ![a]⟩, u⟩, ⟨⟨1, ![b]⟩, v⟩] h (ix1 (Fin.natAdd a p)) = v (ix1 p) := by
  refine concatenate_pair_apply_right 0 u v h (ix1 (Fin.natAdd a p)) rfl rfl (ix1 p) ?_ ?_
  · intro c hc
    exact absurd (Subsingleton.elim _ _) hc
  · show p.val + a = a + p.val
    omega

end Cert.LibRows

end
-- ==== Proof.KPrelude.lean ====
/-
  What the host computes before the region, read at an index: the six arrays the pallas_call stages.

  The node column is `t i = dinv i · (a i + s i)`: `deg` by a scatter-add of ones over the segment words plus one,
  `dinv = rsqrt deg`, `s = x · dinv`, the sources' `s` taken by a gather that would answer the not-a-number word at a
  source word naming no node (the precondition rules that out, so it reads `s` at the named node), and `a` by a second
  scatter-add over the segment words. The other five are the weight row as launched, the two bias vectors as rows, and
  the two halves of the second weight.

  The host operations are first named, each with its operands left free, and read at an index over arbitrary operands;
  the node column's stages are those operations composed on the feature column and the edge table, and the array the
  region finds is shown to be that composition before any of it is read at an index.
-/
import proofs.«424222_j14405320311021_3_alg».proof.Proof.KArrays
import proofs.«424222_j14405320311021_3_alg».proof.Proof.LibRows
import Idealize.ShloMosaic.Lib.Pipeline.Value
import Idealize.ShloMosaic.Lib.ValueLayout
import Idealize.ShloMosaic.Lib.StableHlo.Run
import Idealize.ShloMosaic.Lib.StableHlo.Predicate
import Idealize.ShloMosaic.PureOps.Ideal.Laws

noncomputable section

namespace Cert.KernelIdeal.KV

open Idealize.ShloMosaic Idealize.ShloMosaic.TcCoe Idealize.SL.Sem Idealize.ShloMosaic.ValueIdx
open Cert.KernelIdeal Cert.KernelIdeal.Gen Cert.KernelIdeal.GenP

variable (m : (ℓ : Loc nD τ sig) → Buf (Elt Ideal) ℓ)

/-! ## The host operations behind the node column, as functions of their operands

Each is one stretch of the host program with its operands left free, so that what it computes at an index can be said
once, whatever the operands are. -/

section Ops

variable {F : FTy → Type} [FloatOps F]

/-- Ones scatter-added over a column of segment words into zeros, plus one: the degree. -/
noncomputable def degOf (idx : IVec S6400000x1 32) : Vec F S200000 .f32 :=
  addf
    (Host.scatterAdd (F := F) scatter_S200000_S6400000x1_S6400000_n_0_0_1
      (broadcastInDim S200000 ![] bcast_S_S200000 (constant (F := F) S_ .f32 0x00000000#32))
      idx
      (broadcastInDim S6400000 ![] bcast_S_S6400000 (constant (F := F) S_ .f32 0x3F800000#32)))
    (broadcastInDim S200000 ![] bcast_S_S200000 (constant (F := F) S_ .f32 0x3F800000#32))

/-- The feature column as a vector, times a factor. -/
noncomputable def sOf (X : Vec F S200000x1 .f32) (dv : Vec F S200000 .f32) : Vec F S200000 .f32 :=
  mulf (fun i => shapeCast S200000 X shapeCasts_S200000x1_S200000 i) dv

/-- A vector of words with a negative one wrapped round by the table's length. -/
noncomputable def wrapOf (src : IVec S6400000 32) : IVec S6400000 32 :=
  select (cmpi .slt src (broadcastInDim S6400000 ![] bcast_S_S6400000 (constantI S_ 32 0#32)))
    (addi src (broadcastInDim S6400000 ![] bcast_S_S6400000 (constantI S_ 32 200000#32)))
    src

/-- Whether each word of a column of start indices names a node. -/
noncomputable def okOf (idx : IVec S6400000x1 32) : IVec S6400000 1 :=
  Host.reduce IntOp.andi
    (andi
      (cmpi .sge idx (broadcastInDim S6400000x1 ![] bcast_S_S6400000x1 (constantI S_ 32 0#32)))
      (cmpi .sle idx
        (broadcastInDim S6400000x1 ![0, 1] bcast_S1x1_S6400000x1_0_1
          (broadcastInDim S1x1 ![1] bcast_S1_S1x1_1 (constantI S1 32 199999#32)))))
    (constantI S_ 1 1#1) reducesTo_S6400000x1_S6400000_d1 h_S_

/-- A table's entries gathered at a column of start indices where the test allows, the not-a-number word elsewhere. -/
noncomputable def takenOf (ok : IVec S6400000 1) (s : Vec F S200000 .f32) (idx : IVec S6400000x1 32) : Vec F S6400000 .f32 :=
  select ok
    (Host.gather gather_S200000_S6400000x1_S6400000_n_0_n_n_0_1_1 s idx)
    (broadcastInDim S6400000 ![] bcast_S_S6400000 (constant (F := F) S_ .f32 0x7FC00000#32))

/-- Updates scatter-added over a column of segment words into zeros. -/
noncomputable def aggOf (idx : IVec S6400000x1 32) (upd : Vec F S6400000 .f32) : Vec F S200000 .f32 :=
  Host.scatterAdd (F := F) scatter_S200000_S6400000x1_S6400000_n_0_0_1
    (broadcastInDim S200000 ![] bcast_S_S200000 (constant (F := F) S_ .f32 0x00000000#32))
    idx
    upd

/-- The factor times the sum of aggregate and scaled feature, as the column the kernel is launched on. -/
noncomputable def colOf (dv ag sv : Vec F S200000 .f32) : Vec F S200000x1 .f32 := fun i =>
  shapeCast S200000x1 (mulf dv (addf ag sv)) shapeCasts_S200000_S200000x1 i

end Ops

/-! ## The node column's stages, as functions of the feature column and the edge table -/

section Stages

variable {F : FTy → Type} [FloatOps F] (X : Vec F S200000x1 .f32) (eo : IVec S2x6400000 32)

/-- The segment words, the table's second row, as a vector. -/
noncomputable def segV : IVec S6400000 32 := fun i =>
  shapeCast S6400000 (extractStridedSlice S1x6400000 ![1, 0] eo slices_S2x6400000_S1x6400000_1_0) shapeCasts_S1x6400000_S6400000 i

/-- The source words, the table's first row, as a vector. -/
noncomputable def srcV : IVec S6400000 32 := fun i =>
  shapeCast S6400000 (extractStridedSlice S1x6400000 ![0, 0] eo slices_S2x6400000_S1x6400000_0_0) shapeCasts_S1x6400000_S6400000 i

/-- The segment words as a column of scatter indices. -/
noncomputable def segC : IVec S6400000x1 32 := broadcastInDim S6400000x1 ![0] bcast_S6400000_S6400000x1_0 (segV eo)

/-- The degree. -/
noncomputable def degV : Vec F S200000 .f32 := degOf (F := F) (segC eo)

/-- The normalisation factor. -/
noncomputable def dinvV : Vec F S200000 .f32 := Host.rsqrt (F := F) (degV (F := F) eo)

/-- The scaled features. -/
noncomputable def sV : Vec F S200000 .f32 := sOf X (dinvV (F := F) eo)

/-- The wrapped source words as a column of start indices. -/
noncomputable def wrapC : IVec S6400000x1 32 := broadcastInDim S6400000x1 ![0] bcast_S6400000_S6400000x1_0 (wrapOf (srcV eo))

/-- The sources' scaled features. -/
noncomputable def takenV : Vec F S6400000 .f32 := takenOf (okOf (wrapC eo)) (sV X eo) (wrapC eo)

/-- The aggregate. -/
noncomputable def aggV : Vec F S200000 .f32 := aggOf (segC eo) (takenV X eo)

/-- The node column the kernel is launched on. -/
noncomputable def tC : Vec F S200000x1 .f32 := colOf (dinvV (F := F) eo) (aggV X eo) (sV X eo)

end Stages

/-! ## The region-entry contents as those stages -/

/-- Contents moved to a buffer's own type and back are the contents. -/
theorem ofBuf_toBuf {Val : EltTy → Type} {T : BufTy} (x : StableHlo.TRef sig T) (v : T.Contents Val) :
    x.ofBuf (x.toBuf v) = v := by
  obtain ⟨r, h, hd, hu⟩ := x
  subst h
  rfl

/-- The same one way, at the three buffers the call shares with the lines around it. -/
theorem ofBuf_v12 {F : FTy → Type} (p1 p2 p3) (v : IVec S6400000 32) :
    (StableHlo.TRef.of (T := ⟨S6400000, .i32⟩) main_v12 p1 p2 p3).ofBuf (Val := Elt F) v = v := rfl
theorem ofBuf_v10 {F : FTy → Type} (p1 p2 p3) (v : Vec F S200000 .f32) :
    (StableHlo.TRef.of (T := ⟨S200000, .f32⟩) main_v10 p1 p2 p3).ofBuf (Val := Elt F) v = v := rfl
theorem toBuf_v13 {F : FTy → Type} (p1 p2 p3) (v : Vec F S6400000 .f32) :
    (StableHlo.TRef.of (T := ⟨S6400000, .f32⟩) main_v13 p1 p2 p3).toBuf (Val := Elt F) v = v := rfl

set_option maxHeartbeats 2000000 in
/-- The node column as the region finds it is the composed term of the host operations before the region. -/
theorem V_v21_term {F : FTy → Type} [FloatOps F] (m' : (ℓ : Loc nD τ sig) → Buf (Elt F) ℓ) (c : Dev nD) :
    (V m' c main_v21 : Vec F S200000x1 .f32)
      = tC (m' ((c.tc : Thread nD τ).loc main_arg0)) (m' ((c.tc : Thread nD τ).loc main_arg2)) := by
  dsimp only [V, V0]
  simp only [hostOps0, hostOps0_1, hostOps0_2, List.flatten_cons, List.flatten_nil, List.append_nil, List.cons_append, List.nil_append]
  open Idealize.ShloMosaic.StableHlo in after_results_simp
  simp only [ofBuf_toBuf, ofBuf_v12, ofBuf_v10, toBuf_v13]
  unfold tC colOf aggV aggOf takenV takenOf okOf wrapC wrapOf sV sOf dinvV degV degOf segC segV srcV
  rfl

/-! ## The operations read at an index, whatever their operands -/

section OpsRead

open Idealize.ShloMosaic.StableHlo.Predicate

/-- The rank-one index at a coordinate, in either spelling. -/
theorem ofFin_eq_ix1 {n : Nat} (k : Fin n) : Shape.Idx.ofFin k = ix1 k := (Shape.Idx.eq_ofFin (ix1 k)).symm

/-- A broadcast of a splat word is the splat word. -/
theorem bcast_constantI {s t : Shape} {w : Nat} (dims : Fin s.rank → Fin t.rank) (h : s.BroadcastsInDim t dims)
    (b : BitVec w) : broadcastInDim t dims h (constantI s w b) = constantI t w b := rfl

/-- A broadcast of a splat float is the splat float. -/
theorem bcast_constant {F : FTy → Type} [FloatOps F] {s t : Shape} {φ : FTy} (dims : Fin s.rank → Fin t.rank)
    (h : s.BroadcastsInDim t dims) (b : BitVec φ.bits) :
    broadcastInDim t dims h (constant (F := F) s φ b) = constant (F := F) t φ b := rfl

/-- The integer vector operations read at an index. -/
theorem cmpi_apply {s : Shape} {w : Nat} (p : CmpIPredicate) (x y : IVec s w) (i : s.Idx) :
    cmpi p x y i = IntOp.cmpi p (x i) (y i) := rfl
theorem andi_apply {s : Shape} {w : Nat} (x y : IVec s w) (i : s.Idx) : andi x y i = IntOp.andi (x i) (y i) := rfl

/-- The host's accumulating scatter read at an index: the extended reals' exact sum. -/
theorem scatterAdd_apply {s si u : Shape} {w : Nat} (d : ScatterDims s si u) (x0 : FVec Ideal s .f32) (ix : IVec si w)
    (up : FVec Ideal u .f32) (j : s.Idx) :
    Host.scatterAdd (F := Ideal) d x0 ix up j = Ideal.hostScatterAdd d x0 ix up j := rfl

/-- The host's reciprocal square root read at an index. -/
theorem rsqrt_apply (d : FVec Ideal S200000 .f32) (j : S200000.Idx) : Host.rsqrt (F := Ideal) d j = Ideal.rsqrt (d j) := rfl

/-- A word in the node range is below the range's end read unsigned, too. -/
theorem toNat_lt_of_range {w : BitVec 32} (h0 : 0 ≤ w.toInt) (h1 : w.toInt < 200000) : w.toNat < 200000 := by
  have h := BitVec.toInt_eq_toNat_cond w
  have hlt : w.toNat < 4294967296 := w.isLt
  have h32 : (2 : ℕ) ^ 32 = 4294967296 := by norm_num
  rw [h32] at h
  split_ifs at h <;> omega

/-- A non-negative word is not below zero. -/
theorem slt_zero_of_nonneg {w : BitVec 32} (h0 : 0 ≤ w.toInt) : IntOp.cmpi .slt w 0#32 = 0#1 := by
  have hz : (0#32 : BitVec 32).toInt = 0 := by decide
  have hf : w.slt 0#32 = false := by
    simp only [BitVec.slt, hz, decide_eq_false_iff_not, not_lt]; exact h0
  show BitVec.ofBool (w.slt 0#32) = 0#1
  rw [hf]; rfl

/-- A word in the node range passes the take's range test. -/
theorem range_test_one {w : BitVec 32} (h0 : 0 ≤ w.toInt) (h1 : w.toInt < 200000) :
    IntOp.andi (IntOp.cmpi .sge w 0#32) (IntOp.cmpi .sle w 199999#32) = 1#1 := by
  have hn := toNat_lt_of_range h0 h1
  have ha : IntOp.cmpi .sge w 0#32 = 1#1 :=
    (sge_iff_toNat (a := w) (b := 0#32) (by omega) (by decide)).2 (by show (0 : ℕ) ≤ w.toNat; omega)
  have hb : IntOp.cmpi .sle w 199999#32 = 1#1 :=
    (sle_iff_toNat (a := w) (b := 199999#32) (by omega) (by decide)).2 (by show w.toNat ≤ 199999; omega)
  rw [ha, hb]; rfl

/-- A fold of the word "and" from one over words that are all one is one. -/
theorem foldl_andi_one {ι : Type} (x : ι → BitVec 1) (l : List ι) (hl : ∀ i ∈ l, x i = 1#1) :
    l.foldl (fun r i => IntOp.andi r (x i)) 1#1 = 1#1 := by
  induction l with
  | nil => rfl
  | cons a l ih =>
    have h11 : IntOp.andi (1#1 : BitVec 1) 1#1 = 1#1 := by decide
    rw [List.foldl_cons, hl a List.mem_cons_self, h11]
    exact ih fun i hi => hl i (List.mem_cons_of_mem _ hi)

/-- The degree over a column that holds the segment words: the number of edges into the node, plus one. -/
theorem degOf_apply (idx : IVec S6400000x1 32) (col : Fin 6400000 → BitVec 32) (hidx : ∀ e, idx (ixP e) = col e)
    (i : Fin 200000) : degOf (F := Ideal) idx (ix1 i) = Cert.Spec.deg col i := by
  unfold degOf Cert.Spec.deg Cert.Spec.into
  rw [addf_apply, scatterAdd_apply, Cert.LibRows.scatterAdd_vec _ rfl rfl rfl rfl,
    bcast_constant, bcast_constant, bcast_constant, constant_apply, constant_apply,
    Ideal.ofBits_zero_f32, Cert.Spec.ofBits_one, zero_add]
  refine congrArg (fun z : EReal => z + 1) ?_
  refine Finset.sum_congr (Finset.filter_congr fun e _ => by rw [hidx e]) fun e _ => ?_
  rw [constant_apply, Cert.Spec.ofBits_one]

/-- The factor of a vector that holds the degree. -/
theorem dinv_of (d : FVec Ideal S200000 .f32) (col : Fin 6400000 → BitVec 32) (i : Fin 200000)
    (hd : d (ix1 i) = Cert.Spec.deg col i) : Host.rsqrt (F := Ideal) d (ix1 i) = Cert.Spec.dinv col i := by
  rw [rsqrt_apply, hd]
  rfl

/-- The scaled feature over a vector that holds the factor. -/
theorem sOf_apply (X : Vec Ideal S200000x1 .f32) (dv : FVec Ideal S200000 .f32) (col : Fin 6400000 → BitVec 32)
    (i : Fin 200000) (hd : dv (ix1 i) = Cert.Spec.dinv col i) :
    sOf X dv (ix1 i) = Cert.Spec.s (Cert.Spec.xOf X) col i := by
  unfold sOf
  rw [mulf_apply, hd]
  beta_reduce
  rw [shapeCast_apply X shapeCasts_S200000x1_S200000 (ix1 i) (ix2 i 0) (by
    rw [Shape.rowMajor_val_two, Shape.rowMajor_val_one]
    show i.val * 1 + 0 = i.val
    omega)]
  rfl

/-- A word that is not negative is kept by the wrap. -/
theorem wrapOf_apply (src : IVec S6400000 32) (e : Fin 6400000) (h0 : 0 ≤ (src (ix1 e)).toInt) :
    wrapOf src (ix1 e) = src (ix1 e) := by
  unfold wrapOf
  rw [select_apply, cmpi_apply, bcast_constantI, constantI_apply, slt_zero_of_nonneg h0, select_zero]

/-- The range test over the one column answers one at a word in the node range. -/
theorem okOf_apply (idx : IVec S6400000x1 32) (e : Fin 6400000) (h0 : 0 ≤ (idx (ixP e)).toInt)
    (h1 : (idx (ixP e)).toInt < 200000) : okOf idx (ix1 e) = 1#1 := by
  unfold okOf
  rw [Host.reduce_eq_foldl, constantI_apply]
  refine foldl_andi_one _ _ fun i hi => ?_
  have hd : reducesTo_S6400000x1_S6400000_d1.drop i = ix1 e := of_decide_eq_true (List.mem_filter.1 hi).2
  have hv : ((reducesTo_S6400000x1_S6400000_d1.drop i) 0 : ℕ) = i 0 :=
    Shape.ReducesTo.drop_apply_val_of_eq reducesTo_S6400000x1_S6400000_d1 i 0 0
  have hi0 : i 0 = e := Fin.ext (by rw [← hv, hd])
  have hi' : i = ixP e := by
    funext a
    match a with
    | ⟨0, _⟩ => exact hi0
    | ⟨1, ha⟩ =>
      apply Fin.ext
      have hlt : (i ⟨1, ha⟩).val < 1 := (i ⟨1, ha⟩).isLt
      show (i ⟨1, ha⟩).val = 0
      omega
  rw [hi', andi_apply, cmpi_apply, cmpi_apply, bcast_constantI, bcast_constantI, bcast_constantI,
    constantI_apply, constantI_apply]
  exact range_test_one h0 h1

/-- The taken value where the test answers one: the table at the node the start word names. -/
theorem takenOf_apply (ok : IVec S6400000 1) (s : FVec Ideal S200000 .f32) (idx : IVec S6400000x1 32) (e : Fin 6400000)
    (w : BitVec 32) (hok : ok (ix1 e) = 1#1) (hidx : idx (ixP e) = w) :
    takenOf (F := Ideal) ok s idx (ix1 e) = s (ix1 (Cert.Spec.node w)) := by
  unfold takenOf
  rw [select_apply, hok, select_one, ← ofFin_eq_ix1 e,
    gather_take _ rfl rfl rfl rfl _ _ e (by decide), ofFin_eq_ix1]
  refine congrArg s (congrArg ix1 (Fin.ext ?_))
  show min (idx (ixP e)).toInt.toNat (200000 - 1) = min w.toInt.toNat 199999
  rw [hidx]

/-- Updates scatter-added into zeros: at a node, the sum of the updates whose segment word is that node. -/
theorem aggOf_sum (idx : IVec S6400000x1 32) (upd : FVec Ideal S6400000 .f32) (i : Fin 200000) :
    aggOf (F := Ideal) idx upd (ix1 i)
      = ∑ e ∈ Finset.univ.filter (fun e : Fin 6400000 => (idx (ixP e)).toInt = (i.val : ℤ)), upd (ix1 e) := by
  unfold aggOf
  rw [scatterAdd_apply, Cert.LibRows.scatterAdd_vec _ rfl rfl rfl rfl,
    bcast_constant, constant_apply, Ideal.ofBits_zero_f32, zero_add]

/-- The aggregate over a column that holds the segment words and updates that hold the sources' scaled features. -/
theorem aggOf_apply (idx : IVec S6400000x1 32) (upd : FVec Ideal S6400000 .f32) (x : Fin 200000 → EReal)
    (row col : Fin 6400000 → BitVec 32) (hidx : ∀ e, idx (ixP e) = col e)
    (hupd : ∀ e, upd (ix1 e) = Cert.Spec.s x col (Cert.Spec.node (row e))) (i : Fin 200000) :
    aggOf (F := Ideal) idx upd (ix1 i) = Cert.Spec.agg x row col i := by
  rw [aggOf_sum]
  unfold Cert.Spec.agg Cert.Spec.into
  exact Finset.sum_congr (Finset.filter_congr fun e _ => by rw [hidx e]) fun e _ => hupd e

/-- The launched column over vectors that hold the factor, the aggregate and the scaled feature. -/
theorem colOf_apply (dv ag sv : FVec Ideal S200000 .f32) (x : Fin 200000 → EReal) (row col : Fin 6400000 → BitVec 32)
    (i : Fin 200000) (hd : dv (ix1 i) = Cert.Spec.dinv col i) (ha : ag (ix1 i) = Cert.Spec.agg x row col i)
    (hs : sv (ix1 i) = Cert.Spec.s x col i) :
    colOf (F := Ideal) dv ag sv (ix2 i 0) = Cert.Spec.t x row col i := by
  unfold colOf
  rw [shapeCast_apply (mulf dv (addf ag sv)) shapeCasts_S200000_S200000x1 (ix2 i 0) (ix1 i) (by
    rw [Shape.rowMajor_val_two, Shape.rowMajor_val_one]
    show i.val = i.val * 1 + 0
    omega)]
  rw [mulf_apply, addf_apply, hd, ha, hs]
  rfl

end OpsRead

/-! ## The stages read at an index -/

section Read

open Idealize.ShloMosaic.StableHlo.Predicate

variable (X : Vec Ideal S200000x1 .f32) (eo : IVec S2x6400000 32)

/-- The segment vector holds the table's second row. -/
theorem segV_apply (e : Fin 6400000) : segV eo (ix1 e) = eo (ix2 1 e) := by
  unfold segV
  rw [shapeCast_1a_a_apply]
  exact slice2_axis0_apply 1 eo _ (0 : Fin 1) e (1 : Fin 2) rfl

/-- The source vector holds the table's first row. -/
theorem srcV_apply (e : Fin 6400000) : srcV eo (ix1 e) = eo (ix2 0 e) := by
  unfold srcV
  rw [shapeCast_1a_a_apply]
  exact slice2_axis0_apply 0 eo _ (0 : Fin 1) e (0 : Fin 2) rfl

/-- So does the segment column. -/
theorem segC_apply (e : Fin 6400000) : segC eo (ixP e) = Cert.Spec.row1 eo e := by
  unfold segC
  rw [bcast_col1, ofFin_eq_ix1, segV_apply]
  rfl

/-- The degree is the specification's. -/
theorem degV_apply (i : Fin 200000) : degV (F := Ideal) eo (ix1 i) = Cert.Spec.deg (Cert.Spec.row1 eo) i := by
  unfold degV
  exact degOf_apply (segC eo) (Cert.Spec.row1 eo) (segC_apply eo) i

/-- The factor is the specification's. -/
theorem dinvV_apply (i : Fin 200000) : dinvV (F := Ideal) eo (ix1 i) = Cert.Spec.dinv (Cert.Spec.row1 eo) i := by
  unfold dinvV
  exact dinv_of (degV (F := Ideal) eo) (Cert.Spec.row1 eo) i (degV_apply eo i)

/-- The scaled feature is the specification's. -/
theorem sV_apply (i : Fin 200000) :
    sV X eo (ix1 i) = Cert.Spec.s (Cert.Spec.xOf X) (Cert.Spec.row1 eo) i := by
  unfold sV
  exact sOf_apply X (dinvV (F := Ideal) eo) (Cert.Spec.row1 eo) i (dinvV_apply eo i)

/-- The start-index column holds a source word that names a node. -/
theorem wrapC_apply (e : Fin 6400000) (h0 : 0 ≤ (eo (ix2 0 e)).toInt) : wrapC eo (ixP e) = eo (ix2 0 e) := by
  unfold wrapC
  rw [bcast_col1, ofFin_eq_ix1, wrapOf_apply (srcV eo) e (by rw [srcV_apply]; exact h0), srcV_apply]

/-- The taken value at an edge whose source word names a node is that node's scaled feature. -/
theorem takenV_apply (e : Fin 6400000) (h0 : 0 ≤ (eo (ix2 0 e)).toInt) (h1 : (eo (ix2 0 e)).toInt < 200000) :
    takenV X eo (ix1 e)
      = Cert.Spec.s (Cert.Spec.xOf X) (Cert.Spec.row1 eo) (Cert.Spec.node (Cert.Spec.row0 eo e)) := by
  unfold takenV
  rw [takenOf_apply (okOf (wrapC eo)) (sV X eo) (wrapC eo) e (Cert.Spec.row0 eo e)
    (okOf_apply (wrapC eo) e (by rw [wrapC_apply eo e h0]; exact h0) (by rw [wrapC_apply eo e h0]; exact h1))
    (wrapC_apply eo e h0), sV_apply]

/-- The aggregate is the specification's, where every source word names a node. -/
theorem aggV_apply (hrow : ∀ e : Fin 6400000, 0 ≤ (eo (ix2 0 e)).toInt ∧ (eo (ix2 0 e)).toInt < 200000)
    (i : Fin 200000) :
    aggV X eo (ix1 i) = Cert.Spec.agg (Cert.Spec.xOf X) (Cert.Spec.row0 eo) (Cert.Spec.row1 eo) i := by
  unfold aggV
  exact aggOf_apply (segC eo) (takenV X eo) (Cert.Spec.xOf X) (Cert.Spec.row0 eo) (Cert.Spec.row1 eo) (segC_apply eo)
    (fun e => takenV_apply X eo e (hrow e).1 (hrow e).2) i

/-- The column the kernel is launched on is the specification's node column. -/
theorem tC_apply (hrow : ∀ e : Fin 6400000, 0 ≤ (eo (ix2 0 e)).toInt ∧ (eo (ix2 0 e)).toInt < 200000)
    (i : Fin 200000) :
    tC X eo (ix2 i 0) = Cert.Spec.t (Cert.Spec.xOf X) (Cert.Spec.row0 eo) (Cert.Spec.row1 eo) i := by
  unfold tC
  exact colOf_apply (dinvV (F := Ideal) eo) (aggV X eo) (sV X eo) (Cert.Spec.xOf X) (Cert.Spec.row0 eo) (Cert.Spec.row1 eo) i
    (dinvV_apply eo i) (aggV_apply X eo hrow i) (sV_apply X eo i)

end Read

/-! ## The six staged arrays -/

/-- The node column the region finds is the specification's `t`, where every source word names a node. -/
theorem tArr_eq (c : Dev nD)
    (hrow : ∀ e : Fin 6400000, 0 ≤ (eoArg m c (ix2 0 e)).toInt ∧ (eoArg m c (ix2 0 e)).toInt < 200000)
    (i : Fin 200000) :
    tArr m c (ix2 i 0) = Cert.Spec.tOf (xArg m c) (eoArg m c) i := by
  rw [show tArr m c = tC (xArg m c) (eoArg m c) from V_v21_term m c]
  exact tC_apply (xArg m c) (eoArg m c) hrow i

/-- The weight row is staged as launched. -/
theorem wArr_eq (c : Dev nD) : wArr m c = wArg m c := V_main_arg3 m c

/-- The first bias row is the bias vector with a unit axis in front. -/
theorem bArr_term (c : Dev nD) :
    bArr m c = (fun i => shapeCast S1x5 (bArg m c) shapeCasts_S5_S1x5 i) := by
  show V m c main_v24 = _
  dsimp only [V, V0]
  simp only [hostOps0, hostOps0_1, hostOps0_2, List.flatten_cons, List.flatten_nil, List.append_nil, List.cons_append, List.nil_append]
  open Idealize.ShloMosaic.StableHlo in after_results_simp
  rfl

/-- The first bias as a row. -/
theorem bArr_eq (c : Dev nD) (j : Fin 5) : bArr m c (ix2 0 j) = bArg m c (ix1 j) := by
  rw [bArr_term]
  exact shapeCast_a_1a_apply _ _ _ _

/-- The first staged half of the second weight is the slice of its rows from 0. -/
theorem w2aArr_term (c : Dev nD) :
    w2aArr m c = extractStridedSlice S5x2 ![0, 0] (w2Arg m c) slices_S10x2_S5x2_0_0 := by
  show V m c main_v22 = _
  dsimp only [V, V0]
  simp only [hostOps0, hostOps0_1, hostOps0_2, List.flatten_cons, List.flatten_nil, List.append_nil, List.cons_append, List.nil_append]
  open Idealize.ShloMosaic.StableHlo in after_results_simp

/-- Rows 0 to 4 of the second weight. -/
theorem w2aArr_eq (c : Dev nD) (k : Fin 5) (c' : Fin 2) : w2aArr m c (ix2 k c') = w2Arg m c (ix2 (Fin.castAdd 5 k) c') := by
  rw [w2aArr_term]
  exact slice2_axis0_apply 0 _ _ k c' (Fin.castAdd 5 k) (Nat.zero_add _).symm

/-- The second staged half of the second weight is the slice of its rows from 5. -/
theorem w2bArr_term (c : Dev nD) :
    w2bArr m c = extractStridedSlice S5x2 ![5, 0] (w2Arg m c) slices_S10x2_S5x2_5_0 := by
  show V m c main_v23 = _
  dsimp only [V, V0]
  simp only [hostOps0, hostOps0_1, hostOps0_2, List.flatten_cons, List.flatten_nil, List.append_nil, List.cons_append, List.nil_append]
  open Idealize.ShloMosaic.StableHlo in after_results_simp

/-- Rows 5 to 9 of the second weight. -/
theorem w2bArr_eq (c : Dev nD) (k : Fin 5) (c' : Fin 2) : w2bArr m c (ix2 k c') = w2Arg m c (ix2 (Fin.natAdd 5 k) c') := by
  rw [w2bArr_term]
  exact slice2_axis0_apply 5 _ _ k c' (Fin.natAdd 5 k) rfl

/-- The second bias row is the bias vector with a unit axis in front. -/
theorem b2Arr_term (c : Dev nD) :
    b2Arr m c = (fun i => shapeCast S1x2 (b2Arg m c) shapeCasts_S2_S1x2 i) := by
  show V m c main_v25 = _
  dsimp only [V, V0]
  simp only [hostOps0, hostOps0_1, hostOps0_2, List.flatten_cons, List.flatten_nil, List.append_nil, List.cons_append, List.nil_append]
  open Idealize.ShloMosaic.StableHlo in after_results_simp
  rfl

/-- The second bias as a row. -/
theorem b2Arr_eq (c : Dev nD) (c' : Fin 2) : b2Arr m c (ix2 0 c') = b2Arg m c (ix1 c') := by
  rw [b2Arr_term]
  exact shapeCast_a_1a_apply _ _ _ _

end Cert.KernelIdeal.KV

end
-- ==== Proof.KTail.lean ====
/-
  What the host computes after the region, read at an index: the result is the first projection's rows taken at the
  second edge table's second row, plus the second projection's rows taken at its first row. Each take wraps a negative
  word, gathers, and answers the not-a-number word where the wrapped word names no node; where every word names a node
  it reads the projection at that node.
-/
import proofs.«424222_j14405320311021_3_alg».proof.Proof.KArrays
import proofs.«424222_j14405320311021_3_alg».proof.Proof.LibRows
import Idealize.ShloMosaic.Lib.Pipeline.Value
import Idealize.ShloMosaic.Lib.ValueLayout
import Idealize.ShloMosaic.Lib.StableHlo.Run
import Idealize.ShloMosaic.Lib.StableHlo.Predicate
import Idealize.ShloMosaic.PureOps.Ideal.Laws

noncomputable section

namespace Cert.KernelIdeal.KV

open Idealize.ShloMosaic Idealize.ShloMosaic.TcCoe Idealize.SL.Sem Idealize.ShloMosaic.ValueIdx
open Cert.KernelIdeal Cert.KernelIdeal.Gen Cert.KernelIdeal.GenP

variable (m : (ℓ : Loc nD τ sig) → Buf (Elt Ideal) ℓ)

namespace Tail

/-! ## The tail as one term -/

/-- Row `k` of the edge table, as a vector of words. -/
noncomputable def rowW (k : Nat) (h : S2x6400000.Slices ![k, 0] S1x6400000) (ei : IVec S2x6400000 32) : IVec S6400000 32 :=
  shapeCast S6400000 (extractStridedSlice S1x6400000 ![k, 0] ei h) shapeCasts_S1x6400000_S6400000

/-- A negative word wrapped by the table's length, any other word kept. -/
noncomputable def wrapW (w : IVec S6400000 32) : IVec S6400000 32 :=
  select (cmpi .slt w (broadcastInDim S6400000 ![] bcast_S_S6400000 (constantI S_ 32 0#32)))
    (addi w (broadcastInDim S6400000 ![] bcast_S_S6400000 (constantI S_ 32 200000#32))) w

/-- The wrapped words as a column of start indices. -/
noncomputable def colW (w : IVec S6400000 32) : IVec S6400000x1 32 :=
  broadcastInDim S6400000x1 ![0] bcast_S6400000_S6400000x1_0 (wrapW w)

/-- Whether each wrapped word names a row of the table. -/
noncomputable def okW (w : IVec S6400000 32) : IVec S6400000 1 :=
  Host.reduce IntOp.andi
    (andi
      (cmpi .sge (colW w) (broadcastInDim S6400000x1 ![] bcast_S_S6400000x1 (constantI S_ 32 0#32)))
      (cmpi .sle (colW w) (broadcastInDim S6400000x1 ![0, 1] bcast_S1x1_S6400000x1_0_1
        (broadcastInDim S1x1 ![1] bcast_S1_S1x1_1 (constantI S1 32 199999#32)))))
    (constantI S_ 1 1#1) reducesTo_S6400000x1_S6400000_d1 h_S_

/-- One take: the table's rows at the wrapped words, the not-a-number word where a wrapped word names no row. -/
noncomputable def TAKE (P : Vec Ideal S200000x2 .f32) (w : IVec S6400000 32) : Vec Ideal S6400000x2 .f32 :=
  select (broadcastInDim S6400000x2 ![0] bcast_S6400000_S6400000x2_0 (okW w))
    (Host.gather gather_S200000x2_S6400000x1_S6400000x2_1_0_n_n_0_1_12 P (colW w))
    (broadcastInDim S6400000x2 ![] bcast_S_S6400000x2 (constant (F := Ideal) S_ .f32 0x7FC00000#32))

/-- The host's tail: the first table taken at the edge table's second row, plus the second taken at its first row. -/
noncomputable def TAIL (P Q : Vec Ideal S200000x2 .f32) (ei : IVec S2x6400000 32) : Vec Ideal S6400000x2 .f32 :=
  addf (F := Ideal) (s := S6400000x2) (φ := FTy.f32) (TAKE P (rowW 1 slices_S2x6400000_S1x6400000_1_0 ei)) (TAKE Q (rowW 0 slices_S2x6400000_S1x6400000_0_0 ei))

/-! ## The tail is what the program computes -/

/-- Contents moved to a buffer's own type and back are the contents. -/
theorem ofBuf_toBuf {T : BufTy} (x : StableHlo.TRef sig T) (v : T.Contents (Elt Ideal)) : x.ofBuf (x.toBuf v) = v := by
  obtain ⟨r, h, hd, hu⟩ := x
  subst h
  rfl

/-- The same one way, at the six buffers the two calls share with the lines around them. -/
theorem toBuf_v29 (p1 p2 p3) (v : Vec Ideal S6400000x2 .f32) :
    (StableHlo.TRef.of (T := ⟨S6400000x2, .f32⟩) main_v29 p1 p2 p3).toBuf (Val := Elt Ideal) v = v := rfl
theorem toBuf_v32 (p1 p2 p3) (v : Vec Ideal S6400000x2 .f32) :
    (StableHlo.TRef.of (T := ⟨S6400000x2, .f32⟩) main_v32 p1 p2 p3).toBuf (Val := Elt Ideal) v = v := rfl
theorem ofBuf_v28 (p1 p2 p3) (v : IVec S6400000 32) :
    (StableHlo.TRef.of (T := ⟨S6400000, .i32⟩) main_v28 p1 p2 p3).ofBuf (Val := Elt Ideal) v = v := rfl
theorem ofBuf_v31 (p1 p2 p3) (v : IVec S6400000 32) :
    (StableHlo.TRef.of (T := ⟨S6400000, .i32⟩) main_v31 p1 p2 p3).ofBuf (Val := Elt Ideal) v = v := rfl
theorem ofBuf_v26_0 (p1 p2 p3) (v : Vec Ideal S200000x2 .f32) :
    (StableHlo.TRef.of (T := ⟨S200000x2, .f32⟩) main_v26_0 p1 p2 p3).ofBuf (Val := Elt Ideal) v = v := rfl
theorem ofBuf_v26_1 (p1 p2 p3) (v : Vec Ideal S200000x2 .f32) :
    (StableHlo.TRef.of (T := ⟨S200000x2, .f32⟩) main_v26_1 p1 p2 p3).ofBuf (Val := Elt Ideal) v = v := rfl

/-- After the region, each array of the pipeline reads what the pipeline leaves in it. -/
theorem wa_arr (c : Dev nD) (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 launch0.win.arr_inj c _ _ w

/-- The second edge table is no array of the pipeline and no host operation writes it: it reads as launched. -/
theorem wa_ei (c : Dev nD) :
    Pipeline.withArrays (cfgs 0).spec c (V0 m c) (fun w => (dats m 0 c).arrAt w (cfgs 0).N) (Proc.devRef .tc main_arg1) = eiArg m c :=
  (Pipeline.withArrays_of_ne _ c (V0 m c) _ main_arg1 (by exact (by decide : ∀ w, Pipeline.arrRef spec0 w ≠ main_arg1))).trans (V_main_arg1 m c)

/-- The first projection's array after the region. -/
theorem wa_p (c : Dev nD) :
    Pipeline.withArrays (cfgs 0).spec c (V0 m c) (fun w => (dats m 0 c).arrAt w (cfgs 0).N) (Proc.devRef .tc main_v26_0) = pArr m c :=
  wa_arr m c 6

/-- The second projection's array after the region. -/
theorem wa_q (c : Dev nD) :
    Pipeline.withArrays (cfgs 0).spec c (V0 m c) (fun w => (dats m 0 c).arrAt w (cfgs 0).N) (Proc.devRef .tc main_v26_1) = qArr m c :=
  wa_arr m c 7

set_option maxHeartbeats 2000000 in
/-- The program's result is the tail of the two projections and the second edge table. -/
theorem outTail_TAIL (c : Dev nD) : outTail m c = TAIL (pArr m c) (qArr m c) (eiArg m c) := by
  show Pipeline.afterTail₀ cfgs (dats m) 0 (V0 m) [hostOps1, hostOps1_1, hostOps1_2, hostOps1_3, hostOps1_4] c main_v33 = _
  unfold Pipeline.afterTail₀
  show StableHlo.after (List.flatten [hostOps1, hostOps1_1, hostOps1_2, hostOps1_3, hostOps1_4]) _ (Proc.devRef .tc main_v33) = _
  simp only [hostOps1, hostOps1_1, hostOps1_2, hostOps1_3, hostOps1_4, List.flatten_cons, List.flatten_nil, List.append_nil, List.cons_append, List.nil_append]
  after_results_simp
  rw [wa_ei, wa_p, wa_q]
  simp only [ofBuf_toBuf, toBuf_v29, toBuf_v32, ofBuf_v28, ofBuf_v31, ofBuf_v26_0, ofBuf_v26_1]
  unfold TAIL TAKE okW colW wrapW rowW
  rfl

/-! ## The tail read at an index -/

/-- The vector index a column broadcast names is the index at that coordinate. -/
theorem ofFin_eq_ix1 {n : Nat} (p : Fin n) : Shape.Idx.ofFin p = ix1 p := by
  funext a
  obtain rfl : a = 0 := Subsingleton.elim _ _
  rfl

/-- A word that names a node reads the same signed and unsigned: its value is below the table's length. -/
theorem toNat_of_rng (x : BitVec 32) (h0 : 0 ≤ x.toInt) (h1 : x.toInt < 200000) : x.toNat < 200000 := by
  have h := BitVec.toInt_eq_toNat_cond x
  have hx := x.isLt
  split at h <;> omega

open Idealize.ShloMosaic.StableHlo.Predicate in
/-- Such a word is not below zero, -/
theorem slt_zero (x : BitVec 32) (hx : x.toNat < 200000) : IntOp.cmpi .slt x 0#32 = 0#1 :=
  eq_zero_of_ne_one fun h => by
    have h' := (slt_iff_toNat (a := x) (b := 0#32) (by omega) (by decide)).mp h
    have h0 : (0#32 : BitVec 32).toNat = 0 := rfl
    omega

open Idealize.ShloMosaic.StableHlo.Predicate in
/-- is at least zero, -/
theorem sge_zero (x : BitVec 32) (hx : x.toNat < 200000) : IntOp.cmpi .sge x 0#32 = 1#1 :=
  (sge_iff_toNat (a := x) (b := 0#32) (by omega) (by decide)).mpr (by
    have h0 : (0#32 : BitVec 32).toNat = 0 := rfl
    omega)

open Idealize.ShloMosaic.StableHlo.Predicate in
/-- and is at most the last row. -/
theorem sle_last (x : BitVec 32) (hx : x.toNat < 200000) : IntOp.cmpi .sle x 199999#32 = 1#1 :=
  (sle_iff_toNat (a := x) (b := 199999#32) (by omega) (by decide)).mpr (by
    have h0 : (199999#32 : BitVec 32).toNat = 199999 := rfl
    omega)

/-- A left fold by `and` from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from rfl]
    exact foldl_andi_one f l fun n hn => h n (List.mem_cons_of_mem _ hn)

/-- A reduction by `and` from 1 is 1 at a position all of whose operand entries are 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_one x _ fun i hi => ?_
  exact hx i (of_decide_eq_true (List.mem_filter.mp hi).2)

/-- A vector laid along the rows of a rectangle reads, at (p, q), the vector at `p`. -/
theorem bcast_vec_rows {α : Type} {n k : Nat} (h : (⟨1, ![n]⟩ : Shape).BroadcastsInDim ⟨2, ![n, k]⟩ ![0])
    (v : (⟨1, ![n]⟩ : Shape).Idx → α) (p : Fin n) (q : Fin k) :
    broadcastInDim ⟨2, ![n, k]⟩ ![0] h v (ix2 p q) = v (ix1 p) :=
  broadcastInDim_apply _ h v _ _ fun a => by
    obtain rfl : a = 0 := Subsingleton.elim _ _
    show p.val = if n = 1 then 0 else p.val
    have hp := p.isLt
    split
    · omega
    · rfl

/-- Row `k` of the edge table at edge `e`. -/
theorem rowW_apply (k : Nat) (h : S2x6400000.Slices ![k, 0] S1x6400000) (ei : IVec S2x6400000 32) (e : Fin 6400000)
    (kk : Fin 2) (hk : kk.val = k) : rowW k h ei (ix1 e) = ei (ix2 kk e) := by
  unfold rowW
  rw [shapeCast_1a_a_apply]
  exact slice2_axis0_apply k ei h (0 : Fin 1) e kk (by show kk.val = k + 0; omega)

/-- A word that names a node is kept by the wrap. -/
theorem wrapW_apply (w : IVec S6400000 32) (e : Fin 6400000) (hx : (w (ix1 e)).toNat < 200000) :
    wrapW w (ix1 e) = w (ix1 e) := by
  show Scalar.select (IntOp.cmpi .slt (w (ix1 e)) 0#32) _ _ = _
  rw [slt_zero _ hx, select_zero]

open Idealize.ShloMosaic.StableHlo.Predicate in
/-- The column of start indices at row `e`. -/
theorem colW_apply (w : IVec S6400000 32) (e : Fin 6400000) : colW w (ixP e) = wrapW w (ix1 e) := by
  unfold colW
  rw [bcast_col1, ofFin_eq_ix1]

open Idealize.ShloMosaic.StableHlo.Predicate in
/-- Where the word names a node the mask is set. -/
theorem okW_apply (w : IVec S6400000 32) (e : Fin 6400000) (hx : (w (ix1 e)).toNat < 200000) : okW w (ix1 e) = 1#1 := by
  unfold okW
  refine reduce_andi_one _ _ _ _ _ rfl fun i hi => ?_
  have hv : ((reducesTo_S6400000x1_S6400000_d1).drop i 0 : Nat) = i 0 := Shape.ReducesTo.drop_apply_val _ i 0
  rw [hi] at hv
  have hi' : i = ixP e := by
    funext b
    match b with
    | ⟨0, _⟩ => exact Fin.ext hv.symm
    | ⟨1, _⟩ => exact Fin.ext (by have := idx2_lt1 i; show (i 1).val = 0; omega)
  subst hi'
  show IntOp.andi (IntOp.cmpi .sge (colW w (ixP e)) 0#32) (IntOp.cmpi .sle (colW w (ixP e)) 199999#32) = 1#1
  rw [colW_apply, wrapW_apply w e hx, sge_zero _ hx, sle_last _ hx]
  rfl

open Idealize.ShloMosaic.StableHlo.Predicate in
/-- One take at (edge `e`, column `c'`), where the word names a node: the table at that node. -/
theorem TAKE_apply (P : Vec Ideal S200000x2 .f32) (w : IVec S6400000 32) (e : Fin 6400000) (c' : Fin 2)
    (hx : (w (ix1 e)).toNat < 200000) : TAKE P w (ix2 e c') = P (ix2 (Cert.Spec.node (w (ix1 e))) c') := by
  unfold TAKE
  rw [select_apply, bcast_vec_rows, okW_apply w e hx, select_one,
    Cert.LibRows.gather_rows _ rfl rfl rfl rfl rfl rfl P (colW w) e c' (by norm_num)]
  have hc : colW w (ixP e) = w (ix1 e) := by rw [colW_apply, wrapW_apply w e hx]
  refine congrArg P (congrArg (fun r => ix2 r c') (Fin.ext ?_))
  show min (colW w (ixP e)).toInt.toNat (200000 - 1) = min (w (ix1 e)).toInt.toNat 199999
  rw [hc]

/-- The tail at (edge `e`, column `c'`), where every word of the edge table names a node. -/
theorem TAIL_apply (P Q : Vec Ideal S200000x2 .f32) (ei : IVec S2x6400000 32)
    (hrng : ∀ j, 0 ≤ (ei j).toInt ∧ (ei j).toInt < 200000) (e : Fin 6400000) (c' : Fin 2) :
    TAIL P Q ei (ix2 e c')
      = P (ix2 (Cert.Spec.node (ei (ix2 1 e))) c') + Q (ix2 (Cert.Spec.node (ei (ix2 0 e))) c') := by
  unfold TAIL
  have h1 := rowW_apply 1 slices_S2x6400000_S1x6400000_1_0 ei e 1 rfl
  have h0 := rowW_apply 0 slices_S2x6400000_S1x6400000_0_0 ei e 0 rfl
  rw [addf_apply,
    TAKE_apply P _ e c' (by rw [h1]; exact toNat_of_rng _ (hrng _).1 (hrng _).2),
    TAKE_apply Q _ e c' (by rw [h0]; exact toNat_of_rng _ (hrng _).1 (hrng _).2), h1, h0]

end Tail

/-- The result at edge `e`, column `c'`: the two projections at the edge's two nodes, added. -/
theorem outTail_eq (c : Dev nD)
    (hrng : ∀ j, 0 ≤ (eiArg m c j).toInt ∧ (eiArg m c j).toInt < 200000)
    (e : Fin 6400000) (c' : Fin 2) :
    outTail m c (ix2 e c')
      = pArr m c (ix2 (Cert.Spec.node (eiArg m c (ix2 1 e))) c') + qArr m c (ix2 (Cert.Spec.node (eiArg m c (ix2 0 e))) c') :=
  (congrFun (Tail.outTail_TAIL m c) (ix2 e c')).trans (Tail.TAIL_apply (pArr m c) (qArr m c) (eiArg m c) hrng e c')

end Cert.KernelIdeal.KV

end
-- ==== Proof.KValue.lean ====
/-
  The kernel program's run with its result named: every weakly fair execution ends with the result buffer at the
  specification's array of the argument arrays, and the arguments unchanged.

  The result after the host's tail is the two projections gathered at the edge's two nodes and added; each projection is
  the body's row function of the six staged arrays; and the staged arrays are the specification's node column, the weight
  row, the bias rows and the second weight's two halves. Substituting one into the other gives the specification.
-/
import proofs.«424222_j14405320311021_3_alg».proof.Proof.KBody
import proofs.«424222_j14405320311021_3_alg».proof.Proof.KPrelude
import proofs.«424222_j14405320311021_3_alg».proof.Proof.KTail

noncomputable section

namespace Cert.KernelIdeal.KV

open Idealize.ShloMosaic Idealize.ShloMosaic.TcCoe Idealize.SL.Sem Idealize.ShloMosaic.ValueIdx
open Cert.KernelIdeal Cert.KernelIdeal.Gen Cert.KernelIdeal.GenP

variable (m : (ℓ : Loc nD τ sig) → Buf (Elt Ideal) ℓ)

/-- The program's result is the specification's array, under what the proof uses of the precondition. -/
theorem result_eq (c : Dev nD) (hg : Cert.Spec.Good (xArg m c) (eiArg m c) (eoArg m c) (wArg m c)) :
    outTail m c = Cert.Spec.outArr (xArg m c) (eiArg m c) (eoArg m c) (wArg m c) (bArg m c) (w2Arg m c) (b2Arg m c) := by
  funext j
  obtain ⟨e, c', rfl⟩ : ∃ (e : Fin 6400000) (c' : Fin 2), j = ix2 e c' := ⟨j 0, j 1, eq_ix2 j⟩
  have hT : (fun i => tArr m c (ix2 i 0)) = Cert.Spec.tOf (xArg m c) (eoArg m c) :=
    funext fun i => tArr_eq m c hg.row_rng i
  have hW : (fun j => wArr m c (ix2 0 j)) = Cert.Spec.wOf (wArg m c) := by rw [wArr_eq]; rfl
  have hB : (fun j => bArr m c (ix2 0 j)) = Cert.Spec.bOf (bArg m c) := funext fun j => bArr_eq m c j
  have hA : (fun k c' => w2aArr m c (ix2 k c')) = Cert.Spec.w2lo (w2Arg m c) :=
    funext fun k => funext fun c' => w2aArr_eq m c k c'
  have hA' : (fun k c' => w2bArr m c (ix2 k c')) = Cert.Spec.w2hi (w2Arg m c) :=
    funext fun k => funext fun c' => w2bArr_eq m c k c'
  have hB2 : (fun c' => b2Arr m c (ix2 0 c')) = Cert.Spec.b2Of (b2Arg m c) := funext fun c' => b2Arr_eq m c c'
  rw [outTail_eq m c hg.ei_rng e c', pArr_eq, qArr_eq, hT, hW, hB, hA, hA', hB2, Cert.Spec.outArr_ix2]
  rfl

/-- The run: the result at the specification's array, every argument array as launched. -/
theorem run (ρ : Dev nD → PrngReg)
    (hg : ∀ c : Dev nD, Cert.Spec.Good (xArg m c) (eiArg m c) (eoArg m c) (wArg m c)) :
    θ_run defs (onTc (τ := τ) (main (F := Ideal))) ⟨m, fun _ => 0, ρ⟩ (fun r => ∀ c : Dev nD,
      r.2.mem ((c.tc : Thread nD τ).loc main_v33)
        = Cert.Spec.outArr (xArg m c) (eiArg m c) (eoArg m c) (wArg m c) (bArg m c) (w2Arg m c) (b2Arg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v33 (Pipeline.mem_restRefs_of main_v33 (by decide) (by decide))).trans (result_eq m c (hg c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 1).trans (((dats m 0 c).arrAt_in 1 rfl _).trans ((A_eq m c 1).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.KV

end
-- ==== Proof.SpecAlgebra.lean ====
/-
  The algebra that joins the two arrangements, on the extended reals, over abstract edge sets.

  * A sum over the positions of two lists laid end to end that satisfy a predicate is the sum over the first list's
    positions that satisfy it plus the sum over the second's.
  * The degree `deg i` is a positive integer, so `dinv i = deg i ^ (-1/2)` is a positive real number.
  * The rearrangement: with real node features `x`, a real weight `w` and real factors `d`,
        ∑ over the edges e into i of (x (r e) · w) · (d (r e) · d i)  +  (x i · w) · (d i · d i)
          = (d i · ((∑ over the edges e into i of x (r e) · d (r e)) + x i · d i)) · w ,
    the width-five message sum with the self loop on the left, the width-one aggregate scaled afterwards on the right.
    On the extended reals it needs every factor finite: distributivity fails at the infinities.
-/
import proofs.«424222_j14405320311021_3_alg».proof.Proof.Spec
import Mathlib.Algebra.BigOperators.Fin
import Mathlib.Data.EReal.Operations

noncomputable section

namespace Cert.Spec

open Idealize.ShloMosaic

/-- A finite sum of real numbers, coerced, is the sum of the coercions. -/
theorem coe_sum {ι : Type} (S : Finset ι) (f : ι → ℝ) : ((∑ e ∈ S, f e : ℝ) : EReal) = ∑ e ∈ S, (f e : EReal) := by
  classical
  induction S using Finset.induction_on with
  | empty => simp
  | insert a S ha ih => rw [Finset.sum_insert ha, Finset.sum_insert ha, EReal.coe_add, ih]

/-- Positions of two lists laid end to end, filtered: the first list's plus the second's. -/
theorem sum_filter_add {M : Type} [AddCommMonoid M] {a b : Nat} (P : Fin (a + b) → Prop) [DecidablePred P] (f : Fin (a + b) → M) :
    ∑ e ∈ Finset.univ.filter P, f e
      = (∑ e ∈ Finset.univ.filter (fun e : Fin a => P (Fin.castAdd b e)), f (Fin.castAdd b e))
        + ∑ e ∈ Finset.univ.filter (fun e : Fin b => P (Fin.natAdd a e)), f (Fin.natAdd a e) := by
  classical
  rw [Finset.sum_filter, Fin.sum_univ_add, Finset.sum_filter, Finset.sum_filter]

/-- The one position of `0, 1, …, n − 1` whose value is `i` is `i`. -/
theorem sum_filter_iota {M : Type} [AddCommMonoid M] {n : Nat} (i : Fin n) (f : Fin n → M) :
    ∑ k ∈ Finset.univ.filter (fun k : Fin n => k = i), f k = f i := by
  classical
  rw [Finset.filter_eq', if_pos (Finset.mem_univ i), Finset.sum_singleton]

/-- The degree is a positive whole number. -/
theorem deg_eq_nat (col : Fin 6400000 → BitVec 32) (i : Fin 200000) :
    deg col i = (((into col i).card + 1 : ℕ) : ℝ) := by
  unfold deg
  rw [Finset.sum_const, nsmul_one]
  simp only [Nat.cast_add, Nat.cast_one, EReal.coe_add, EReal.coe_natCast, EReal.coe_one]

/-- The degree is positive. -/
theorem deg_pos (col : Fin 6400000 → BitVec 32) (i : Fin 200000) : (0 : EReal) < deg col i := by
  rw [deg_eq_nat]
  exact_mod_cast Nat.succ_pos _

/-- The normalisation's factor is a positive real number. -/
theorem dinv_real (col : Fin 6400000 → BitVec 32) (i : Fin 200000) : ∃ r : ℝ, 0 < r ∧ dinv col i = (r : EReal) := by
  have hpos : (0 : ℝ) < (((into col i).card + 1 : ℕ) : ℝ) := by exact_mod_cast Nat.succ_pos _
  refine ⟨(Real.sqrt (((into col i).card + 1 : ℕ) : ℝ))⁻¹, inv_pos.mpr (Real.sqrt_pos.mpr hpos), ?_⟩
  unfold dinv
  rw [deg_eq_nat, Ideal.rsqrt_coe, if_neg (not_lt.mpr hpos.le), if_neg hpos.ne']

/-- THE REARRANGEMENT over the reals, for any finite set of edges `S` with sources `r`: distribute `d i` and `w` over the
    sum, then compare term by term. -/
theorem message_sum_real {ι κ : Type} (S : Finset ι) (r : ι → κ) (x d : κ → ℝ) (w : ℝ) (i : κ) :
    (∑ e ∈ S, (x (r e) * w) * (d (r e) * d i)) + (x i * w) * (d i * d i)
      = d i * ((∑ e ∈ S, x (r e) * d (r e)) + x i * d i) * w := by
  rw [mul_add, add_mul, Finset.mul_sum, Finset.sum_mul]
  exact congrArg₂ (· + ·) (Finset.sum_congr rfl fun e _ => by ring) (by ring)

/-- THE REARRANGEMENT on the extended reals, for finite node features and a finite weight: the messages
    `(x (r e) · w) · (dinv (r e) · dinv i)` summed over the edges into `i`, plus the self loop's, is `t i · w`. -/
theorem message_sum (x : Fin 200000 → EReal) (hx : ∀ i, x i ≠ ⊤ ∧ x i ≠ ⊥) (w : EReal) (hw : w ≠ ⊤ ∧ w ≠ ⊥)
    (row col : Fin 6400000 → BitVec 32) (i : Fin 200000) :
    (∑ e ∈ into col i, (x (node (row e)) * w) * (dinv col (node (row e)) * dinv col i))
        + (x i * w) * (dinv col i * dinv col i)
      = t x row col i * w := by
  classical
  obtain ⟨xr, rfl⟩ : ∃ xr : Fin 200000 → ℝ, x = fun i => (xr i : EReal) :=
    ⟨fun i => (x i).toReal, funext fun i => (EReal.coe_toReal (hx i).1 (hx i).2).symm⟩
  obtain ⟨wr, rfl⟩ : ∃ wr : ℝ, w = (wr : EReal) := ⟨w.toReal, (EReal.coe_toReal hw.1 hw.2).symm⟩
  obtain ⟨d, hd⟩ : ∃ d : Fin 200000 → ℝ, ∀ i, dinv col i = (d i : EReal) :=
    ⟨fun i => (dinv_real col i).choose, fun i => (dinv_real col i).choose_spec.2⟩
  unfold t agg s
  simp only [hd, ← EReal.coe_mul, ← coe_sum, ← EReal.coe_add]
  exact congrArg (fun v : ℝ => (v : EReal)) (message_sum_real (into col i) (fun e => node (row e)) xr d wr i)

end Cert.Spec

end
-- ==== Proof.RefDinv.lean ====
/-
  The reference's normalisation factor, read at a node.

  The reference appends the self loops to the edge list: its segment words are the first table's second row followed by
  `0, 1, …, 199999`, and its degree is the scatter-add of ones over that longer list, which splits into the edges' part
  and the loop's single one. The degree being positive, the guard `deg > 0` always selects `rsqrt deg`.
-/
import proofs.«424222_j14405320311021_3_alg».proof.Proof.RefRead
import proofs.«424222_j14405320311021_3_alg».proof.Proof.LibRows
import proofs.«424222_j14405320311021_3_alg».proof.Proof.SpecAlgebra
import Idealize.ShloMosaic.Lib.Pipeline.Value
import Idealize.ShloMosaic.Lib.ValueLayout
import Idealize.ShloMosaic.Lib.StableHlo.Predicate
import Idealize.ShloMosaic.PureOps.Ideal.Laws

noncomputable section

namespace Cert.ReferenceIdeal.RV

open Idealize.ShloMosaic Idealize.ShloMosaic.TcCoe Idealize.SL.Sem Idealize.ShloMosaic.ValueIdx
open Cert.ReferenceIdeal Cert.ReferenceIdeal.ReadP

/-- The table's second row as a vector (stage `main_v5`), read at a position. -/
theorem row1_read (eo : IVec S2x6400000 32) (e : Fin 6400000) :
    val_main_v5 (F := Ideal) eo (ix1 e) = eo (ix2 1 e) := by
  rw [val_main_v5_apply, val_main_v4_apply]
  congr 1
  funext a
  match a with
  | ⟨0, _⟩ => rfl
  | ⟨1, _⟩ =>
    apply Fin.ext
    show e.val % 6400000 = e.val
    exact Nat.mod_eq_of_lt e.isLt

/-- The table's first row as a vector (stage `main_v2`), read at a position. -/
theorem row0_read (eo : IVec S2x6400000 32) (e : Fin 6400000) :
    val_main_v2 (F := Ideal) eo (ix1 e) = eo (ix2 0 e) := by
  rw [val_main_v2_apply, val_main_v1_apply]
  congr 1
  funext a
  match a with
  | ⟨0, _⟩ => rfl
  | ⟨1, _⟩ =>
    apply Fin.ext
    show e.val % 6400000 = e.val
    exact Nat.mod_eq_of_lt e.isLt

/-- The reference's longer list of segment words (stage `main_v6`): an edge position reads the table's second row. -/
theorem segs_edge (eo : IVec S2x6400000 32) (e : Fin 6400000) :
    val_main_v6 (F := Ideal) eo (ix1 (Fin.castAdd 200000 e)) = eo (ix2 1 e) := by
  unfold val_main_v6
  exact (Cert.LibRows.concat_vec_left (a := 6400000) (b := 200000) _ (val_main_v5 (F := Ideal) eo)
    (val_main_v0 (F := Ideal)) e).trans (row1_read eo e)

/-- … and a loop position reads its own node's number. -/
theorem segs_loop (eo : IVec S2x6400000 32) (k : Fin 200000) :
    val_main_v6 (F := Ideal) eo (ix1 (Fin.natAdd 6400000 k)) = BitVec.ofNat 32 k.val := by
  unfold val_main_v6
  exact (Cert.LibRows.concat_vec_right (a := 6400000) (b := 200000) _ (val_main_v5 (F := Ideal) eo)
    (val_main_v0 (F := Ideal)) k).trans rfl

/-- The reference's longer list of source words (stage `main_v3`), likewise. -/
theorem srcs_edge (eo : IVec S2x6400000 32) (e : Fin 6400000) :
    val_main_v3 (F := Ideal) eo (ix1 (Fin.castAdd 200000 e)) = eo (ix2 0 e) := by
  unfold val_main_v3
  exact (Cert.LibRows.concat_vec_left (a := 6400000) (b := 200000) _ (val_main_v2 (F := Ideal) eo)
    (val_main_v0 (F := Ideal)) e).trans (row0_read eo e)

theorem srcs_loop (eo : IVec S2x6400000 32) (k : Fin 200000) :
    val_main_v3 (F := Ideal) eo (ix1 (Fin.natAdd 6400000 k)) = BitVec.ofNat 32 k.val := by
  unfold val_main_v3
  exact (Cert.LibRows.concat_vec_right (a := 6400000) (b := 200000) _ (val_main_v2 (F := Ideal) eo)
    (val_main_v0 (F := Ideal)) k).trans rfl

/-- Ones counted over the positions of an edge list followed by `0, 1, …, 199999` whose word, read signed, is `i`:
    the edges into `i`, and the one loop position `i`. -/
theorem count_split (seg : Fin (6400000 + 200000) → BitVec 32) (col : Fin 6400000 → BitVec 32)
    (hE : ∀ e : Fin 6400000, seg (Fin.castAdd 200000 e) = col e)
    (hL : ∀ k : Fin 200000, seg (Fin.natAdd 6400000 k) = BitVec.ofNat 32 k.val) (i : Fin 200000) :
    ∑ _e ∈ Finset.univ.filter (fun e : Fin (6400000 + 200000) => (seg e).toInt = (i.val : ℤ)), (1 : EReal)
      = (∑ _e ∈ Cert.Spec.into col i, (1 : EReal)) + 1 := by
  rw [Cert.Spec.sum_filter_add]
  have h1 : (Finset.univ.filter (fun e : Fin 6400000 => (seg (Fin.castAdd 200000 e)).toInt = (i.val : ℤ)))
      = Cert.Spec.into col i := by
    unfold Cert.Spec.into
    exact Finset.filter_congr (fun e _ => by rw [hE e])
  have h2 : (Finset.univ.filter (fun k : Fin 200000 => (seg (Fin.natAdd 6400000 k)).toInt = (i.val : ℤ)))
      = Finset.univ.filter (fun k : Fin 200000 => k = i) := by
    refine Finset.filter_congr (fun k _ => ?_)
    rw [hL k, Idealize.ShloMosaic.StableHlo.Predicate.toInt_ofNat_small k.val (by have := k.isLt; omega)]
    constructor
    · intro h; exact Fin.ext (by exact_mod_cast h)
    · intro h; rw [h]
  rw [h1, h2, Cert.Spec.sum_filter_iota]

/-- A scatter-add of ones into zeros by such a list of words is the specification's degree. -/
theorem deg_scatter (d : ScatterDims ⟨1, ![200000]⟩ ⟨2, ![6400000 + 200000, 1]⟩ ⟨1, ![6400000 + 200000]⟩)
    (huw : d.updateWindowDims = []) (hiw : d.insertedWindowDims = [0]) (hsd : d.scatterDimsToOperandDims = [0])
    (hivd : d.indexVectorDim = 1) (x : (⟨1, ![200000]⟩ : Shape).Idx → EReal)
    (idx : IVec ⟨2, ![6400000 + 200000, 1]⟩ 32) (upd : (⟨1, ![6400000 + 200000]⟩ : Shape).Idx → EReal)
    (col : Fin 6400000 → BitVec 32) (hx : ∀ i, x (ix1 i) = 0) (hupd : ∀ e, upd (ix1 e) = 1)
    (hE : ∀ e : Fin 6400000, idx (StableHlo.Predicate.ixP (Fin.castAdd 200000 e)) = col e)
    (hL : ∀ k : Fin 200000, idx (StableHlo.Predicate.ixP (Fin.natAdd 6400000 k)) = BitVec.ofNat 32 k.val)
    (i : Fin 200000) :
    Ideal.hostScatterAdd d x idx upd (ix1 i) = Cert.Spec.deg col i := by
  rw [Cert.LibRows.scatterAdd_vec d huw hiw hsd hivd, hx i, zero_add]
  unfold Cert.Spec.deg
  rw [← count_split (fun e => idx (StableHlo.Predicate.ixP e)) col hE hL i]
  exact Finset.sum_congr rfl (fun e _ => hupd e)

/-- The segment column (stage `main_v9`) at a row is the segment list at that position. -/
theorem segcol_read (eo : IVec S2x6400000 32) (e : Fin (6400000 + 200000)) :
    val_main_v9 (F := Ideal) eo (StableHlo.Predicate.ixP e) = val_main_v6 (F := Ideal) eo (ix1 e) := by
  rw [val_main_v9_apply]
  congr 1
  funext a
  match a with
  | ⟨0, _⟩ => rfl

/-- On the extended reals the host's scatter-add is the exact one. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

/-- The reference's degree (stage `main_v10`) is the specification's. -/
theorem deg_read (eo : IVec S2x6400000 32) (i : Fin 200000) :
    val_main_v10 (F := Ideal) eo (ix1 i) = Cert.Spec.deg (Cert.Spec.row1 eo) i := by
  unfold val_main_v10
  rw [scatterAdd_ideal]
  refine deg_scatter Cert.ReferenceIdeal.scatter_S200000_S6600000x1_S6600000_n_0_0_1 rfl rfl rfl rfl
    (val_main_v8 (F := Ideal)) (val_main_v9 (F := Ideal) eo) (val_main_v7 (F := Ideal)) (Cert.Spec.row1 eo) ?_ ?_ ?_ ?_ i
  · intro j
    rw [val_main_v8_apply, val_main_cst_0_apply, Ideal.ofBits_def, Ideal.ofBits_zero_f32]
  · intro e
    rw [val_main_v7_apply, val_main_cst_apply, Ideal.ofBits_def, Cert.Spec.ofBits_one]
  · intro e
    rw [segcol_read, segs_edge]
    rfl
  · intro k
    rw [segcol_read, segs_loop]

/-- A guard `g > 0` that holds selects the `rsqrt`. -/
theorem guarded_rsqrt (g z : Ideal .f32) (hg : (0 : EReal) < g) :
    Scalar.select (FloatOps.cmpf (F := Ideal) .ogt g (FloatOps.ofBits .f32 0x00000000#32))
      (FloatOps.hostUnary .rsqrt g) z = Ideal.rsqrt g := by
  rw [Ideal.ofBits_def, Ideal.ofBits_zero_f32, Ideal.cmpf_def, Ideal.hostUnary_rsqrt_def]
  have h : Ideal.cmp .ogt g 0 = 1#1 := by
    unfold Ideal.cmp
    simp [hg]
  rw [h, select_one]

/-- The reference's factor (stage `main_v15`, the guarded `rsqrt` of its degree) is the specification's. -/
theorem dinv_eq (eo : IVec S2x6400000 32) (i : Fin 200000) :
    val_main_v15 (F := Ideal) eo (ix1 i) = Cert.Spec.dinv (Cert.Spec.row1 eo) i := by
  rw [Cert.Spec.dinv, val_main_v15_apply, val_main_v12_apply, val_main_v13_apply, deg_read, val_main_v11_apply,
    val_main_cst_1_apply]
  exact guarded_rsqrt _ _ (Cert.Spec.deg_pos (Cert.Spec.row1 eo) i)

end Cert.ReferenceIdeal.RV

end
-- ==== Proof.RefHidden.lean ====
/-
  The reference's hidden features, read at a node and a column.

  Per entry of the longer edge list the reference forms the message `xw[src, j] · (dinv[src] · dinv[seg])` with
  `xw[r, j] = x r · W j`, scatter-adds the messages over the segment words, adds the bias and rectifies. An entry that
  lands on node `i` has segment word `i`, so its second factor is `dinv i`; the loop's entry for `i` has source `i` too.
  Split into the edges' part and the loop's entry, the sum is the rearrangement's left side.
-/
import proofs.«424222_j14405320311021_3_alg».proof.Proof.RefDinv

noncomputable section

namespace Cert.ReferenceIdeal.RV

open Idealize.ShloMosaic Idealize.ShloMosaic.TcCoe Idealize.SL.Sem Idealize.ShloMosaic.ValueIdx
open Cert.ReferenceIdeal Cert.ReferenceIdeal.ReadP
open Idealize.ShloMosaic.StableHlo.Predicate

namespace HiddenRead

/-! ## Words -/

/-- A word that reads nonnegative is not below zero, so the wrap `w < 0 ? w + 200000 : w` leaves it alone. -/
theorem wrap_nonneg (w : BitVec 32) (h : 0 ≤ w.toInt) :
    Scalar.select (IntOp.cmpi .slt w 0#32) (IntOp.addi w 200000#32) w = w := by
  have hc : IntOp.cmpi .slt w 0#32 = 0#1 := by
    unfold IntOp.cmpi
    have hs : w.slt 0#32 = false := by
      unfold BitVec.slt
      rw [decide_eq_false_iff_not, BitVec.toInt_zero]
      omega
    simp only [hs]
    rfl
  rw [hc]
  exact select_zero _ _

/-- A node's number as a 32-bit word reads, signed, the number. -/
theorem toInt_ofNat_node (k : Fin 200000) : (BitVec.ofNat 32 k.val).toInt = (k.val : ℤ) := by
  have hk := k.isLt
  rw [BitVec.toInt_eq_toNat_cond, BitVec.toNat_ofNat]
  have hm : k.val % 2 ^ 32 = k.val := Nat.mod_eq_of_lt (by omega)
  rw [hm, if_pos (by omega)]

/-- The rank-1 index at a coordinate, in its two spellings. -/
theorem ofFin_eq_ix1 {n : Nat} (p : Fin n) : Shape.Idx.ofFin p = ix1 p := by
  funext a
  match a with
  | ⟨0, _⟩ => rfl

/-! ## The reference's columns of start words, at a position -/

/-- The wrapped source words as a column (stage `main_v37`), at position `p`. -/
theorem v37_at (eo : IVec S2x6400000 32) (p : Fin 6600000) :
    val_main_v37 (F := Ideal) eo (ixP p)
      = Scalar.select (IntOp.cmpi .slt (val_main_v3 (F := Ideal) eo (ix1 p)) 0#32)
          (IntOp.addi (val_main_v3 (F := Ideal) eo (ix1 p)) 200000#32) (val_main_v3 (F := Ideal) eo (ix1 p)) := by
  have hi : idx_main_v37 (ixP p) = ix1 p := by
    funext a
    match a with
    | ⟨0, _⟩ => rfl
  rw [val_main_v37_apply, hi, val_main_v36_apply, val_main_v33_apply, val_main_v35_apply, val_main_v32_apply,
    val_main_v34_apply, val_main_c_6_apply, val_main_c_7_apply]

/-- The same wrapped source words, the column the factor is gathered at (stage `main_v21`). -/
theorem v21_at (eo : IVec S2x6400000 32) (p : Fin 6600000) :
    val_main_v21 (F := Ideal) eo (ixP p)
      = Scalar.select (IntOp.cmpi .slt (val_main_v3 (F := Ideal) eo (ix1 p)) 0#32)
          (IntOp.addi (val_main_v3 (F := Ideal) eo (ix1 p)) 200000#32) (val_main_v3 (F := Ideal) eo (ix1 p)) := by
  have hi : idx_main_v21 (ixP p) = ix1 p := by
    funext a
    match a with
    | ⟨0, _⟩ => rfl
  rw [val_main_v21_apply, hi, val_main_v20_apply, val_main_v17_apply, val_main_v19_apply, val_main_v16_apply,
    val_main_v18_apply, val_main_c_apply, val_main_c_3_apply]

/-- The wrapped segment words as a column (stage `main_v28`). -/
theorem v28_at (eo : IVec S2x6400000 32) (p : Fin 6600000) :
    val_main_v28 (F := Ideal) eo (ixP p)
      = Scalar.select (IntOp.cmpi .slt (val_main_v6 (F := Ideal) eo (ix1 p)) 0#32)
          (IntOp.addi (val_main_v6 (F := Ideal) eo (ix1 p)) 200000#32) (val_main_v6 (F := Ideal) eo (ix1 p)) := by
  have hi : idx_main_v28 (ixP p) = ix1 p := by
    funext a
    match a with
    | ⟨0, _⟩ => rfl
  rw [val_main_v28_apply, hi, val_main_v27_apply, val_main_v24_apply, val_main_v26_apply, val_main_v23_apply,
    val_main_v25_apply, val_main_c_4_apply, val_main_c_5_apply]

/-- The segment words themselves as a column (stage `main_v43`), the scatter's index column. -/
theorem v43_at (eo : IVec S2x6400000 32) (p : Fin 6600000) :
    val_main_v43 (F := Ideal) eo (ixP p) = val_main_v6 (F := Ideal) eo (ix1 p) := by
  have hi : idx_main_v43 (ixP p) = ix1 p := by
    funext a
    match a with
    | ⟨0, _⟩ => rfl
  rw [val_main_v43_apply, hi]

/-! ## The gathers and the product `x @ W`, at a position -/

/-- An entry of `x @ W` (stage `main_v31`): the contraction has one term. -/
theorem v31_at (X : Vec Ideal S200000x1 .f32) (Wa : Vec Ideal S1x5 .f32) (r : Fin 200000) (q : Fin 5) :
    val_main_v31 (F := Ideal) X Wa (ix2 r q) = X (ix2 r 0) * Wa (ix2 0 q) := by
  have hl : lidx_main_v31 (ix2 r q) 0 = ix2 r 0 := by
    funext a
    match a with
    | ⟨0, _⟩ => rfl
    | ⟨1, _⟩ => rfl
  have hr : ridx_main_v31 (ix2 r q) 0 = ix2 0 q := by
    funext a
    match a with
    | ⟨0, _⟩ => rfl
    | ⟨1, _⟩ => rfl
  rw [val_main_v31_apply, Fin.sum_univ_one, hl, hr]

/-- A gathered row of `x @ W` (stage `main_v38`) is the row the wrapped source word names. -/
theorem v38_at (X : Vec Ideal S200000x1 .f32) (eo : IVec S2x6400000 32) (Wa : Vec Ideal S1x5 .f32)
    (p : Fin 6600000) (q : Fin 5) :
    val_main_v38 (F := Ideal) X eo Wa (ix2 p q)
      = val_main_v31 (F := Ideal) X Wa (ix2 (Cert.Spec.node (val_main_v37 (F := Ideal) eo (ixP p))) q) := by
  unfold val_main_v38
  exact Cert.LibRows.gather_rows gather_S200000x5_S6600000x1_S6600000x5_1_0_n_n_0_1_15 rfl rfl rfl rfl rfl rfl
    (val_main_v31 (F := Ideal) X Wa) (val_main_v37 (F := Ideal) eo) p q (by norm_num)

/-- The factor gathered at the wrapped source word (stage `main_v22`). -/
theorem v22_at (eo : IVec S2x6400000 32) (p : Fin 6600000) :
    val_main_v22 (F := Ideal) eo (ix1 p)
      = val_main_v15 (F := Ideal) eo (ix1 (Cert.Spec.node (val_main_v21 (F := Ideal) eo (ixP p)))) := by
  have h := gather_take gather_S200000_S6600000x1_S6600000_n_0_n_n_0_1_1 rfl rfl rfl rfl
    (val_main_v15 (F := Ideal) eo) (val_main_v21 (F := Ideal) eo) p (by norm_num)
  rw [ofFin_eq_ix1, ofFin_eq_ix1] at h
  exact h

/-- The factor gathered at the wrapped segment word (stage `main_v29`). -/
theorem v29_at (eo : IVec S2x6400000 32) (p : Fin 6600000) :
    val_main_v29 (F := Ideal) eo (ix1 p)
      = val_main_v15 (F := Ideal) eo (ix1 (Cert.Spec.node (val_main_v28 (F := Ideal) eo (ixP p)))) := by
  have h := gather_take gather_S200000_S6600000x1_S6600000_n_0_n_n_0_1_1 rfl rfl rfl rfl
    (val_main_v15 (F := Ideal) eo) (val_main_v28 (F := Ideal) eo) p (by norm_num)
  rw [ofFin_eq_ix1, ofFin_eq_ix1] at h
  exact h

/-! ## A message, at a position of the longer list -/

/-- The message at position `p` of the longer list, column `q`, when its source word and its segment word both read
    nonnegative: the row of `x @ W` the source names times the two factors. -/
theorem msg_at (X : Vec Ideal S200000x1 .f32) (eo : IVec S2x6400000 32) (Wa : Vec Ideal S1x5 .f32)
    (p : Fin 6600000) (q : Fin 5)
    (hs : 0 ≤ (val_main_v3 (F := Ideal) eo (ix1 p)).toInt) (hg : 0 ≤ (val_main_v6 (F := Ideal) eo (ix1 p)).toInt) :
    val_main_v41 (F := Ideal) X eo Wa (ix2 p q)
      = (X (ix2 (Cert.Spec.node (val_main_v3 (F := Ideal) eo (ix1 p))) 0) * Wa (ix2 0 q))
        * (Cert.Spec.dinv (Cert.Spec.row1 eo) (Cert.Spec.node (val_main_v3 (F := Ideal) eo (ix1 p)))
          * Cert.Spec.dinv (Cert.Spec.row1 eo) (Cert.Spec.node (val_main_v6 (F := Ideal) eo (ix1 p)))) := by
  have hi40 : idx_main_v40 (ix2 p q) = ixP p := by
    funext a
    match a with
    | ⟨0, _⟩ => rfl
    | ⟨1, _⟩ => rfl
  have hi39 : idx_main_v39 (ixP p) = ix1 p := by
    funext a
    match a with
    | ⟨0, _⟩ => rfl
  rw [val_main_v41_apply, val_main_v40_apply, hi40, val_main_v39_apply, hi39, val_main_v30_apply, v38_at, v31_at,
    v22_at, v29_at, dinv_eq, dinv_eq, v37_at, v21_at, v28_at, wrap_nonneg _ hs, wrap_nonneg _ hg,
    Ideal.mulf_def, Ideal.mulf_def]

/-! ## The scatter-add of the messages, over abstract arrays -/

/-- A word that reads a node's number names that node. -/
theorem node_of_toInt (w : BitVec 32) (i : Fin 200000) (h : w.toInt = (i.val : ℤ)) : Cert.Spec.node w = i := by
  have hlt : (i.val : ℤ) < 200000 := by exact_mod_cast i.isLt
  have hv := Cert.Spec.node_val (w := w) (by rw [h]; exact Int.natCast_nonneg _) (by rw [h]; exact hlt)
  rw [h] at hv
  exact Fin.ext (by exact_mod_cast hv)

/-- THE SUM OF THE MESSAGES. A row scatter-add into zeros by a list of words that is an edge list's segment words
    followed by `0, 1, …, 199999`, of updates that are, at the edge positions landing on `i`, the rearrangement's
    summands and, at the loop position `i`, its self-loop term, is `t i · w` at node `i`. -/
theorem hidden_scatter
    (d : ScatterDims ⟨2, ![200000, 5]⟩ ⟨2, ![6400000 + 200000, 1]⟩ ⟨2, ![6400000 + 200000, 5]⟩)
    (huw : d.updateWindowDims = [1]) (hiw : d.insertedWindowDims = [0]) (hsd : d.scatterDimsToOperandDims = [0])
    (hivd : d.indexVectorDim = 1)
    (x : (⟨2, ![200000, 5]⟩ : Shape).Idx → EReal) (idx : IVec ⟨2, ![6400000 + 200000, 1]⟩ 32)
    (upd : (⟨2, ![6400000 + 200000, 5]⟩ : Shape).Idx → EReal)
    (xs : Fin 200000 → EReal) (hxs : ∀ r, xs r ≠ ⊤ ∧ xs r ≠ ⊥) (w : EReal) (hw : w ≠ ⊤ ∧ w ≠ ⊥)
    (row col : Fin 6400000 → BitVec 32) (i : Fin 200000) (j : Fin 5)
    (hx : x (ix2 i j) = 0)
    (hE : ∀ e : Fin 6400000, idx (ixP (Fin.castAdd 200000 e)) = col e)
    (hL : ∀ k : Fin 200000, idx (ixP (Fin.natAdd 6400000 k)) = BitVec.ofNat 32 k.val)
    (hmE : ∀ e : Fin 6400000, (col e).toInt = (i.val : ℤ) →
      upd (ix2 (Fin.castAdd 200000 e) j)
        = (xs (Cert.Spec.node (row e)) * w) * (Cert.Spec.dinv col (Cert.Spec.node (row e)) * Cert.Spec.dinv col i))
    (hmL : upd (ix2 (Fin.natAdd 6400000 i) j) = (xs i * w) * (Cert.Spec.dinv col i * Cert.Spec.dinv col i)) :
    Ideal.hostScatterAdd d x idx upd (ix2 i j) = Cert.Spec.t xs row col i * w := by
  rw [Cert.LibRows.scatterAdd_rows d huw hiw hsd hivd, hx, zero_add, Cert.Spec.sum_filter_add]
  have h1 : (Finset.univ.filter (fun e : Fin 6400000 => (idx (ixP (Fin.castAdd 200000 e))).toInt = (i.val : ℤ)))
      = Cert.Spec.into col i := by
    unfold Cert.Spec.into
    exact Finset.filter_congr (fun e _ => by rw [hE e])
  have h2 : (Finset.univ.filter (fun k : Fin 200000 => (idx (ixP (Fin.natAdd 6400000 k))).toInt = (i.val : ℤ)))
      = Finset.univ.filter (fun k : Fin 200000 => k = i) := by
    refine Finset.filter_congr (fun k _ => ?_)
    rw [hL k, toInt_ofNat_node]
    constructor
    · intro h
      exact Fin.ext (by exact_mod_cast h)
    · intro h
      rw [h]
  have h3 : ∑ e ∈ Cert.Spec.into col i, upd (ix2 (Fin.castAdd 200000 e) j)
      = ∑ e ∈ Cert.Spec.into col i,
          (xs (Cert.Spec.node (row e)) * w) * (Cert.Spec.dinv col (Cert.Spec.node (row e)) * Cert.Spec.dinv col i) :=
    Finset.sum_congr rfl (fun e he => hmE e (Finset.mem_filter.1 he).2)
  rw [h1, h2, Cert.Spec.sum_filter_iota, hmL, h3]
  exact Cert.Spec.message_sum xs hxs w hw row col i

/-! ## The reference's scatter-add, bias and rectification -/

/-- The accumulator the messages are added into (stage `main_v42`) is zero. -/
theorem v42_zero (y : S200000x5.Idx) : val_main_v42 (F := Ideal) y = 0 := by
  rw [val_main_v42_apply, val_main_cst_8_apply, Ideal.ofBits_def, Ideal.ofBits_zero_f32]

/-- The specification's node features and first edge row, unfolded one step. -/
theorem spec_xOf (X : Vec Ideal S200000x1 .f32) (r : Fin 200000) : Cert.Spec.xOf X r = X (ix2 r 0) := rfl
theorem spec_row0 (eo : IVec S2x6400000 32) (e : Fin 6400000) : Cert.Spec.row0 eo e = eo (ix2 0 e) := rfl

/-- The scatter-add of the messages (stage `main_v44`) at node `i`, column `j`, is `t i · W j`. -/
theorem v44_read (X : Vec Ideal S200000x1 .f32) (eo : IVec S2x6400000 32) (Wa : Vec Ideal S1x5 .f32)
    (hX : ∀ i, X i ≠ ⊤ ∧ X i ≠ ⊥) (hW : ∀ i, Wa i ≠ ⊤ ∧ Wa i ≠ ⊥)
    (hrow : ∀ e : Fin 6400000, 0 ≤ (eo (ix2 0 e)).toInt) (i : Fin 200000) (j : Fin 5) :
    val_main_v44 (F := Ideal) X eo Wa (ix2 i j)
      = Cert.Spec.t (Cert.Spec.xOf X) (Cert.Spec.row0 eo) (Cert.Spec.row1 eo) i * Wa (ix2 0 j) := by
  have hw : (BitVec.ofNat 32 i.val).toInt = (i.val : ℤ) := toInt_ofNat_node i
  unfold val_main_v44
  rw [scatterAdd_ideal]
  refine hidden_scatter Cert.ReferenceIdeal.scatter_S200000x5_S6600000x1_S6600000x5_1_0_0_1 rfl rfl rfl rfl
    (val_main_v42 (F := Ideal)) (val_main_v43 (F := Ideal) eo) (val_main_v41 (F := Ideal) X eo Wa)
    (Cert.Spec.xOf X) (fun r => hX _) (Wa (ix2 0 j)) (hW _) (Cert.Spec.row0 eo) (Cert.Spec.row1 eo) i j
    (v42_zero _) ?_ ?_ ?_ ?_
  · intro e
    rw [v43_at, segs_edge]
    rfl
  · intro k
    rw [v43_at, segs_loop]
  · intro e hi
    have hi' : (eo (ix2 1 e)).toInt = (i.val : ℤ) := hi
    have hs : 0 ≤ (val_main_v3 (F := Ideal) eo (ix1 (Fin.castAdd 200000 e))).toInt := by
      rw [srcs_edge]; exact hrow e
    have hg : 0 ≤ (val_main_v6 (F := Ideal) eo (ix1 (Fin.castAdd 200000 e))).toInt := by
      rw [segs_edge, hi']; exact Int.natCast_nonneg _
    rw [msg_at X eo Wa _ j hs hg, srcs_edge, segs_edge, node_of_toInt _ i hi', spec_xOf, spec_row0]
  · have hs : 0 ≤ (val_main_v3 (F := Ideal) eo (ix1 (Fin.natAdd 6400000 i))).toInt := by
      rw [srcs_loop, hw]; exact Int.natCast_nonneg _
    have hg : 0 ≤ (val_main_v6 (F := Ideal) eo (ix1 (Fin.natAdd 6400000 i))).toInt := by
      rw [segs_loop, hw]; exact Int.natCast_nonneg _
    rw [msg_at X eo Wa _ j hs hg, srcs_loop, segs_loop, node_of_toInt _ i hw, spec_xOf]

/-- The bias row laid under every node (stage `main_v46`). -/
theorem v46_at (ba : Vec Ideal S5 .f32) (i : Fin 200000) (j : Fin 5) :
    val_main_v46 (F := Ideal) ba (ix2 i j) = ba (ix1 j) := by
  have hi : idx_main_v45 (idx_main_v46 (ix2 i j)) = ix1 j := by
    funext a
    match a with
    | ⟨0, _⟩ => rfl
  rw [val_main_v46_apply, val_main_v45_apply, hi]

/-- The reference's select between a value and the slope word times it, on `value ≥ 0`, is the specification's leaky
    rectification. -/
theorem leaky_read (v : Ideal .f32) :
    Scalar.select (FloatOps.cmpf (F := Ideal) .oge v (FloatOps.ofBits .f32 0x00000000#32)) v
        (FloatOps.mulf (FloatOps.ofBits (F := Ideal) .f32 0x3C23D70A#32) v)
      = Cert.Spec.leaky v := by
  rw [Ideal.ofBits_def, Ideal.ofBits_def, Ideal.ofBits_zero_f32, Ideal.cmpf_def, Ideal.mulf_def]
  rfl

/-- The rectified stage `main_v52` is the leaky rectification of stage `main_v47`. -/
theorem v52_leaky (X : Vec Ideal S200000x1 .f32) (eo : IVec S2x6400000 32) (Wa : Vec Ideal S1x5 .f32) (ba : Vec Ideal S5 .f32)
    (y : S200000x5.Idx) :
    val_main_v52 (F := Ideal) X eo Wa ba y = Cert.Spec.leaky (val_main_v47 (F := Ideal) X eo Wa ba y) := by
  rw [val_main_v52_apply, val_main_v49_apply, val_main_v51_apply, val_main_v48_apply, val_main_v50_apply,
    val_main_cst_9_apply, val_main_cst_10_apply]
  exact leaky_read _

/-- The specification's hidden feature, unfolded to the arrays. -/
theorem hOf_read (X : Vec Ideal S200000x1 .f32) (eo : IVec S2x6400000 32) (Wa : Vec Ideal S1x5 .f32) (ba : Vec Ideal S5 .f32)
    (i : Fin 200000) (j : Fin 5) :
    Cert.Spec.hOf X eo Wa ba i j
      = Cert.Spec.leaky (Cert.Spec.t (Cert.Spec.xOf X) (Cert.Spec.row0 eo) (Cert.Spec.row1 eo) i * Wa (ix2 0 j)
          + ba (ix1 j)) := by
  have h1 : Cert.Spec.hOf X eo Wa ba i j
      = Cert.Spec.hN (Cert.Spec.tOf X eo) (Cert.Spec.wOf Wa) (Cert.Spec.bOf ba) i j := rfl
  have h2 : ∀ (T : Fin 200000 → EReal) (W b : Fin 5 → EReal),
      Cert.Spec.hN T W b i j = Cert.Spec.leaky (T i * W j + b j) := fun _ _ _ => rfl
  have h3 : Cert.Spec.tOf X eo = Cert.Spec.t (Cert.Spec.xOf X) (Cert.Spec.row0 eo) (Cert.Spec.row1 eo) := rfl
  have h4 : Cert.Spec.wOf Wa j = Wa (ix2 0 j) := rfl
  have h5 : Cert.Spec.bOf ba j = ba (ix1 j) := rfl
  rw [h1, h2, h3, h4, h5]

end HiddenRead

open HiddenRead

/-- The reference's rectified features (stage `main_v52`) are the specification's, for finite node features and a finite
    weight row, where every source word names a node. -/
theorem hidden_eq (X : Vec Ideal S200000x1 .f32) (eo : IVec S2x6400000 32) (Wa : Vec Ideal S1x5 .f32) (ba : Vec Ideal S5 .f32)
    (hX : ∀ i, X i ≠ ⊤ ∧ X i ≠ ⊥) (hW : ∀ i, Wa i ≠ ⊤ ∧ Wa i ≠ ⊥)
    (hrow : ∀ e : Fin 6400000, 0 ≤ (eo (ix2 0 e)).toInt ∧ (eo (ix2 0 e)).toInt < 200000)
    (i : Fin 200000) (j : Fin 5) :
    val_main_v52 (F := Ideal) X eo Wa ba (ix2 i j) = Cert.Spec.hOf X eo Wa ba i j := by
  rw [v52_leaky, val_main_v47_apply, v46_at, v44_read X eo Wa hX hW (fun e => (hrow e).1) i j, Ideal.addf_def,
    hOf_read]

end Cert.ReferenceIdeal.RV

end
-- ==== Proof.RefOut.lean ====
/-
  The reference's result, read at an edge and a column.

  It gathers the hidden rows at the second edge table's two rows, lays the second row's five features before the first
  row's five, multiplies by the 10 × 2 weight and adds the bias. The ten-term product is the sum of the two five-term
  products with the weight's two halves, and the bias moves next to the first.
-/
import proofs.«424222_j14405320311021_3_alg».proof.Proof.RefHidden

noncomputable section

namespace Cert.ReferenceIdeal.RV

open Idealize.ShloMosaic Idealize.ShloMosaic.TcCoe Idealize.SL.Sem Idealize.ShloMosaic.ValueIdx
open Idealize.ShloMosaic.StableHlo.Predicate
open Cert.ReferenceIdeal Cert.ReferenceIdeal.ReadP

namespace OutRead

/-- A word that is not negative, read signed, passes the wrap `select (w < 0) a w` unchanged. -/
theorem wrap_keep (w a : BitVec 32) (h0 : 0 ≤ w.toInt) :
    Scalar.select (IntOp.cmpi .slt w 0#32) a w = w := by
  have hlt : w.slt 0#32 = false := by
    simp only [BitVec.slt, BitVec.toInt_zero, decide_eq_false_iff_not, Int.not_lt]
    exact h0
  show (if BitVec.ofBool (w.slt 0#32) = 1 then _ else _) = _
  rw [hlt]
  rfl

/-- The start word of the first gather for edge `e` is the first-row word of the second edge table. -/
theorem start0 (ei : IVec S2x6400000 32) (h : ∀ j, 0 ≤ (ei j).toInt ∧ (ei j).toInt < 200000) (e : Fin 6400000) :
    val_main_v60 (F := Ideal) ei (ixP e) = ei (ix2 0 e) := by
  rw [val_main_v60_apply, val_main_v59_apply, val_main_v56_apply, val_main_v55_apply, val_main_c_11_apply,
    val_main_v54_apply, val_main_v53_apply]
  have hi : idx_main_v53 (idx_main_v54 (idx_main_v60 (ixP e))) = ix2 0 e := by
    funext a
    match a with
    | ⟨0, _⟩ => rfl
    | ⟨1, _⟩ =>
      apply Fin.ext
      have := e.isLt
      show e.val % 6400000 = e.val
      omega
  rw [hi]
  exact wrap_keep _ _ (h _).1

/-- The start word of the second gather for edge `e` is the second-row word of the second edge table. -/
theorem start1 (ei : IVec S2x6400000 32) (h : ∀ j, 0 ≤ (ei j).toInt ∧ (ei j).toInt < 200000) (e : Fin 6400000) :
    val_main_v69 (F := Ideal) ei (ixP e) = ei (ix2 1 e) := by
  rw [val_main_v69_apply, val_main_v68_apply, val_main_v65_apply, val_main_v64_apply, val_main_c_13_apply,
    val_main_v63_apply, val_main_v62_apply]
  have hi : idx_main_v62 (idx_main_v63 (idx_main_v69 (ixP e))) = ix2 1 e := by
    funext a
    match a with
    | ⟨0, _⟩ => rfl
    | ⟨1, _⟩ =>
      apply Fin.ext
      have := e.isLt
      show e.val % 6400000 = e.val
      omega
  rw [hi]
  exact wrap_keep _ _ (h _).1

/-- Row `e`, column `k` of the block gathered at the first-row words is the hidden feature of the node that word names. -/
theorem gath0 (X : Vec Ideal S200000x1 .f32) (ei eo : IVec S2x6400000 32) (Wa : Vec Ideal S1x5 .f32) (ba : Vec Ideal S5 .f32)
    (hg : Cert.Spec.Good X ei eo Wa) (e : Fin 6400000) (k : Fin 5) :
    val_main_v61 (F := Ideal) X ei eo Wa ba (ix2 e k)
      = Cert.Spec.hOf X eo Wa ba (Cert.Spec.node (Cert.Spec.row0 ei e)) k := by
  unfold val_main_v61
  rw [Cert.LibRows.gather_rows (N := 200000) (M := 5) (n := 6400000) gather_S200000x5_S6400000x1_S6400000x5_1_0_n_n_0_1_15
    rfl rfl rfl rfl rfl rfl _ _ e k (by omega), hidden_eq X eo Wa ba hg.X_fin hg.W_fin hg.row_rng]
  congr 1
  apply Fin.ext
  show min (val_main_v60 (F := Ideal) ei (ixP e)).toInt.toNat (200000 - 1) = min (ei (ix2 0 e)).toInt.toNat 199999
  rw [start0 ei hg.ei_rng e]

/-- Row `e`, column `k` of the block gathered at the second-row words is the hidden feature of the node that word names. -/
theorem gath1 (X : Vec Ideal S200000x1 .f32) (ei eo : IVec S2x6400000 32) (Wa : Vec Ideal S1x5 .f32) (ba : Vec Ideal S5 .f32)
    (hg : Cert.Spec.Good X ei eo Wa) (e : Fin 6400000) (k : Fin 5) :
    val_main_v70 (F := Ideal) X ei eo Wa ba (ix2 e k)
      = Cert.Spec.hOf X eo Wa ba (Cert.Spec.node (Cert.Spec.row1 ei e)) k := by
  unfold val_main_v70
  rw [Cert.LibRows.gather_rows (N := 200000) (M := 5) (n := 6400000) gather_S200000x5_S6400000x1_S6400000x5_1_0_n_n_0_1_15
    rfl rfl rfl rfl rfl rfl _ _ e k (by omega), hidden_eq X eo Wa ba hg.X_fin hg.W_fin hg.row_rng]
  congr 1
  apply Fin.ext
  show min (val_main_v69 (F := Ideal) ei (ixP e)).toInt.toNat (200000 - 1) = min (ei (ix2 1 e)).toInt.toNat 199999
  rw [start1 ei hg.ei_rng e]

/-- The joined block at a column among the first five reads the block gathered at the second-row words there. -/
theorem cat_lo (X : Vec Ideal S200000x1 .f32) (ei eo : IVec S2x6400000 32) (Wa : Vec Ideal S1x5 .f32) (ba : Vec Ideal S5 .f32)
    (e : Fin 6400000) (k : Fin 5) :
    val_main_v71 (F := Ideal) X ei eo Wa ba (ix2 e (Fin.castAdd 5 k)) = val_main_v70 (F := Ideal) X ei eo Wa ba (ix2 e k) := by
  unfold val_main_v71
  exact concatenate_pair_apply_left (t := S6400000x10) (s₁ := S6400000x5) (s₂ := S6400000x5) (1 : Fin 2) _ _
    Cert.ReferenceIdeal.Gen.concatenates_S6400000x5_S6400000x5_S6400000x10_d1 _ rfl _ (fun b => by
      match b with
      | ⟨0, _⟩ => rfl
      | ⟨1, _⟩ => rfl)

/-- The joined block at a column among the last five reads the block gathered at the first-row words, five columns back. -/
theorem cat_hi (X : Vec Ideal S200000x1 .f32) (ei eo : IVec S2x6400000 32) (Wa : Vec Ideal S1x5 .f32) (ba : Vec Ideal S5 .f32)
    (e : Fin 6400000) (k : Fin 5) :
    val_main_v71 (F := Ideal) X ei eo Wa ba (ix2 e (Fin.natAdd 5 k)) = val_main_v61 (F := Ideal) X ei eo Wa ba (ix2 e k) := by
  unfold val_main_v71
  exact concatenate_pair_apply_right (t := S6400000x10) (s₁ := S6400000x5) (s₂ := S6400000x5) (1 : Fin 2) _ _
    Cert.ReferenceIdeal.Gen.concatenates_S6400000x5_S6400000x5_S6400000x10_d1 _ rfl rfl _
    (fun b hb => by
      match b with
      | ⟨0, _⟩ => rfl
      | ⟨1, _⟩ => exact absurd rfl hb)
    (by show k.val + 5 = 5 + k.val; omega)

/-- A ten-term sum is the sum of its first five and its last five terms. -/
theorem sum_ten (f : Fin 10 → EReal) :
    ∑ k : Fin 10, f k = (∑ k : Fin 5, f (Fin.castAdd 5 k)) + ∑ k : Fin 5, f (Fin.natAdd 5 k) :=
  Fin.sum_univ_add (a := 5) (b := 5) f

/-- The product's left operand is read at row `e`, column `k`. -/
theorem lidx_eq (e : Fin 6400000) (c' : Fin 2) (k : Fin 10) : lidx_main_v72 (ix2 e c') k = ix2 e k := by
  funext a
  match a with
  | ⟨0, _⟩ => rfl
  | ⟨1, _⟩ => rfl

/-- The product's right operand is read at row `k`, column `c'`. -/
theorem ridx_eq (e : Fin 6400000) (c' : Fin 2) (k : Fin 10) : ridx_main_v72 (ix2 e c') k = ix2 k c' := by
  funext a
  match a with
  | ⟨0, _⟩ => rfl
  | ⟨1, _⟩ => rfl

/-- The broadcast bias is read at column `c'`. -/
theorem bidx_eq (e : Fin 6400000) (c' : Fin 2) : idx_main_v73 (idx_main_v74 (ix2 e c')) = ix1 c' := by
  funext a
  match a with
  | ⟨0, _⟩ => rfl

end OutRead

/-- The reference's result (stage `main_v75`) is the specification's, under what the proof uses of the precondition. -/
theorem out_eq (X : Vec Ideal S200000x1 .f32) (ei eo : IVec S2x6400000 32) (Wa : Vec Ideal S1x5 .f32) (ba : Vec Ideal S5 .f32)
    (W2a : Vec Ideal S10x2 .f32) (b2a : Vec Ideal S2 .f32) (hg : Cert.Spec.Good X ei eo Wa)
    (e : Fin 6400000) (c' : Fin 2) :
    val_main_v75 (F := Ideal) X ei eo Wa ba W2a b2a (ix2 e c') = Cert.Spec.out X ei eo Wa ba W2a b2a e c' := by
  rw [val_main_v75_apply, val_main_v74_apply, val_main_v73_apply, val_main_v72_apply, OutRead.bidx_eq, OutRead.sum_ten]
  simp only [OutRead.lidx_eq, OutRead.ridx_eq, OutRead.cat_lo, OutRead.cat_hi, OutRead.gath0 X ei eo Wa ba hg,
    OutRead.gath1 X ei eo Wa ba hg, Ideal.addf_def]
  rw [add_right_comm]
  rfl

end Cert.ReferenceIdeal.RV

end
-- ==== Proof.RefValue.lean ====
/-
  The reference's run with its result named: the operations' composed term is the last stage, and the last stage, read
  at every edge and column, is the specification's array.
-/
import proofs.«424222_j14405320311021_3_alg».proof.Proof.RefOut

noncomputable section

namespace Cert.ReferenceIdeal.RV

open Idealize.ShloMosaic Idealize.ShloMosaic.TcCoe Idealize.SL.Sem Idealize.ShloMosaic.ValueIdx
open Cert.ReferenceIdeal Cert.ReferenceIdeal.ReadP

/-- The run: the result at the specification's array of the launched arguments, every argument array as launched. -/
theorem run (m : (ℓ : Loc nD τ sig) → Buf (Elt Ideal) ℓ) (ρ : Dev nD → PrngReg)
    (hg : ∀ c : Dev nD, Cert.Spec.Good (m ((c.tc : Thread nD τ).loc main_arg0)) (m ((c.tc : Thread nD τ).loc main_arg1))
      (m ((c.tc : Thread nD τ).loc main_arg2)) (m ((c.tc : Thread nD τ).loc main_arg3))) :
    θ_run defs (onTc (τ := τ) (main (F := Ideal))) ⟨m, fun _ => 0, ρ⟩ (fun r => ∀ c : Dev nD,
      r.2.mem ((c.tc : Thread nD τ).loc main_v75)
        = Cert.Spec.outArr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c).1.trans ((val_main_v75_eq (F := Ideal) m c).trans (funext fun j => by
        obtain ⟨e, c', rfl⟩ : ∃ (e : Fin 6400000) (c' : Fin 2), j = ix2 e c' := ⟨j 0, j 1, eq_ix2 j⟩
        exact out_eq _ _ _ _ _ _ _ (hg c) e c')),
      (h c).2⟩)
    (Cert.ReferenceIdeal.ValueP.run (F := Ideal) m ρ)

end Cert.ReferenceIdeal.RV

end
-- ==== Proof.lean ====
/-
  `Cert.Claim` for the graph-convolution kernel against its reference, on the extended reals.

  The kernel folds the symmetric normalisation onto the one-feature node column before fanning out to five columns:
  with `deg i` the number of edges whose segment word is `i` plus one, `dinv = deg ^ (-1/2)` and `s = x · dinv`, it forms
  `t i = dinv i · (∑ over the edges into i of s (source) + s i)` by a width-one gather and scatter-add, then in the
  pallas_call `h = leaky (t · W + b)` and the two 5 × 2 projections `p = h · W2[0:5] + b2`, `q = h · W2[5:10]`, and
  returns `p[dst] + q[src]` per edge. The reference appends the self loops to the edge list, scatter-adds the width-five
  messages `(x · W)[source] · (dinv[source] · dinv[segment])`, adds the bias, rectifies, gathers the hidden rows at both
  ends of every edge, lays them side by side and multiplies by the whole 10 × 2 weight.

  The two agree where every factor is a real number (distributing `dinv i` and `W j` over the edge sum fails at the
  infinities; the precondition makes `x` and `W` finite, and `dinv` is the inverse root of a positive integer) and where
  the index words name nodes: at a word outside the table the reference's gathers clamp while the kernel's takes answer
  the not-a-number word, so the precondition asks every word of the second edge table, and every source word of the
  first, to lie in `[0, 200000)`. The segment words need nothing: both programs drop an edge whose segment word names
  no node.

  The three frames are the generated frame runs. `preserves` is trivial (the idealization rewrote nothing). For
  `algebraic` both runs end at one specification array (Proof/Spec.lean): the kernel's through the staged arrays, the
  body's row function and the host's tail (Proof/KValue.lean), the reference's stage by stage (Proof/RefValue.lean).
-/
import proofs.«424222_j14405320311021_3_alg».proof.Defs
import proofs.«424222_j14405320311021_3_alg».proof.Proof.Gen.Kernel
import proofs.«424222_j14405320311021_3_alg».proof.Proof.Gen.Kernel.Skeleton
import proofs.«424222_j14405320311021_3_alg».proof.Proof.Gen.Kernel.Launch
import proofs.«424222_j14405320311021_3_alg».proof.Proof.Gen.Kernel.Points
import proofs.«424222_j14405320311021_3_alg».proof.Proof.KernelFrame
import proofs.«424222_j14405320311021_3_alg».proof.Proof.Gen.KernelIdeal
import proofs.«424222_j14405320311021_3_alg».proof.Proof.Gen.KernelIdeal.Skeleton
import proofs.«424222_j14405320311021_3_alg».proof.Proof.Gen.KernelIdeal.Launch
import proofs.«424222_j14405320311021_3_alg».proof.Proof.Gen.KernelIdeal.Points
import proofs.«424222_j14405320311021_3_alg».proof.Proof.KernelIdealFrame
import proofs.«424222_j14405320311021_3_alg».proof.Proof.Gen.ReferenceIdeal
import proofs.«424222_j14405320311021_3_alg».proof.Proof.RefRun
import proofs.«424222_j14405320311021_3_alg».proof.Proof.RefRead
import proofs.«424222_j14405320311021_3_alg».proof.Proof.Gen.Pre_finite_inputs
import proofs.«424222_j14405320311021_3_alg».proof.Proof.PreDecode
import proofs.«424222_j14405320311021_3_alg».proof.Proof.KValue
import proofs.«424222_j14405320311021_3_alg».proof.Proof.RefValue
import Idealize.ShloMosaic.Adequacy
import Idealize.ShloMosaic.Init

noncomputable section

namespace Cert.Proof

open Idealize.ShloMosaic Idealize.SL.Sem

/-- The word-level kernel program runs and keeps its arguments: the generated frame run. -/
theorem frame_k : Cert.frame_Kernel := fun m ρ _ => Cert.Kernel.GenP.frame m ρ

/-- The idealized kernel program likewise. -/
theorem frame_ki : Cert.frame_KernelIdeal := fun m ρ _ => Cert.KernelIdeal.GenP.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end at the specification's array of arguments that agree. -/
theorem algebraic : Cert.algebraic_KernelIdeal_ReferenceIdeal := by
  intro m ρ m' ρ' hpre hagree
  have hg := Cert.PreDecode.good_of_pre m hpre
  refine ⟨_, Cert.KernelIdeal.KV.run m ρ hg, ?_⟩
  have hg' : ∀ c : Dev Cert.ReferenceIdeal.nD, Cert.Spec.Good
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) := fun c => by
    rw [(hagree c).1, (hagree c).2.1, (hagree c).2.2.1, (hagree c).2.2.2.1]
    exact hg c
  refine (θ_run Cert.ReferenceIdeal.defs _ _).mono (fun _ h c => ⟨(h c).1.trans ?_, (h c).2⟩)
    (Cert.ReferenceIdeal.RV.run m' ρ' hg')
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
